-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg6 : IVec S800000 32) (main_v32 : IVec S_ 1) (main_c_12 : IVec S_ 32) : IVec S_ 1 :=
  let main_v33 : IVec S800000 32 := broadcastInDim S800000 ![] bcast_S_S800000 main_c_12
  let main_v34 : IVec S800000 1 := cmpi .slt main_arg6 main_v33
  let main_c_13 : IVec S_ 1 := constantI S_ 1 1#1
  let main_v35 : IVec S_ 1 := (fun x v => Host.reduce IntOp.andi x v reducesTo_S800000_S_d0 h_S_) main_v34 main_c_13
  let main_v36 : IVec S_ 1 := andi main_v32 main_v35
  main_v36

def fn_part1 {F : FTy → Type} [FloatOps F] (main_arg4 : FVec F S64x64 .f32) (main_arg5 : FVec F S64 .f32) (main_arg6 : IVec S800000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_c_10 : IVec S_ 32 := constantI S_ 32 0#32
  let main_v29 : IVec S800000 32 := broadcastInDim S800000 ![] bcast_S_S800000 main_c_10
  let main_v30 : IVec S800000 1 := cmpi .sge main_arg6 main_v29
  let main_c_11 : IVec S_ 1 := constantI S_ 1 1#1
  let main_v31 : IVec S_ 1 := (fun x v => Host.reduce IntOp.andi x v reducesTo_S800000_S_d0 h_S_) main_v30 main_c_11
  let main_v32 : IVec S_ 1 := andi main_v28 main_v31
  let main_c_12 : IVec S_ 32 := constantI S_ 32 50000#32
  fn_part2 (F := F) main_arg6 main_v32 main_c_12

def fn {F : FTy → Type} [FloatOps F] (main_arg0 : FVec F S50000x64 .f32) (main_arg1 : FVec F S800000 .f32) (main_arg2 : FVec F S64x64 .f32) (main_arg3 : FVec F S64 .f32) (main_arg4 : FVec F S64x64 .f32) (main_arg5 : FVec F S64 .f32) (main_arg6 : IVec S800000 32) (main_arg7 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S800768 : Shape := ⟨1, ![800768]⟩
abbrev S50176x64 : Shape := ⟨2, ![50176, 64]⟩
abbrev S800768x64 : Shape := ⟨2, ![800768, 64]⟩
abbrev S2048 : Shape := ⟨1, ![2048]⟩
abbrev S1024x64 : Shape := ⟨2, ![1024, 64]⟩
abbrev S2048x64 : Shape := ⟨2, ![2048, 64]⟩
abbrev S1024x1 : Shape := ⟨2, ![1024, 1]⟩
abbrev S1x2048 : Shape := ⟨2, ![1, 2048]⟩
abbrev S1024x2048 : Shape := ⟨2, ![1024, 2048]⟩
abbrev S2048x1 : Shape := ⟨2, ![2048, 1]⟩
abbrev S1x64 : Shape := ⟨2, ![1, 64]⟩

abbrev nBuf : Space → Nat
  | .hbm => 23
  | .vmem => 23
  | .smem => 0
  | _ => 0

abbrev bufTy : (tb : Table) → Fin (tcTables nBuf tb) → BufTy
  | .hbm, ⟨0, _⟩ => ⟨S50000x64, .f32⟩
  | .hbm, ⟨1, _⟩ => ⟨S800000, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S800000, .i32⟩
  | .hbm, ⟨7, _⟩ => ⟨S800000, .i32⟩
  | .hbm, ⟨8, _⟩ => ⟨S_, .i32⟩
  | .hbm, ⟨9, _⟩ => ⟨S_, .i32⟩
  | .hbm, ⟨10, _⟩ => ⟨S800768, .i32⟩
  | .hbm, ⟨11, _⟩ => ⟨S_, .f32⟩
  | .hbm, ⟨12, _⟩ => ⟨S_, .f32⟩
  | .hbm, ⟨13, _⟩ => ⟨S800768, .f32⟩
  | .hbm, ⟨14, _⟩ => ⟨S_, .i32⟩
  | .hbm, ⟨15, _⟩ => ⟨S_, .i32⟩
  | .hbm, ⟨16, _⟩ => ⟨S800768, .i32⟩
  | .hbm, ⟨17, _⟩ => ⟨S_, .f32⟩
  | .hbm, ⟨18, _⟩ => ⟨S_, .f32⟩
  | .hbm, ⟨19, _⟩ => ⟨S50176x64, .f32⟩
  | .hbm, ⟨20, _⟩ => ⟨S800768x64, .bf16⟩
  | .hbm, ⟨21, _⟩ => ⟨S50176x64, .f32⟩
  | .hbm, ⟨22, _⟩ => ⟨S50000x64, .f32⟩
  | .local _ .vmem, ⟨0, _⟩ => ⟨S2048, .i32⟩
  | .local _ .vmem, ⟨1, _⟩ => ⟨S2048, .i32⟩
  | .local _ .vmem, ⟨2, _⟩ => ⟨S2048, .f32⟩
  | .local _ .vmem, ⟨3, _⟩ => ⟨S2048, .f32⟩
  | .local _ .vmem, ⟨4, _⟩ => ⟨S1024x64, .f32⟩
  | .local _ .vmem, ⟨5, _⟩ => ⟨S1024x64, .f32⟩
  | .local _ .vmem, ⟨6, _⟩ => ⟨S2048x64, .bf16⟩
  | .local _ .vmem, ⟨7, _⟩ => ⟨S2048x64, .bf16⟩
  | .local _ .vmem, ⟨8, _⟩ => ⟨S2048x64, .f32⟩
  | .local _ .vmem, ⟨9, _⟩ => ⟨S2048x64, .bf16⟩
  | .local _ .vmem, ⟨10, _⟩ => ⟨S2048x64, .bf16⟩
  | .local _ .vmem, ⟨11, _⟩ => ⟨S2048, .i32⟩
  | .local _ .vmem, ⟨12, _⟩ => ⟨S2048, .i32⟩
  | .local _ .vmem, ⟨13, _⟩ => ⟨S1024x64, .f32⟩
  | .local _ .vmem, ⟨14, _⟩ => ⟨S1024x64, .f32⟩
  | .local _ .vmem, ⟨15, _⟩ => ⟨S64x64, .f32⟩
  | .local _ .vmem, ⟨16, _⟩ => ⟨S64, .f32⟩
  | .local _ .vmem, ⟨17, _⟩ => ⟨S64x64, .f32⟩
  | .local _ .vmem, ⟨18, _⟩ => ⟨S64, .f32⟩
  | .local _ .vmem, ⟨19, _⟩ => ⟨S1024x64, .f32⟩
  | .local _ .vmem, ⟨20, _⟩ => ⟨S1024x64, .f32⟩
  | .local _ .vmem, ⟨21, _⟩ => ⟨S1024x64, .f32⟩
  | .local _ .vmem, ⟨22, _⟩ => ⟨S1024x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_cst : Ref sig .tc := ⟨.hbm, 11, rfl⟩
abbrev main_call1_v0 : Ref sig .tc := ⟨.hbm, 12, rfl⟩
abbrev main_v1 : Ref sig .tc := ⟨.hbm, 13, rfl⟩
abbrev main_c_0 : Ref sig .tc := ⟨.hbm, 14, rfl⟩
abbrev main_call2_v0 : Ref sig .tc := ⟨.hbm, 15, rfl⟩
abbrev main_v2 : Ref sig .tc := ⟨.hbm, 16, rfl⟩
abbrev main_cst_1 : Ref sig .tc := ⟨.hbm, 17, rfl⟩
abbrev main_call3_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc1_scratch0 : Ref sig .tc := ⟨.vmem, 21, rfl⟩
abbrev cc1_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨2, ![391, 49], ![false, false]⟩

def k0_cond2 (i : grid0.Coords) : BitVec 1 :=
  let arg1 : BitVec 32 := BitVec.ofNat 32 (i 1).val
  let c48_i32 : BitVec 32 := 48#32
  let v29 : BitVec 1 := Scalar.cmpi .eq arg1 c48_i32
  let v30 : BitVec 32 := Scalar.extui v29
  let c0_i32_9 : BitVec 32 := 0#32
  let v31 : BitVec 1 := Scalar.cmpi .ne v30 c0_i32_9
  v31

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![49, 391], ![false, false]⟩

def k1_cond2 (i : grid1.Coords) : BitVec 1 :=
  let arg1 : BitVec 32 := BitVec.ofNat 32 (i 1).val
  let c390_i32 : BitVec 32 := 390#32
  let v31 : BitVec 1 := Scalar.cmpi .eq arg1 c390_i32
  let v32 : BitVec 32 := Scalar.extui v31
  let c0_i32_13 : BitVec 32 := 0#32
  let v33 : BitVec 1 := Scalar.cmpi .ne v32 c0_i32_13
  v33

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1024x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  pads_S800000_S800768_07680 : S800000.Pads (![0] : Fin 1 → Nat) ![768] ![0] S800768
  h_S_ : 0 < S_.numel
  pads_S50000x64_S50176x64_01760_000 : S50000x64.Pads (![0, 0] : Fin 2 → Nat) ![176, 0] ![0, 0] S50176x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  iota_S1024x1_d0_w32 : S1024x1.Iotas .tc 32 [0]
  inb_S2048_S2048_0 : ∀ a, (![0] : Fin 1 → Nat) a + S2048.size a ≤ S2048.size a
  h_S2048 : 0 < S2048.numel
  shapeCasts_S2048_S2048 : S2048.ShapeCasts S2048
  shapeCasts_S2048_S1x2048 : S2048.ShapeCasts S1x2048
  broadcasts_S1024x1_S1024x2048 : S1024x1.Broadcasts S1024x2048
  broadcasts_S1x2048_S1024x2048 : S1x2048.Broadcasts S1024x2048
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  packedbf16_S2048x64_S2048x64_0_0 : (Rect.unit (s := S2048x64) ![0, 0] S2048x64.size inb_S2048x64_S2048x64_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  natLt_1_32 : 1 < 32
  broadcasts_S1024x1_S1024x64 : S1024x1.Broadcasts S1024x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  slices_S50176x64_S50000x64_0_0 : S50176x64.Slices ![0, 0] S50000x64
  dot_S1024x2048_S1024x64_S2048x64_0_0_1_1_n_n_wf : DotDims.WF S1024x2048 S1024x64 S2048x64 [0] [0] [1] [1] [] []
  dot_S1024x2048_S2048x64_S1024x64_1_0_0_1_n_n_wf : DotDims.WF S1024x2048 S2048x64 S1024x64 [1] [0] [0] [1] [] []
  dot_S1024x2048_S2048x1_S1024x1_1_0_0_1_n_n_wf : DotDims.WF S1024x2048 S2048x1 S1024x1 [1] [0] [0] [1] [] []
  dot_S1024x64_S64x64_S1024x64_1_1_0_0_n_n_wf : DotDims.WF S1024x64 S64x64 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048.size a ≤ S800768.size a
  hwx0_0 : ∀ i : grid0.Coords, EltTy.bits .i32 = 32 ∨ (Rect.block (s := S800768) S2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S800768.size a
  hwx0_1 : ∀ i : grid0.Coords, EltTy.bits .f32 = 32 ∨ (Rect.block (s := S800768) S2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S50176x64.size a
  hwx0_2 : ∀ i : grid0.Coords, EltTy.bits .f32 = 32 ∨ (Rect.block (s := S50176x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S800768x64.size a
  hwx0_3 : ∀ i : grid0.Coords, EltTy.bits .bf16 = 32 ∨ (Rect.block (s := S800768x64) S2048x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S800768x64.size a
  hwx1_0 : ∀ i : grid1.Coords, EltTy.bits .bf16 = 32 ∨ (Rect.block (s := S800768x64) S2048x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048.size a ≤ S800768.size a
  hwx1_1 : ∀ i : grid1.Coords, EltTy.bits .i32 = 32 ∨ (Rect.block (s := S800768) S2048.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S50176x64.size a
  hwx1_2 : ∀ i : grid1.Coords, EltTy.bits .f32 = 32 ∨ (Rect.block (s := S50176x64) S1024x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x64.size a ≤ S50176x64.size a
  hwx1_7 : ∀ i : grid1.Coords, EltTy.bits .f32 = 32 ∨ (Rect.block (s := S50176x64) S1024x64.size (cc1_transform_7 i) (hinb1_7 i)).WholeWords (EltTy.packing .f32)

variable [Facts₀]

def dot_S1024x2048_S1024x64_S2048x64_0_0_1_1_n_n : DotDims S1024x2048 S1024x64 S2048x64 where
  lhsContracting := [0]
  rhsContracting := [0]
  lhsNonContracting := [1]
  rhsNonContracting := [1]
  lhsBatch := []
  rhsBatch := []
  wf := dot_S1024x2048_S1024x64_S2048x64_0_0_1_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S1024x2048_S2048x1_S1024x1_1_0_0_1_n_n : DotDims S1024x2048 S2048x1 S1024x1 where
  lhsContracting := [1]
  rhsContracting := [0]
  lhsNonContracting := [0]
  rhsNonContracting := [1]
  lhsBatch := []
  rhsBatch := []
  wf := dot_S1024x2048_S2048x1_S1024x1_1_0_0_1_n_n_wf
def dot_S1024x64_S64x64_S1024x64_1_1_0_0_n_n : DotDims S1024x64 S64x64 S1024x64 where
  lhsContracting := [1]
  rhsContracting := [1]
  lhsNonContracting := [0]
  rhsNonContracting := [0]
  lhsBatch := []
  rhsBatch := []
  wf := dot_S1024x64_S64x64_S1024x64_1_1_0_0_n_n_wf

abbrev win0_0 : Pipeline.Window sig grid0 :=
  Pipeline.Window.ofSpec (Memref.whole main_v0) S2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v4) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg5) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S1024x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩

abbrev nBuf : Space → Nat
  | .hbm => 47
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S800000x1, .f32⟩
  | .hbm, ⟨18, _⟩ => ⟨S800000x64, .f32⟩
  | .hbm, ⟨19, _⟩ => ⟨S800000x64, .f32⟩
  | .hbm, ⟨20, _⟩ => ⟨S_, .f32⟩
  | .hbm, ⟨21, _⟩ => ⟨S50000x64, .f32⟩
  | .hbm, ⟨22, _⟩ => ⟨S800000x1, .i32⟩
  | .hbm, ⟨23, _⟩ => ⟨S50000x64, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x64, .f32⟩
  | .hbm, ⟨35, _⟩ => ⟨S50000x64, .f32⟩
  | .hbm, ⟨36, _⟩ => ⟨S64x64, .f32⟩
  | .hbm, ⟨37, _⟩ => ⟨S50000x64, .f32⟩
  | .hbm, ⟨38, _⟩ => ⟨S1x64, .f32⟩
  | .hbm, ⟨39, _⟩ => ⟨S50000x64, .f32⟩
  | .hbm, ⟨40, _⟩ => ⟨S50000x64, .f32⟩
  | .hbm, ⟨41, _⟩ => ⟨S64x64, .f32⟩
  | .hbm, ⟨42, _⟩ => ⟨S50000x64, .f32⟩
  | .hbm, ⟨43, _⟩ => ⟨S1x64, .f32⟩
  | .hbm, ⟨44, _⟩ => ⟨S50000x64, .f32⟩
  | .hbm, ⟨45, _⟩ => ⟨S50000x64, .f32⟩
  | .hbm, ⟨46, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.K.Reg0.lean ====
/-
  Region 0, the gather: at grid point (eb, k) the body compares the 1024 node ids of node block k with the 2048
  source ids of edge block eb, selects the edge weight where they agree and zero elsewhere, contracts that
  1024 x 2048 matrix with the node block's 1024 x 64 features over the node axis, and adds the 2048 x 64 product
  into a scratch accumulator that it zeroes at k = 0; at k = 48 the accumulator is stored as the edge block's
  messages. Stated here, for any float instance: what the accumulator holds after each point (acc0), the
  pipeline's proof data over it, and the body's obligation at every point.
-/
import proofs.«404055_j420906795210_2_alg».proof.Proof.Gen.Kernel.Launch
import proofs.«404055_j420906795210_2_alg».proof.Proof.Gen.Kernel.Skeleton
import proofs.«404055_j420906795210_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The accumulator -/

/-- The scratch accumulator after the body at position n: the node block's one-hot product added to zero at the
    first node block of an edge block (n ≡ 0 mod 49), to what position n - 1 left otherwise. -/
def acc0 (c : Dev nD) : (n : ℕ) → n < cfg0.N → Vec F S2048x64 .f32
  | 0, hn => k0_pay2 (grid0.coords ⟨0, hn⟩) (iblk0 V c 0 ⟨0, hn⟩) (iblk0 V c 1 ⟨0, hn⟩) (iblk0 V c 2 ⟨0, hn⟩) (k0_pay1 (F := F))
  | n + 1, hn =>
    if (n + 1) % 49 = 0 then
      k0_pay2 (grid0.coords ⟨n + 1, hn⟩) (iblk0 V c 0 ⟨n + 1, hn⟩) (iblk0 V c 1 ⟨n + 1, hn⟩) (iblk0 V c 2 ⟨n + 1, hn⟩) (k0_pay1 (F := F))
    else
      k0_pay2 (grid0.coords ⟨n + 1, hn⟩) (iblk0 V c 0 ⟨n + 1, hn⟩) (iblk0 V c 1 ⟨n + 1, hn⟩) (iblk0 V c 2 ⟨n + 1, hn⟩) (acc0 c n (Nat.lt_of_succ_lt hn))

/-- At the first node block of an edge block the accumulator starts from zero. -/
theorem acc0_first (c : Dev nD) (t : Fin cfg0.N) (h : t.val % 49 = 0) :
    acc0 V c t.val t.isLt = k0_pay2 (grid0.coords t) (iblk0 V c 0 t) (iblk0 V c 1 t) (iblk0 V c 2 t) (k0_pay1 (F := F)) := by
  obtain ⟨n, hn⟩ := t
  cases n with
  | zero => rfl
  | succ n => exact if_pos h

/-- At every other node block it adds to what the point before left. -/
theorem acc0_next (c : Dev nD) (t : Fin cfg0.N) (h : t.val % 49 ≠ 0) :
    acc0 V c t.val t.isLt = k0_pay2 (grid0.coords t) (iblk0 V c 0 t) (iblk0 V c 1 t) (iblk0 V c 2 t)
      (acc0 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant and the proof data -/

/-- The scratch operand as a memref. -/
abbrev scM0 : Memref sig .tc .vmem S2048x64 .f32 := Memref.whole cc0_scratch0

/-- The scoped buffers region 0 neither stages nor names (the other region's), each whole at anything. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The region's invariant before position n: before the first point the scoped buffers no window stages at
    anything and the generator register at some state; afterwards the same with the scratch accumulator at what
    position n - 1 left in it. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ rest0 (F := F) c ∗ (∃ r, prngReg c r))

/-- The proof data of pipeline 0 on core c: the arrays as the region finds them; after the body each input's
    buffer at its block and the output's at the accumulator's rounding; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = k0_pay3 (acc0 V c t.val t.isLt) := by dsimp only [dat0]

/-! ## The invariant at a position, and what the launch hands over -/

/-- After position n the accumulator holds that position's value. -/
theorem PhiS0_succ (c : Dev nD) (n : ℕ) (hn : n < cfg0.N) :
    PhiS0 V c (n + 1) hn = iprop(owns (c : Thread nD τ) scM0 fullShare (acc0 V c n hn) ∗ rest0 (F := F) c ∗ (∃ r, prngReg c r)) := rfl

theorem PhiS0_zero (c : Dev nD) (n : ℕ) (h : n ≤ cfg0.N) (hz : n = 0) : PhiS0 V c n h = Pipeline.ΦA spec0 c := by
  subst hz; rfl

/-- Before a position that is not the first the accumulator holds what the position before left. -/
theorem PhiS0_pos (c : Dev nD) (n : ℕ) (h : n ≤ cfg0.N) (hz : n ≠ 0) :
    PhiS0 V c n h = iprop(owns (c : Thread nD τ) scM0 fullShare (acc0 V c (n - 1) (by omega)) ∗ rest0 (F := F) c ∗ (∃ r, prngReg c r)) := by
  cases n with
  | zero => exact absurd rfl hz
  | succ n => rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.val_castSucc]

/-- What the launch hands the region: the accumulator's buffer at anything, the other region's scoped buffers at
    anything, the generator register at some state. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA rest0; rw [scopedRest0_eq]; simp only [scM0, owns_whole]
  rfl

/-! ## What each window's buffer holds when the body runs -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]

/-- The source ids' buffer holds the edge block's ids at every point, fetched there or carried over from the point
    before (the edge block changes only every 49 points). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

/-- The same for the edge weights. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-- The node block's features are fetched at every point. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The body's two tests, on the node-block coordinate -/

/-- The first conditional's test as the body computes it: the node-block coordinate is 0. -/
abbrev cond0_0 (i : grid0.Coords) : Prop := (Scalar.cmpi .ne (Scalar.extui (Scalar.cmpi .eq (BitVec.ofNat 32 (i 1).val) 0#32)) 0#32) = 1#1
/-- The second conditional's test: the node-block coordinate is 48, the last. -/
abbrev cond0_1 (i : grid0.Coords) : Prop := k0_cond2 i = 1#1

/-! ## Reading back a buffer stored whole -/

theorem zeros1 : (![0] : Fin 1 → ℕ) = fun _ => 0 := by funext a; fin_cases a; rfl
theorem zeros2 : (![0, 0] : Fin 2 → ℕ) = fun _ => 0 := by funext a; fin_cases a <;> rfl

/-- A buffer whose LAST store covered it whole reads as that store's payload, whatever was stored before. -/
theorem read_whole_store {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero hz inb y⟩)).trans
    (View.canon_cons_unit_zero hz inb w L)

/-- A whole-buffer load of a whole memref held at contents that read `X` reads `X`. -/
theorem load_whole {κ : Kind} {sp : Space} {S : Shape} {e : EltTy} (m : Memref sig κ sp S e) (hm : m.IsWhole)
    {off : Fin S.rank → ℕ} (hz : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero hz]

/-! ## The body's run, by the two tests -/

set_option maxHeartbeats 1000000 in
/-- At a node block that is neither the first nor the last the body finds the accumulator at `xs` and leaves it at
    `xs` plus the block's one-hot product; the inputs' buffers and the output's are left as found. -/
theorem run0_B (c : Dev nD) (i : grid0.Coords) (arg2 : Memref sig .tc .vmem S2048 .i32) (harg2 : arg2.IsWhole) (arg3 : Memref sig .tc .vmem S2048 .f32) (harg3 : arg3.IsWhole) (arg4 : Memref sig .tc .vmem S1024x64 .f32) (harg4 : arg4.IsWhole) (arg5 : Memref sig .tc .vmem S2048x64 .bf16) (harg5 : arg5.IsWhole) (arg6 : Memref sig .tc .vmem S2048x64 .f32) (harg6 : arg6.IsWhole) (hc0 : ¬cond0_0 i) (hc1 : ¬cond0_1 i)
    (x0 : Vec F S2048 .i32) (x1 : Vec F S2048 .f32) (x2 : Vec F S1024x64 .f32) (xi3 : Vec F S2048x64 .bf16) (xs : Vec F S2048x64 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k0_pay2 i x0 x1 x2 xs)) -∗ K ⟨⟩))
          ⊢ wp frame (wpE (defs₀ (F := F)) Variants.none c none) E (cc0__gather_scale_kernel i arg2 harg2 arg3 harg3 arg4 harg4 arg5 harg5 arg6 harg6) K := by
  simp only [cc0__gather_scale_kernel_eq_skeleton]; unfold cc0__gather_scale_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  rw [read_whole_store _ _ zeros2, load_whole arg2 harg2 zeros1, load_whole arg3 harg3 zeros1, load_whole arg4 harg4 zeros2, load_whole arg6 harg6 zeros2]

set_option maxHeartbeats 1000000 in
/-- At the first node block of an edge block the body zeroes the accumulator, found at anything, reads the zeros
    back and leaves the block's one-hot product added to them; the inputs' buffers and the output's are left as found. -/
theorem run0_A (c : Dev nD) (i : grid0.Coords) (arg2 : Memref sig .tc .vmem S2048 .i32) (harg2 : arg2.IsWhole) (arg3 : Memref sig .tc .vmem S2048 .f32) (harg3 : arg3.IsWhole) (arg4 : Memref sig .tc .vmem S1024x64 .f32) (harg4 : arg4.IsWhole) (arg5 : Memref sig .tc .vmem S2048x64 .bf16) (harg5 : arg5.IsWhole) (arg6 : Memref sig .tc .vmem S2048x64 .f32) (harg6 : arg6.IsWhole) (hc0 : cond0_0 i) (hc1 : ¬cond0_1 i)
    (x0 : Vec F S2048 .i32) (x1 : Vec F S2048 .f32) (x2 : Vec F S1024x64 .f32) (xi3 : Vec F S2048x64 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k0_pay2 i x0 x1 x2 (k0_pay1 (F := F)))) -∗ K ⟨⟩))
          ⊢ wp frame (wpE (defs₀ (F := F)) Variants.none c none) E (cc0__gather_scale_kernel i arg2 harg2 arg3 harg3 arg4 harg4 arg5 harg5 arg6 harg6) K := by
  simp only [cc0__gather_scale_kernel_eq_skeleton]; unfold cc0__gather_scale_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  sl_unfold_words
  rw [read_whole_store _ _ zeros2, load_whole arg2 harg2 zeros1, load_whole arg3 harg3 zeros1, load_whole arg4 harg4 zeros2, View.readCov_unit_zero _ zeros2]

set_option maxHeartbeats 1000000 in
/-- At the last node block the body adds the block's product as elsewhere and then stores the accumulator, rounded,
    whole into the output's buffer, found at anything. -/
theorem run0_C (c : Dev nD) (i : grid0.Coords) (arg2 : Memref sig .tc .vmem S2048 .i32) (harg2 : arg2.IsWhole) (arg3 : Memref sig .tc .vmem S2048 .f32) (harg3 : arg3.IsWhole) (arg4 : Memref sig .tc .vmem S1024x64 .f32) (harg4 : arg4.IsWhole) (arg5 : Memref sig .tc .vmem S2048x64 .bf16) (harg5 : arg5.IsWhole) (arg6 : Memref sig .tc .vmem S2048x64 .f32) (harg6 : arg6.IsWhole) (hc0 : ¬cond0_0 i) (hc1 : cond0_1 i)
    (x0 : Vec F S2048 .i32) (x1 : Vec F S2048 .f32) (x2 : Vec F S1024x64 .f32) (xs : Vec F S2048x64 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare (k0_pay3 (k0_pay2 i x0 x1 x2 xs)) ∗ owns (c : Thread nD τ) arg6 fullShare (k0_pay2 i x0 x1 x2 xs)) -∗ K ⟨⟩))
          ⊢ wp frame (wpE (defs₀ (F := F)) Variants.none c none) E (cc0__gather_scale_kernel i arg2 harg2 arg3 harg3 arg4 harg4 arg5 harg5 arg6 harg6) K := by
  simp only [cc0__gather_scale_kernel_eq_skeleton]; unfold cc0__gather_scale_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_words
    rw [read_whole_store _ _ zeros2, View.readCov_unit_zero _ zeros2, load_whole arg2 harg2 zeros1, load_whole arg3 harg3 zeros1, load_whole arg4 harg4 zeros2, load_whole arg6 harg6 zeros2]
  iexists _; isplitr
  swap; · iexact HS
  ipureintro
  sl_unfold_words
  rw [read_whole_store _ _ zeros2, load_whole arg2 harg2 zeros1, load_whole arg3 harg3 zeros1, load_whole arg4 harg4 zeros2, load_whole arg6 harg6 zeros2]

/-! ## The two tests in closed form: the node-block coordinate of point t is t mod 49 -/

theorem coord0_1 (t : Fin cfg0.N) : (grid0.coords t 1).val = t.val % 49 := by
  show t.val / grid0.stride 1 % 49 = t.val % 49
  rw [show grid0.stride 1 = 1 from by decide, Nat.div_one]

theorem cond0_0_iff (i : grid0.Coords) : cond0_0 i ↔ (i 1).val = 0 := by
  have h : ∀ k : Fin 49, (Scalar.cmpi .ne (Scalar.extui (Scalar.cmpi .eq (BitVec.ofNat 32 k.val) 0#32)) 0#32) = 1#1 ↔ k.val = 0 := by decide
  exact h (i 1)

theorem cond0_1_iff (i : grid0.Coords) : cond0_1 i ↔ (i 1).val = 48 := by
  have h : ∀ k : Fin 49, (Scalar.cmpi .ne (Scalar.extui (Scalar.cmpi .eq (BitVec.ofNat 32 k.val) 48#32)) 0#32) = 1#1 ↔ k.val = 48 := by decide
  exact h (i 1)

theorem hcond0_0 (t : Fin cfg0.N) : cond0_0 (grid0.coords t) ↔ t.val % 49 = 0 :=
  (cond0_0_iff _).trans (by rw [coord0_1])

theorem hcond0_1 (t : Fin cfg0.N) : cond0_1 (grid0.coords t) ↔ t.val % 49 = 48 :=
  (cond0_1_iff _).trans (by rw [coord0_1])

/-! ## Where the output window is idle -/

/-- Off the last node block the body stores nothing into the output's buffer: the window is idle there, -/
theorem idleAt0_3 (i : grid0.Coords) (h : ¬cond0_1 i) : cfg0.idle 3 i = true := by
  show (!(k0_cond2 i == 1#1)) = true
  rw [Bool.not_eq_true', beq_eq_false_iff_ne]; exact h

/-- and not written back; -/
theorem noFlush0_3 (t : Fin cfg0.N) (h : ¬t.val % 49 = 48) : (cfg0.win 3).flush t = false :=
  Bool.eq_false_iff.mpr fun hf => h ((flush0_3 t).mp hf)

/-- at the last node block it is live. -/
theorem liveAt0_3 (i : grid0.Coords) (h : cond0_1 i) : cfg0.idle 3 i = false := by
  show (!(k0_cond2 i == 1#1)) = false
  rw [h]; rfl

/-- The three inputs are never idle. -/
theorem liveAt0_in (w : Fin cfg0.W) (t : Fin cfg0.N) (hw : w.val < 3 := by decide) : cfg0.idle w (cfg0.grid.coords t) = false := by
  match w, hw with
  | 0, _ => rfl
  | 1, _ => rfl
  | 2, _ => rfl

theorem leaves0_0 (c : Dev nD) (t : Fin cfg0.N) :
    (dat0 V c).leavesExact 0 t = owns (c : Thread nD τ) (st0_0 t) fullShare (iblk0 V c 0 t) := by
  rw [show (dat0 V c).leavesExact 0 t = owns (c : Thread nD τ) (st0_0 t) fullShare ((dat0 V c).after 0 t) from by
    unfold Dat.leavesExact; rw [liveAt0_in 0 t], after0_0]
theorem leaves0_1 (c : Dev nD) (t : Fin cfg0.N) :
    (dat0 V c).leavesExact 1 t = owns (c : Thread nD τ) (st0_1 t) fullShare (iblk0 V c 1 t) := by
  rw [show (dat0 V c).leavesExact 1 t = owns (c : Thread nD τ) (st0_1 t) fullShare ((dat0 V c).after 1 t) from by
    unfold Dat.leavesExact; rw [liveAt0_in 1 t], after0_1]
theorem leaves0_2 (c : Dev nD) (t : Fin cfg0.N) :
    (dat0 V c).leavesExact 2 t = owns (c : Thread nD τ) (st0_2 t) fullShare (iblk0 V c 2 t) := by
  rw [show (dat0 V c).leavesExact 2 t = owns (c : Thread nD τ) (st0_2 t) fullShare ((dat0 V c).after 2 t) from by
    unfold Dat.leavesExact; rw [liveAt0_in 2 t], after0_2]

/-- Off the last node block the output's buffer goes back as it was found. -/
theorem leaves0_3_idle (c : Dev nD) (t : Fin cfg0.N) (h : ¬t.val % 49 = 48) :
    (dat0 V c).leavesExact 3 t = iprop(∃ d, owns (c : Thread nD τ) (st0_3 t) fullShare ((dat0 V c).before 3 t d)) :=
  Dat.leavesExact_idle (dat0 V c) 3 t (idleAt0_3 _ fun hc => h ((hcond0_1 t).mp hc)) (noFlush0_3 t h)

/-- At the last node block it holds the accumulator's rounding. -/
theorem leaves0_3_live (c : Dev nD) (t : Fin cfg0.N) (h : t.val % 49 = 48) :
    (dat0 V c).leavesExact 3 t = owns (c : Thread nD τ) (st0_3 t) fullShare (k0_pay3 (acc0 V c t.val t.isLt)) := by
  unfold Dat.leavesExact; rw [liveAt0_3 _ ((hcond0_1 t).mpr h), after0_3]

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The three inputs' buffers hold their blocks; the point's position mod 49 says which of
    the three runs applies; the invariant hands the body the accumulator at what the point before left (at anything
    at the very first point) and takes it back at this point's value, the other region's buffers and the generator
    register passing through untouched; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, PhiS0_castSucc]
  have hN : t.val < 19159 := lt_of_lt_of_eq t.isLt (show cfg0.N = 19159 from N_0)
  by_cases h0 : t.val % 49 = 0
  · have h1 : ¬t.val % 49 = 48 := by omega
    rw [leaves0_3_idle V c t h1, acc0_first V c t h0]
    by_cases hz : t.val = 0
    · rw [PhiS0_zero V c _ _ hz, PhiA0_eq]
      iintro ⟨⟨⟨HS, HR⟩, Hg⟩, Ho, ⟨%d0, H0⟩, ⟨%d1, H1⟩, ⟨%d2, H2⟩, ⟨%d3, H3⟩⟩
      iapply (run0_A c (grid0.coords t) _ _ _ _ _ _ _ _ _ _ ((hcond0_0 t).mpr h0) (fun h => h1 ((hcond0_1 t).mp h)) (iblk0 V c 0 t) (iblk0 V c 1 t) (iblk0 V c 2 t) ((dat0 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [PhiS0_pos V c _ _ hz]
      iintro ⟨⟨HS, HR, Hg⟩, Ho, ⟨%d0, H0⟩, ⟨%d1, H1⟩, ⟨%d2, H2⟩, ⟨%d3, H3⟩⟩
      iapply (run0_A c (grid0.coords t) _ _ _ _ _ _ _ _ _ _ ((hcond0_0 t).mpr h0) (fun h => h1 ((hcond0_1 t).mp h)) (iblk0 V c 0 t) (iblk0 V c 1 t) (iblk0 V c 2 t) ((dat0 V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    rw [PhiS0_pos V c _ _ hz, acc0_next V c t h0]
    by_cases h1 : t.val % 49 = 48
    · rw [leaves0_3_live V c t h1, acc0_next V c t h0]
      iintro ⟨⟨HS, HR, Hg⟩, Ho, ⟨%d0, H0⟩, ⟨%d1, H1⟩, ⟨%d2, H2⟩, ⟨%d3, H3⟩⟩
      iapply (run0_C c (grid0.coords t) _ _ _ _ _ _ _ _ _ _ (fun h => h0 ((hcond0_0 t).mp h)) ((hcond0_1 t).mpr h1) (iblk0 V c 0 t) (iblk0 V c 1 t) (iblk0 V c 2 t) (acc0 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [leaves0_3_idle V c t h1]
      iintro ⟨⟨HS, HR, Hg⟩, Ho, ⟨%d0, H0⟩, ⟨%d1, H1⟩, ⟨%d2, H2⟩, ⟨%d3, H3⟩⟩
      iapply (run0_B c (grid0.coords t) _ _ _ _ _ _ _ _ _ _ (fun h => h0 ((hcond0_0 t).mp h)) (fun h => h1 ((hcond0_1 t).mp h)) (iblk0 V c 0 t) (iblk0 V c 1 t) (iblk0 V c 2 t) ((dat0 V c).before 3 t d3) (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ :=
  fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped buffers and the generator register back. -/
theorem hout0 (c : Dev nD) : (dat0 V c).Φ (Fin.last cfg0.N) ⊢ Pipeline.ΦA spec0 c := by
  rw [show (dat0 V c).Φ (Fin.last cfg0.N) = PhiS0 V c cfg0.N (Nat.le_refl _) from rfl,
    PhiS0_pos V c _ _ (by have h : cfg0.N = 19159 := N_0; omega), PhiA0_eq]
  iintro ⟨HS, HR, Hg⟩
  isplitl [HS HR]
  · isplitl [HS]
    · iexists _; iexact HS
    iexact HR
  iexact Hg

end Cert.Kernel.H

end
-- ==== Proof.K.Reg1.lean ====
/-
  Region 1, the scatter and the two linear layers: at grid point (nb, eb) the body compares the 1024 node ids of
  node block nb with the 2048 destination ids of edge block eb, reads the one-hot matrix as numbers, contracts
  it over the edge axis with the edge block's 2048 x 64 messages and with a column of ones, and adds the two
  products into a 1024 x 64 and a 1024 x 1 scratch accumulator that it zeroes at eb = 0; at eb = 390 it divides
  the first by the larger of the second and one, applies the two linear layers to the node block's features and
  to that mean, and stores their sum as the node block's result. Stated here, for any float instance: what the
  two accumulators hold after each point (acc1), the pipeline's proof data over them, and the body's obligation
  at every point.
-/
import proofs.«404055_j420906795210_2_alg».proof.Proof.Gen.Kernel.Launch
import proofs.«404055_j420906795210_2_alg».proof.Proof.Gen.Kernel.Skeleton
import proofs.«404055_j420906795210_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulators -/

/-- The two scratch accumulators (the message sums, the in-degrees) after the body at position n: the edge
    block's one-hot products added to zero at the first edge block of a node block (n ≡ 0 mod 391), to what
    position n - 1 left otherwise. -/
def acc1 (c : Dev nD) : (n : ℕ) → n < cfg1.N → Vec F S1024x64 .f32 × Vec F S1024x1 .f32
  | 0, hn => (k1_pay4 (grid1.coords ⟨0, hn⟩) (iblk1 V c 1 ⟨0, hn⟩) (iblk1 V c 0 ⟨0, hn⟩) (k1_pay1 (F := F)),
      k1_pay5 (grid1.coords ⟨0, hn⟩) (iblk1 V c 1 ⟨0, hn⟩) (k1_pay2 (F := F)))
  | n + 1, hn =>
    if (n + 1) % 391 = 0 then
      (k1_pay4 (grid1.coords ⟨n + 1, hn⟩) (iblk1 V c 1 ⟨n + 1, hn⟩) (iblk1 V c 0 ⟨n + 1, hn⟩) (k1_pay1 (F := F)),
        k1_pay5 (grid1.coords ⟨n + 1, hn⟩) (iblk1 V c 1 ⟨n + 1, hn⟩) (k1_pay2 (F := F)))
    else
      (k1_pay4 (grid1.coords ⟨n + 1, hn⟩) (iblk1 V c 1 ⟨n + 1, hn⟩) (iblk1 V c 0 ⟨n + 1, hn⟩) (acc1 c n (Nat.lt_of_succ_lt hn)).1,
        k1_pay5 (grid1.coords ⟨n + 1, hn⟩) (iblk1 V c 1 ⟨n + 1, hn⟩) (acc1 c n (Nat.lt_of_succ_lt hn)).2)

/-- At the first edge block of a node block both accumulators start from zero. -/
theorem acc1_first (c : Dev nD) (t : Fin cfg1.N) (h : t.val % 391 = 0) :
    acc1 V c t.val t.isLt = (k1_pay4 (grid1.coords t) (iblk1 V c 1 t) (iblk1 V c 0 t) (k1_pay1 (F := F)),
      k1_pay5 (grid1.coords t) (iblk1 V c 1 t) (k1_pay2 (F := F))) := by
  obtain ⟨n, hn⟩ := t
  cases n with
  | zero => exact rfl
  | succ n => exact if_pos h

/-- At every other edge block they add to what the point before left. -/
theorem acc1_next (c : Dev nD) (t : Fin cfg1.N) (h : t.val % 391 ≠ 0) :
    acc1 V c t.val t.isLt = (k1_pay4 (grid1.coords t) (iblk1 V c 1 t) (iblk1 V c 0 t)
        (acc1 V c (t.val - 1) (Nat.lt_of_le_of_lt (Nat.sub_le _ _) t.isLt)).1,
      k1_pay5 (grid1.coords t) (iblk1 V c 1 t) (acc1 V c (t.val - 1) (Nat.lt_of_le_of_lt (Nat.sub_le _ _) t.isLt)).2) := by
  obtain ⟨n, hn⟩ := t
  cases n with
  | zero => exact absurd (Nat.zero_mod _) h
  | succ n => exact (if_neg h).trans rfl

/-- What the body stores as the node block's result at the last edge block: the two linear layers over the
    accumulators as position t leaves them. -/
def out1 (c : Dev nD) (t : Fin cfg1.N) : Vec F S1024x64 .f32 :=
  k1_pay6 (acc1 V c t.val t.isLt).1 (acc1 V c t.val t.isLt).2 (iblk1 V c 2 t) (iblk1 V c 3 t) (iblk1 V c 4 t) (iblk1 V c 5 t) (iblk1 V c 6 t)

/-! ## The invariant and the proof data -/

/-- The scratch operands as memrefs. -/
abbrev scM1a : Memref sig .tc .vmem S1024x64 .f32 := Memref.whole cc1_scratch0
abbrev scM1b : Memref sig .tc .vmem S1024x1 .f32 := Memref.whole cc1_scratch1

/-- The scoped buffers region 1 neither stages nor names (the other region's), each whole at anything. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The region's invariant before position n: before the first point the scoped buffers no window stages at
    anything and the generator register at some state; afterwards the same with the two scratch accumulators at
    what position n - 1 left in them. -/
def PhiS1 (c : Dev nD) : (n : ℕ) → n ≤ cfg1.N → sProp 𝕄
  | 0, _ => Pipeline.ΦA spec1 c
  | n + 1, hn => iprop(rest1 (F := F) c ∗ owns (c : Thread nD τ) scM1a fullShare (acc1 V c n hn).1
      ∗ owns (c : Thread nD τ) scM1b fullShare (acc1 V c n hn).2 ∗ (∃ r, prngReg c r))

/-- The proof data of pipeline 1 on core c: the arrays as the region finds them; after the body each input's
    buffer at its block and the output's at out1; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_7 (c : Dev nD) (t : Fin cfg1.N) : (dat1 V c).after 7 t = out1 V c t := by dsimp only [dat1]

/-! ## Which points zero the accumulators, and which store the result

The body branches twice on the edge-block coordinate eb of the point: on eb = 0 and on eb = 390. Position t of
the grid has eb = t mod 391, so the two tests are decided once over the 391 values of eb. -/

/-- The edge-block coordinate of position t. -/
theorem coord1_val (t : Fin cfg1.N) : ((grid1.coords t) 1).val = t.val % 391 := by
  show t.val / grid1.stride 1 % 391 = t.val % 391
  rw [show grid1.stride 1 = 1 from by decide, Nat.div_one]

/-- The test of the body's first branch (eb = 0), from the grid coordinates. -/
abbrev cond1_0 (i : grid1.Coords) : Prop := (Scalar.cmpi .ne (Scalar.extui (Scalar.cmpi .eq (BitVec.ofNat 32 (i 1).val) 0#32)) 0#32) = 1#1
/-- The test of its second branch (eb = 390). -/
abbrev cond1_1 (i : grid1.Coords) : Prop := k1_cond2 i = 1#1

theorem cond1_0_at : ∀ e : Fin 391, (Scalar.cmpi .ne (Scalar.extui (Scalar.cmpi .eq (BitVec.ofNat 32 e.val) 0#32)) 0#32) = 1#1 ↔ e.val = 0 := by
  decide +kernel

theorem cond1_1_at : ∀ e : Fin 391, (Scalar.cmpi .ne (Scalar.extui (Scalar.cmpi .eq (BitVec.ofNat 32 e.val) 390#32)) 0#32) = 1#1 ↔ e.val = 390 := by
  decide +kernel

/-- The first branch is taken at the positions ≡ 0 (mod 391). -/
theorem hcond1_0 (t : Fin cfg1.N) : cond1_0 (grid1.coords t) ↔ t.val % 391 = 0 := by
  show (Scalar.cmpi .ne (Scalar.extui (Scalar.cmpi .eq (BitVec.ofNat 32 ((grid1.coords t) 1).val) 0#32)) 0#32) = 1#1 ↔ _
  rw [coord1_val]
  exact cond1_0_at ⟨t.val % 391, Nat.mod_lt _ (by decide)⟩

/-- The second at the positions ≡ 390 (mod 391). -/
theorem hcond1_1 (t : Fin cfg1.N) : cond1_1 (grid1.coords t) ↔ t.val % 391 = 390 := by
  show (Scalar.cmpi .ne (Scalar.extui (Scalar.cmpi .eq (BitVec.ofNat 32 ((grid1.coords t) 1).val) 390#32)) 0#32) = 1#1 ↔ _
  rw [coord1_val]
  exact cond1_1_at ⟨t.val % 391, Nat.mod_lt _ (by decide)⟩

/-- Where the second branch is not taken the result window is idle, -/
theorem idleAt1_7 (t : Fin cfg1.N) (h : ¬cond1_1 (grid1.coords t)) : cfg1.idle 7 (grid1.coords t) = true := by
  show (!(k1_cond2 (grid1.coords t) == 1#1)) = true
  rw [Bool.not_eq_true', beq_eq_false_iff_ne]; exact h

/-- where it is taken the window is live, -/
theorem liveAt1_7 (t : Fin cfg1.N) (h : cond1_1 (grid1.coords t)) : cfg1.idle 7 (grid1.coords t) = false := by
  show (!(k1_cond2 (grid1.coords t) == 1#1)) = false
  rw [Bool.not_eq_false', beq_iff_eq]; exact h

/-- and the window's block is written back only at the positions ≡ 390 (mod 391). -/
theorem noFlush1_7 (t : Fin cfg1.N) (h : ¬t.val % 391 = 390) : (cfg1.win 7).flush t = false :=
  Bool.eq_false_iff.mpr fun hf => h ((flush1_7 t).mp hf)

/-! ## What the staging buffers hold when the body runs

Every input window's current staging buffer holds the window's block at every point, whether the point fetched it
or an earlier one did: the body leaves input buffers as it finds them, and a window not fetched at a point has not
moved since the point before. -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-- An input window is live at every point: the body leaves its buffer at the window's block. -/
theorem leaves1_0 (c : Dev nD) (t : Fin cfg1.N) :
    (dat1 V c).leavesExact 0 t = owns (c : Thread nD τ) (st1_0 t) fullShare (iblk1 V c 0 t) := by
  unfold Dat.leavesExact; rw [show cfg1.idle 0 (grid1.coords t) = false from rfl, after1_0]
theorem leaves1_1 (c : Dev nD) (t : Fin cfg1.N) :
    (dat1 V c).leavesExact 1 t = owns (c : Thread nD τ) (st1_1 t) fullShare (iblk1 V c 1 t) := by
  unfold Dat.leavesExact; rw [show cfg1.idle 1 (grid1.coords t) = false from rfl, after1_1]
theorem leaves1_2 (c : Dev nD) (t : Fin cfg1.N) :
    (dat1 V c).leavesExact 2 t = owns (c : Thread nD τ) (st1_2 t) fullShare (iblk1 V c 2 t) := by
  unfold Dat.leavesExact; rw [show cfg1.idle 2 (grid1.coords t) = false from rfl, after1_2]
theorem leaves1_3 (c : Dev nD) (t : Fin cfg1.N) :
    (dat1 V c).leavesExact 3 t = owns (c : Thread nD τ) (st1_3 t) fullShare (iblk1 V c 3 t) := by
  unfold Dat.leavesExact; rw [show cfg1.idle 3 (grid1.coords t) = false from rfl, after1_3]
theorem leaves1_4 (c : Dev nD) (t : Fin cfg1.N) :
    (dat1 V c).leavesExact 4 t = owns (c : Thread nD τ) (st1_4 t) fullShare (iblk1 V c 4 t) := by
  unfold Dat.leavesExact; rw [show cfg1.idle 4 (grid1.coords t) = false from rfl, after1_4]
theorem leaves1_5 (c : Dev nD) (t : Fin cfg1.N) :
    (dat1 V c).leavesExact 5 t = owns (c : Thread nD τ) (st1_5 t) fullShare (iblk1 V c 5 t) := by
  unfold Dat.leavesExact; rw [show cfg1.idle 5 (grid1.coords t) = false from rfl, after1_5]
theorem leaves1_6 (c : Dev nD) (t : Fin cfg1.N) :
    (dat1 V c).leavesExact 6 t = owns (c : Thread nD τ) (st1_6 t) fullShare (iblk1 V c 6 t) := by
  unfold Dat.leavesExact; rw [show cfg1.idle 6 (grid1.coords t) = false from rfl, after1_6]

/-! ## The invariant, opened

Before the first point the invariant is the launch's: every scoped buffer that is no staging buffer of this region
at some contents, the two accumulators among them. After a point it names what the two accumulators hold. Either
way it gives the other region's buffers, the two accumulators at some contents, and the generator register. -/

theorem PhiS1_zero (c : Dev nD) (n : ℕ) (h : n ≤ cfg1.N) (hz : n = 0) : PhiS1 V c n h = Pipeline.ΦA spec1 c := by
  subst hz; rfl

/-- After position n: the accumulators at what that position left. -/
theorem PhiS1_succ (c : Dev nD) (n : ℕ) (hn : n < cfg1.N) :
    PhiS1 V c (n + 1) hn = iprop(rest1 (F := F) c ∗ owns (c : Thread nD τ) scM1a fullShare (acc1 V c n hn).1
      ∗ owns (c : Thread nD τ) scM1b fullShare (acc1 V c n hn).2 ∗ (∃ r, prngReg c r)) := rfl

/-- Before a position that is not the first: the accumulators at what the position before left. -/
theorem PhiS1_pos (c : Dev nD) (n : ℕ) (h : n ≤ cfg1.N) (hz : n ≠ 0) :
    PhiS1 V c n h = iprop(rest1 (F := F) c ∗ owns (c : Thread nD τ) scM1a fullShare (acc1 V c (n - 1) (by omega)).1
      ∗ owns (c : Thread nD τ) scM1b fullShare (acc1 V c (n - 1) (by omega)).2 ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- The launch's invariant lists the other region's nine buffers, then the two accumulators, each at some
    contents, beside the generator register. -/
theorem PhiA1_open (c : Dev nD) :
    (Pipeline.ΦA spec1 c : sProp 𝕄) ⊢ iprop(rest1 (F := F) c ∗ (∃ d, owns (c : Thread nD τ) scM1a fullShare d)
      ∗ (∃ d, owns (c : Thread nD τ) scM1b fullShare d) ∗ (∃ r, prngReg c r)) := by
  unfold Pipeline.ΦA rest1; rw [scopedRest1_eq]; simp only [scM1a, scM1b, owns_whole]
  iintro ⟨⟨H1, H2, H3, H4, H5, H6, H7, H8, H9, Ha, Hb⟩, Hg⟩
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [Ha]; · iexact Ha
  isplitl [Hb]; · iexact Hb
  iexact Hg

theorem PhiA1_close (c : Dev nD) :
    iprop(rest1 (F := F) c ∗ (∃ d, owns (c : Thread nD τ) scM1a fullShare d)
      ∗ (∃ d, owns (c : Thread nD τ) scM1b fullShare d) ∗ (∃ r, prngReg c r)) ⊢ (Pipeline.ΦA spec1 c : sProp 𝕄) := by
  unfold Pipeline.ΦA rest1; rw [scopedRest1_eq]; simp only [scM1a, scM1b, owns_whole]
  iintro ⟨⟨H1, H2, H3, H4, H5, H6, H7, H8, H9⟩, Ha, Hb, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [Ha]; · iexact Ha
    iexact Hb
  iexact Hg

/-- Before any point the invariant gives the other region's buffers, the accumulators at some contents, and the
    generator register. -/
theorem PhiS1_open (c : Dev nD) (n : ℕ) (h : n ≤ cfg1.N) :
    PhiS1 V c n h ⊢ iprop(rest1 (F := F) c ∗ (∃ d, owns (c : Thread nD τ) scM1a fullShare d)
      ∗ (∃ d, owns (c : Thread nD τ) scM1b fullShare d) ∗ (∃ r, prngReg c r)) := by
  cases n with
  | zero => exact PhiA1_open c
  | succ n =>
    rw [PhiS1_succ]
    iintro ⟨Hr, Ha, Hb, Hg⟩
    isplitl [Hr]; · iexact Hr
    isplitl [Ha]; · iexists _; iexact Ha
    isplitl [Hb]; · iexists _; iexact Hb
    iexact Hg

/-! ## The body's three runs

Every load and store of the body is of a whole buffer, through the rectangle at zero offsets of the buffer's own
sizes. So a load reads the buffer's contents, one store leaves its payload whatever was there, and a load after a
store in the same run reads that payload. -/

theorem zeroOff1_2d : (![0, 0] : Fin 2 → Nat) = fun _ => 0 := funext fun a => by fin_cases a <;> rfl
theorem zeroOff1_1d : (![0] : Fin 1 → Nat) = fun _ => 0 := funext fun a => by fin_cases a; rfl

set_option maxHeartbeats 1000000 in
/-- THE FIRST EDGE BLOCK of a node block (eb = 0): on whole memrefs, the inputs' at their contents, the result's at
    contents it hands back untouched, the accumulators' at anything, the body zeroes both accumulators, reads the
    zeros back, and leaves in them the edge block's one-hot products added to zero. -/
theorem kernelRun1_A (c : Dev nD) (i : grid1.Coords) (arg2 : Memref sig .tc .vmem S2048x64 .bf16) (harg2 : arg2.IsWhole) (arg3 : Memref sig .tc .vmem S2048 .i32) (harg3 : arg3.IsWhole) (arg4 : Memref sig .tc .vmem S1024x64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S1024x64 .f32) (harg9 : arg9.IsWhole) (arg10 : Memref sig .tc .vmem S1024x64 .f32) (harg10 : arg10.IsWhole) (arg11 : Memref sig .tc .vmem S1024x1 .f32) (harg11 : arg11.IsWhole) (hc0 : cond1_0 i) (hc1 : ¬cond1_1 i)
    (x0 : Vec F S2048x64 .bf16) (x1 : Vec F S2048 .i32) (x2 : Vec F S1024x64 .f32) (x3 : Vec F S64x64 .f32) (x4 : Vec F S64 .f32) (x5 : Vec F S64x64 .f32) (x6 : Vec F S64 .f32) (xi7 : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare (k1_pay4 i x1 x0 (k1_pay1 (F := F))) ∗ owns (c : Thread nD τ) arg11 fullShare (k1_pay5 i x1 (k1_pay2 (F := F)))) -∗ K ⟨⟩))
      ⊢ wp frame (wpE (defs₀ (F := F)) Variants.none c none) E (cc1__scatter_mean_linear_kernel i arg2 harg2 arg3 harg3 arg4 harg4 arg5 harg5 arg6 harg6 arg7 harg7 arg8 harg8 arg9 harg9 arg10 harg10 arg11 harg11) K := by
  simp only [cc1__scatter_mean_linear_kernel_eq_skeleton]; unfold cc1__scatter_mean_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%da, %fa, -, HA⟩, ⟨%db, %fb, -, HB⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [HA]
  · iexists _; isplitr
    swap; · iexact HA
    ipureintro
    (try sl_unfold_words)
    rw [View.read_writes_eq_canon _ _ _ (fun y => ⟨_, List.mem_cons.mpr (Or.inl rfl), View.mem_set_unit_zero zeroOff1_2d inb_S1024x64_S1024x64_0_0 y⟩)]
    rw [View.canon_cons_unit_zero (S := S1024x64) zeroOff1_2d]
    simp only [View.readAt_eq_ld, harg2.read_unread, harg3.read_unread, View.readCov_unit_zero (S := S1024x64) _ zeroOff1_2d, View.ld_unit_zero (S := S2048) zeroOff1_1d, View.ld_unit_zero (S := S2048x64) zeroOff1_2d, View.ld_unit_zero (S := S1024x64) zeroOff1_2d, View.ld_unit_zero (S := S1024x1) zeroOff1_2d, View.ld_unit_zero (S := S64x64) zeroOff1_2d, View.ld_unit_zero (S := S64) zeroOff1_1d]
  · iexists _; isplitr
    swap; · iexact HB
    ipureintro
    (try sl_unfold_words)
    rw [View.read_writes_eq_canon _ _ _ (fun y => ⟨_, List.mem_cons.mpr (Or.inl rfl), View.mem_set_unit_zero zeroOff1_2d inb_S1024x1_S1024x1_0_0 y⟩)]
    rw [View.canon_cons_unit_zero (S := S1024x1) zeroOff1_2d]
    simp only [View.readAt_eq_ld, harg3.read_unread, View.readCov_unit_zero (S := S1024x1) _ zeroOff1_2d, View.ld_unit_zero (S := S2048) zeroOff1_1d, View.ld_unit_zero (S := S2048x64) zeroOff1_2d, View.ld_unit_zero (S := S1024x64) zeroOff1_2d, View.ld_unit_zero (S := S1024x1) zeroOff1_2d, View.ld_unit_zero (S := S64x64) zeroOff1_2d, View.ld_unit_zero (S := S64) zeroOff1_1d]

set_option maxHeartbeats 1000000 in
/-- AN EDGE BLOCK IN BETWEEN (0 < eb < 390): the accumulators, found at (xa, xb), are left at the edge block's one-hot
    products added to them; the result's buffer is handed back untouched. -/
theorem kernelRun1_B (c : Dev nD) (i : grid1.Coords) (arg2 : Memref sig .tc .vmem S2048x64 .bf16) (harg2 : arg2.IsWhole) (arg3 : Memref sig .tc .vmem S2048 .i32) (harg3 : arg3.IsWhole) (arg4 : Memref sig .tc .vmem S1024x64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S1024x64 .f32) (harg9 : arg9.IsWhole) (arg10 : Memref sig .tc .vmem S1024x64 .f32) (harg10 : arg10.IsWhole) (arg11 : Memref sig .tc .vmem S1024x1 .f32) (harg11 : arg11.IsWhole) (hc0 : ¬cond1_0 i) (hc1 : ¬cond1_1 i)
    (x0 : Vec F S2048x64 .bf16) (x1 : Vec F S2048 .i32) (x2 : Vec F S1024x64 .f32) (x3 : Vec F S64x64 .f32) (x4 : Vec F S64 .f32) (x5 : Vec F S64x64 .f32) (x6 : Vec F S64 .f32) (xi7 : Vec F S1024x64 .f32) (xa : Vec F S1024x64 .f32) (xb : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xa ∗ owns (c : Thread nD τ) arg11 fullShare xb
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare (k1_pay4 i x1 x0 xa) ∗ owns (c : Thread nD τ) arg11 fullShare (k1_pay5 i x1 xb)) -∗ K ⟨⟩))
      ⊢ wp frame (wpE (defs₀ (F := F)) Variants.none c none) E (cc1__scatter_mean_linear_kernel i arg2 harg2 arg3 harg3 arg4 harg4 arg5 harg5 arg6 harg6 arg7 harg7 arg8 harg8 arg9 harg9 arg10 harg10 arg11 harg11) K := by
  simp only [cc1__scatter_mean_linear_kernel_eq_skeleton]; unfold cc1__scatter_mean_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fa, %hfa, HA⟩, ⟨%fb, %hfb, HB⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hfa
  obtain rfl := harg11.eq_unread hfb
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [HA]
  · iexists _; isplitr
    swap; · iexact HA
    ipureintro
    (try sl_unfold_words)
    rw [View.read_writes_eq_canon _ _ _ (fun y => ⟨_, List.mem_cons.mpr (Or.inl rfl), View.mem_set_unit_zero zeroOff1_2d inb_S1024x64_S1024x64_0_0 y⟩)]
    rw [View.canon_cons_unit_zero (S := S1024x64) zeroOff1_2d]
    simp only [View.readAt_eq_ld, harg2.read_unread, harg3.read_unread, harg10.read_unread, View.ld_unit_zero (S := S2048) zeroOff1_1d, View.ld_unit_zero (S := S2048x64) zeroOff1_2d, View.ld_unit_zero (S := S1024x64) zeroOff1_2d, View.ld_unit_zero (S := S1024x1) zeroOff1_2d, View.ld_unit_zero (S := S64x64) zeroOff1_2d, View.ld_unit_zero (S := S64) zeroOff1_1d]
  · iexists _; isplitr
    swap; · iexact HB
    ipureintro
    (try sl_unfold_words)
    rw [View.read_writes_eq_canon _ _ _ (fun y => ⟨_, List.mem_cons.mpr (Or.inl rfl), View.mem_set_unit_zero zeroOff1_2d inb_S1024x1_S1024x1_0_0 y⟩)]
    rw [View.canon_cons_unit_zero (S := S1024x1) zeroOff1_2d]
    simp only [View.readAt_eq_ld, harg3.read_unread, harg11.read_unread, View.ld_unit_zero (S := S2048) zeroOff1_1d, View.ld_unit_zero (S := S2048x64) zeroOff1_2d, View.ld_unit_zero (S := S1024x64) zeroOff1_2d, View.ld_unit_zero (S := S1024x1) zeroOff1_2d, View.ld_unit_zero (S := S64x64) zeroOff1_2d, View.ld_unit_zero (S := S64) zeroOff1_1d]

set_option maxHeartbeats 1000000 in
/-- THE LAST EDGE BLOCK (eb = 390): as in between, and the body then reads both accumulators back, divides the sums by
    the larger of the degree and one, applies the two linear layers to the node block's features and to that mean,
    and stores their sum over the whole of the result's buffer, found at anything. -/
theorem kernelRun1_C (c : Dev nD) (i : grid1.Coords) (arg2 : Memref sig .tc .vmem S2048x64 .bf16) (harg2 : arg2.IsWhole) (arg3 : Memref sig .tc .vmem S2048 .i32) (harg3 : arg3.IsWhole) (arg4 : Memref sig .tc .vmem S1024x64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S1024x64 .f32) (harg9 : arg9.IsWhole) (arg10 : Memref sig .tc .vmem S1024x64 .f32) (harg10 : arg10.IsWhole) (arg11 : Memref sig .tc .vmem S1024x1 .f32) (harg11 : arg11.IsWhole) (hc0 : ¬cond1_0 i) (hc1 : cond1_1 i)
    (x0 : Vec F S2048x64 .bf16) (x1 : Vec F S2048 .i32) (x2 : Vec F S1024x64 .f32) (x3 : Vec F S64x64 .f32) (x4 : Vec F S64 .f32) (x5 : Vec F S64x64 .f32) (x6 : Vec F S64 .f32) (xa : Vec F S1024x64 .f32) (xb : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xa ∗ owns (c : Thread nD τ) arg11 fullShare xb
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k1_pay6 (k1_pay4 i x1 x0 xa) (k1_pay5 i x1 xb) x2 x3 x4 x5 x6) ∗ owns (c : Thread nD τ) arg10 fullShare (k1_pay4 i x1 x0 xa) ∗ owns (c : Thread nD τ) arg11 fullShare (k1_pay5 i x1 xb)) -∗ K ⟨⟩))
      ⊢ wp frame (wpE (defs₀ (F := F)) Variants.none c none) E (cc1__scatter_mean_linear_kernel i arg2 harg2 arg3 harg3 arg4 harg4 arg5 harg5 arg6 harg6 arg7 harg7 arg8 harg8 arg9 harg9 arg10 harg10 arg11 harg11) K := by
  simp only [cc1__scatter_mean_linear_kernel_eq_skeleton]; unfold cc1__scatter_mean_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fa, %hfa, HA⟩, ⟨%fb, %hfb, HB⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg10.eq_unread hfa
  obtain rfl := harg11.eq_unread hfb
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    (try sl_unfold_words)
    rw [View.read_writes_eq_canon _ _ _ (fun y => ⟨_, List.mem_cons.mpr (Or.inl rfl), View.mem_set_unit_zero zeroOff1_2d inb_S1024x64_S1024x64_0_0 y⟩)]
    rw [View.canon_cons_unit_zero (S := S1024x64) zeroOff1_2d]
    simp only [View.readAt_eq_ld, harg2.read_unread, harg3.read_unread, harg4.read_unread, harg5.read_unread, harg6.read_unread, harg7.read_unread, harg8.read_unread, harg10.read_unread, harg11.read_unread, View.readCov_unit_zero (S := S1024x64) _ zeroOff1_2d, View.readCov_unit_zero (S := S1024x1) _ zeroOff1_2d, View.ld_unit_zero (S := S2048) zeroOff1_1d, View.ld_unit_zero (S := S2048x64) zeroOff1_2d, View.ld_unit_zero (S := S1024x64) zeroOff1_2d, View.ld_unit_zero (S := S1024x1) zeroOff1_2d, View.ld_unit_zero (S := S64x64) zeroOff1_2d, View.ld_unit_zero (S := S64) zeroOff1_1d]
  isplitl [HA]
  · iexists _; isplitr
    swap; · iexact HA
    ipureintro
    (try sl_unfold_words)
    rw [View.read_writes_eq_canon _ _ _ (fun y => ⟨_, List.mem_cons.mpr (Or.inl rfl), View.mem_set_unit_zero zeroOff1_2d inb_S1024x64_S1024x64_0_0 y⟩)]
    rw [View.canon_cons_unit_zero (S := S1024x64) zeroOff1_2d]
    simp only [View.readAt_eq_ld, harg2.read_unread, harg3.read_unread, harg10.read_unread, View.ld_unit_zero (S := S2048) zeroOff1_1d, View.ld_unit_zero (S := S2048x64) zeroOff1_2d, View.ld_unit_zero (S := S1024x64) zeroOff1_2d, View.ld_unit_zero (S := S1024x1) zeroOff1_2d, View.ld_unit_zero (S := S64x64) zeroOff1_2d, View.ld_unit_zero (S := S64) zeroOff1_1d]
  · iexists _; isplitr
    swap; · iexact HB
    ipureintro
    (try sl_unfold_words)
    rw [View.read_writes_eq_canon _ _ _ (fun y => ⟨_, List.mem_cons.mpr (Or.inl rfl), View.mem_set_unit_zero zeroOff1_2d inb_S1024x1_S1024x1_0_0 y⟩)]
    rw [View.canon_cons_unit_zero (S := S1024x1) zeroOff1_2d]
    simp only [View.readAt_eq_ld, harg3.read_unread, harg11.read_unread, View.ld_unit_zero (S := S2048) zeroOff1_1d, View.ld_unit_zero (S := S2048x64) zeroOff1_2d, View.ld_unit_zero (S := S1024x64) zeroOff1_2d, View.ld_unit_zero (S := S1024x1) zeroOff1_2d, View.ld_unit_zero (S := S64x64) zeroOff1_2d, View.ld_unit_zero (S := S64) zeroOff1_1d]

/-! ## The obligation at a point -/

/-- What the body is called with at point t: the invariant, nothing owed, each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point. The inputs' buffers hold their blocks; t mod 391 says which of the three runs applies.
    At the first edge block of a node block the invariant hands the accumulators over at whatever they hold and
    takes them back at the edge block's products added to zero; at any other at what the point before left, and
    takes them back with the products added. The result window's buffer comes back untouched except at the last
    edge block, where it comes back at the two layers over the accumulators just stored. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5, leaves1_6]
  rw [PhiS1_castSucc V c t]
  have hN : t.val < 19159 := lt_of_lt_of_eq t.isLt (show cfg1.N = 19159 from N_1)
  by_cases h0 : t.val % 391 = 0
  · have h1 : ¬t.val % 391 = 390 := by omega
    have hc0 : cond1_0 (grid1.coords t) := (hcond1_0 t).mpr h0
    have hc1 : ¬cond1_1 (grid1.coords t) := fun h => h1 ((hcond1_1 t).mp h)
    rw [Dat.leavesExact_idle (dat1 V c) 7 t (idleAt1_7 t hc1) (noFlush1_7 t h1)]
    rw [acc1_first V c t h0]
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (PhiS1_open V c t.val (Nat.le_of_lt t.isLt)) $$ HΦ
    icases HΦ' with ⟨Hr, Ha, Hb, Hg⟩
    iapply (kernelRun1_A c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) ((dat1 V c).before 7 t d7) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Ha]; · iexact Ha
    isplitl [Hb]; · iexact Hb
    iintro ⟨H0, H1, H2, H3, H4, H5, H6, H7, Ha, Hb⟩
    isplitl [Hr Ha Hb Hg]
    · isplitl [Hr]; · iexact Hr
      isplitl [Ha]; · iexact Ha
      isplitl [Hb]; · iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hz : t.val ≠ 0 := fun e => h0 (by rw [e])
    have hc0 : ¬cond1_0 (grid1.coords t) := fun h => h0 ((hcond1_0 t).mp h)
    rw [PhiS1_pos V c _ _ hz]
    by_cases h1 : t.val % 391 = 390
    · have hc1 : cond1_1 (grid1.coords t) := (hcond1_1 t).mpr h1
      rw [show (dat1 V c).leavesExact 7 t = owns (c : Thread nD τ) (st1_7 t) fullShare ((dat1 V c).after 7 t) from by
        unfold Dat.leavesExact; rw [liveAt1_7 t hc1], after1_7]
      unfold out1
      rw [acc1_next V c t h0]
      dsimp only
      iintro ⟨⟨Hr, Ha, Hb, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun1_C c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) (acc1 V c (t.val - 1) (Nat.lt_of_le_of_lt (Nat.sub_le _ _) t.isLt)).1 (acc1 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [Ha]; · iexact Ha
      isplitl [Hb]; · iexact Hb
      iintro ⟨H0, H1, H2, H3, H4, H5, H6, H7, Ha, Hb⟩
      isplitl [Hr Ha Hb Hg]
      · isplitl [Hr]; · iexact Hr
        isplitl [Ha]; · iexact Ha
        isplitl [Hb]; · iexact Hb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond1_1 (grid1.coords t) := fun h => h1 ((hcond1_1 t).mp h)
      rw [Dat.leavesExact_idle (dat1 V c) 7 t (idleAt1_7 t hc1) (noFlush1_7 t h1)]
      rw [acc1_next V c t h0]
      dsimp only
      iintro ⟨⟨Hr, Ha, Hb, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun1_B c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) ((dat1 V c).before 7 t d7) (acc1 V c (t.val - 1) (Nat.lt_of_le_of_lt (Nat.sub_le _ _) t.isLt)).1 (acc1 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [Ha]; · iexact Ha
      isplitl [Hb]; · iexact Hb
      iintro ⟨H0, H1, H2, H3, H4, H5, H6, H7, Ha, Hb⟩
      isplitl [Hr Ha Hb Hg]
      · isplitl [Hr]; · iexact Hr
        isplitl [Ha]; · iexact Ha
        isplitl [Hb]; · iexact Hb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the scoped buffers and the generator register back. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  exact (PhiS1_open V c _ _).trans (PhiA1_close c)

end Cert.Kernel.H

end
-- ==== Proof.K.Run.lean ====
/-
  The run of @main: eight host stretches (the constants and the four paddings), the gather region, the scatter
  region, and the closing slice. Between two items core c holds every unscoped buffer at contents named here
  (W0 … W11): a host stretch applies its operations, a region replaces its output array by what its write-backs
  leave and keeps every other buffer. Every weakly fair execution terminates with each unscoped buffer at W11.
-/
import proofs.«404055_j420906795210_2_alg».proof.Proof.Gen.Kernel.Launch
import proofs.«404055_j420906795210_2_alg».proof.Proof.Gen.Kernel.Skeleton
import proofs.«404055_j420906795210_2_alg».proof.Proof.Gen.Kernel.Points
import proofs.«404055_j420906795210_2_alg».proof.Proof.Gen.Kernel.Regions
import proofs.«404055_j420906795210_2_alg».proof.Proof.K.Reg0
import proofs.«404055_j420906795210_2_alg».proof.Proof.K.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch, and after each of the eight host stretches before the regions (the generated
    valuations: each stretch applies its operations to the one before). -/
abbrev W0 : Dev nD → Valuation τ sig (Elt F) := fun c => Gen.V0 m c
abbrev W1 : Dev nD → Valuation τ sig (Elt F) := fun c => Gen.V1 m c
abbrev W2 : Dev nD → Valuation τ sig (Elt F) := fun c => Gen.V2 m c
abbrev W3 : Dev nD → Valuation τ sig (Elt F) := fun c => Gen.V3 m c
abbrev W4 : Dev nD → Valuation τ sig (Elt F) := fun c => Gen.V4 m c
abbrev W5 : Dev nD → Valuation τ sig (Elt F) := fun c => Gen.V5 m c
abbrev W6 : Dev nD → Valuation τ sig (Elt F) := fun c => Gen.V6 m c
abbrev W7 : Dev nD → Valuation τ sig (Elt F) := fun c => Gen.V7 m c
abbrev W8 : Dev nD → Valuation τ sig (Elt F) := fun c => Gen.V8 m c
/-- The same read at the TensorCore's references: what region 0's proof data take. -/
abbrev V8 : (c : Dev nD) → (b : Ref sig .tc) → Buf (Elt F) ((c : Thread nD τ).loc b) := fun c b => W8 m c b
/-- At region 0's exit: its arrays at what the pipeline leaves, every other buffer as entered. -/
def W9 (c : Dev nD) : Valuation τ sig (Elt F) :=
  Pipeline.withArrays spec0 c (W8 m c) fun w => (dat0 (V8 m) c).arrAt w cfg0.N
theorem W9_arr (c : Dev nD) (w : Fin cfg0.W) :
    W9 m c (Proc.devRef .tc (Pipeline.arrRef spec0 w)) = (dat0 (V8 m) c).arrAt w cfg0.N := by
  unfold W9; exact Pipeline.withArrays_arr spec0 launch0.win.arr_inj c _ _ w
theorem W9_of_ne (c : Dev nD) (b : Ref sig .tc) (hb : ∀ w, Pipeline.arrRef spec0 w ≠ b) :
    W9 m c (Proc.devRef .tc b) = W8 m c (Proc.devRef .tc b) := by
  unfold W9; exact Pipeline.withArrays_of_ne spec0 c _ _ b hb
abbrev V9 : (c : Dev nD) → (b : Ref sig .tc) → Buf (Elt F) ((c : Thread nD τ).loc b) := fun c b => W9 m c b
theorem hF0 (c : Dev nD) (w : Fin cfg0.W) : (dat0 (V8 m) c).arrAt w cfg0.N = V9 m c (Pipeline.arrRef spec0 w) :=
  (W9_arr m c w).symm
theorem hrest0 (c : Dev nD) : ∀ b, b ∉ Finset.univ.image (Pipeline.arrRef spec0) → V9 m c b = V8 m c b :=
  fun b hb => W9_of_ne m c b fun w e => hb (Finset.mem_image.mpr ⟨w, Finset.mem_univ _, e⟩)
/-- At region 1's exit: its arrays at what the pipeline leaves, every other buffer as entered. -/
def W10 (c : Dev nD) : Valuation τ sig (Elt F) :=
  Pipeline.withArrays spec1 c (W9 m c) fun w => (dat1 (V9 m) c).arrAt w cfg1.N
theorem W10_arr (c : Dev nD) (w : Fin cfg1.W) :
    W10 m c (Proc.devRef .tc (Pipeline.arrRef spec1 w)) = (dat1 (V9 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
abbrev V10 : (c : Dev nD) → (b : Ref sig .tc) → Buf (Elt F) ((c : Thread nD τ).loc b) := fun c b => W10 m c b
theorem hF1 (c : Dev nD) (w : Fin cfg1.W) : (dat1 (V9 m) c).arrAt w cfg1.N = V10 m c (Pipeline.arrRef spec1 w) :=
  (W10_arr m c w).symm
theorem hrest1 (c : Dev nD) : ∀ b, b ∉ Finset.univ.image (Pipeline.arrRef spec1) → V10 m c b = V9 m c b :=
  fun b hb => W10_of_ne m c b fun w e => hb (Finset.mem_image.mpr ⟨w, Finset.mem_univ _, e⟩)
/-- After the closing slice. -/
abbrev W11 : Dev nD → Valuation τ sig (Elt F) := fun c => StableHlo.after hostOps2 (W10 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V8 m) c
  | ⟨1, _⟩ => fun c => dat1 (V9 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered with every unscoped buffer at the boundary contents before it,
    left with them at the contents after it; its arrays are split out of the unscoped buffers and put back at
    what the write-backs leave; the scoped rest and the generator register go into the invariant and come back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V8 m) c).loose
  hwaits := Pipeline.hwaits_of_owed_zero _ _ _ _ L lv 0 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec0 c (V8 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V8 m) c).Φ 0 from rfl]
    iintro ⟨Hp, -, Hr⟩
    iapply (hin0 (V8 m) c)
    unfold Pipeline.ΦA
    isplitl [Hr]; · iexact Hr
    iexact Hp
  hout c := by
    rw [Pipeline.ownSems0_none, show (pdats m 0 c).Φ (Fin.last _) = (dat0 (V8 m) c).Φ (Fin.last cfg0.N) from rfl]
    iintro H
    ihave H' := (hout0 (V8 m) c) $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V8 m c) (V9 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary contents before it,
    left with them at the contents after it; its arrays are split out of the unscoped buffers and put back at
    what the write-backs leave; the scoped rest and the generator register go into the invariant and come back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V9 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec1 c (V9 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V9 m) c).Φ 0 from rfl]
    iintro ⟨Hp, -, Hr⟩
    iapply (hin1 (V9 m) c)
    unfold Pipeline.ΦA
    isplitl [Hr]; · iexact Hr
    iexact Hp
  hout c := by
    rw [Pipeline.ownSems0_none, show (pdats m 1 c).Φ (Fin.last _) = (dat1 (V9 m) c).Φ (Fin.last cfg1.N) from rfl]
    iintro H
    ihave H' := (hout1 (V9 m) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V9 m c) (V10 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .host (hseg hostOps0_7 hostOps0_7_sub hostOps0_7_fresh (W7 m)),
    .region (reg0 m),
    .region (reg1 m),
    .host (hseg hostOps2 hostOps2_sub hostOps2_fresh (W10 m)) ]

theorem main_run (c : Dev nD) : main (F := F) c = Pipeline.Seg.run (segs m) := (main_chain c).trans (by chain_rfl)

set_option backward.isDefEq.respectTransparency.types false in
/-- Every weakly fair execution of @main from memory m with zero counters terminates, nothing faulting, and
    every final state holds each unscoped buffer of core c at W11. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W11 m c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

end Cert.Kernel.H

end
-- ==== Proof.K.Args.lean ====
/-
  No item of @main writes an argument: the host stretches write only their own results, region 0 only its
  message array, region 1 only its result array (the weight matrices and biases it stages are inputs). So each
  argument's buffer holds its launch contents at the end.
-/
import proofs.«404055_j420906795210_2_alg».proof.Proof.K.Run

set_option maxRecDepth 16384

noncomputable section

namespace Cert.Kernel.H

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ)

/-! ## Through the eight host stretches -/
theorem W8_main_arg0 (c : Dev nD) : W8 m c (Proc.devRef .tc main_arg0) = m ((c : Thread nD τ).loc main_arg0) :=
  (Gen.V8_of m c main_arg0 (by decide)).trans <| (Gen.V7_of m c main_arg0 (by decide)).trans <| (Gen.V6_of m c main_arg0 (by decide)).trans <| (Gen.V5_of m c main_arg0 (by decide)).trans <| (Gen.V4_of m c main_arg0 (by decide)).trans <| (Gen.V3_of m c main_arg0 (by decide)).trans <| (Gen.V2_of m c main_arg0 (by decide)).trans <| (Gen.V1_of m c main_arg0 (by decide)).trans rfl
theorem W8_main_arg1 (c : Dev nD) : W8 m c (Proc.devRef .tc main_arg1) = m ((c : Thread nD τ).loc main_arg1) :=
  (Gen.V8_of m c main_arg1 (by decide)).trans <| (Gen.V7_of m c main_arg1 (by decide)).trans <| (Gen.V6_of m c main_arg1 (by decide)).trans <| (Gen.V5_of m c main_arg1 (by decide)).trans <| (Gen.V4_of m c main_arg1 (by decide)).trans <| (Gen.V3_of m c main_arg1 (by decide)).trans <| (Gen.V2_of m c main_arg1 (by decide)).trans <| (Gen.V1_of m c main_arg1 (by decide)).trans rfl
theorem W8_main_arg2 (c : Dev nD) : W8 m c (Proc.devRef .tc main_arg2) = m ((c : Thread nD τ).loc main_arg2) :=
  (Gen.V8_of m c main_arg2 (by decide)).trans <| (Gen.V7_of m c main_arg2 (by decide)).trans <| (Gen.V6_of m c main_arg2 (by decide)).trans <| (Gen.V5_of m c main_arg2 (by decide)).trans <| (Gen.V4_of m c main_arg2 (by decide)).trans <| (Gen.V3_of m c main_arg2 (by decide)).trans <| (Gen.V2_of m c main_arg2 (by decide)).trans <| (Gen.V1_of m c main_arg2 (by decide)).trans rfl
theorem W8_main_arg3 (c : Dev nD) : W8 m c (Proc.devRef .tc main_arg3) = m ((c : Thread nD τ).loc main_arg3) :=
  (Gen.V8_of m c main_arg3 (by decide)).trans <| (Gen.V7_of m c main_arg3 (by decide)).trans <| (Gen.V6_of m c main_arg3 (by decide)).trans <| (Gen.V5_of m c main_arg3 (by decide)).trans <| (Gen.V4_of m c main_arg3 (by decide)).trans <| (Gen.V3_of m c main_arg3 (by decide)).trans <| (Gen.V2_of m c main_arg3 (by decide)).trans <| (Gen.V1_of m c main_arg3 (by decide)).trans rfl
theorem W8_main_arg4 (c : Dev nD) : W8 m c (Proc.devRef .tc main_arg4) = m ((c : Thread nD τ).loc main_arg4) :=
  (Gen.V8_of m c main_arg4 (by decide)).trans <| (Gen.V7_of m c main_arg4 (by decide)).trans <| (Gen.V6_of m c main_arg4 (by decide)).trans <| (Gen.V5_of m c main_arg4 (by decide)).trans <| (Gen.V4_of m c main_arg4 (by decide)).trans <| (Gen.V3_of m c main_arg4 (by decide)).trans <| (Gen.V2_of m c main_arg4 (by decide)).trans <| (Gen.V1_of m c main_arg4 (by decide)).trans rfl
theorem W8_main_arg5 (c : Dev nD) : W8 m c (Proc.devRef .tc main_arg5) = m ((c : Thread nD τ).loc main_arg5) :=
  (Gen.V8_of m c main_arg5 (by decide)).trans <| (Gen.V7_of m c main_arg5 (by decide)).trans <| (Gen.V6_of m c main_arg5 (by decide)).trans <| (Gen.V5_of m c main_arg5 (by decide)).trans <| (Gen.V4_of m c main_arg5 (by decide)).trans <| (Gen.V3_of m c main_arg5 (by decide)).trans <| (Gen.V2_of m c main_arg5 (by decide)).trans <| (Gen.V1_of m c main_arg5 (by decide)).trans rfl
theorem W8_main_arg6 (c : Dev nD) : W8 m c (Proc.devRef .tc main_arg6) = m ((c : Thread nD τ).loc main_arg6) :=
  (Gen.V8_of m c main_arg6 (by decide)).trans <| (Gen.V7_of m c main_arg6 (by decide)).trans <| (Gen.V6_of m c main_arg6 (by decide)).trans <| (Gen.V5_of m c main_arg6 (by decide)).trans <| (Gen.V4_of m c main_arg6 (by decide)).trans <| (Gen.V3_of m c main_arg6 (by decide)).trans <| (Gen.V2_of m c main_arg6 (by decide)).trans <| (Gen.V1_of m c main_arg6 (by decide)).trans rfl
theorem W8_main_arg7 (c : Dev nD) : W8 m c (Proc.devRef .tc main_arg7) = m ((c : Thread nD τ).loc main_arg7) :=
  (Gen.V8_of m c main_arg7 (by decide)).trans <| (Gen.V7_of m c main_arg7 (by decide)).trans <| (Gen.V6_of m c main_arg7 (by decide)).trans <| (Gen.V5_of m c main_arg7 (by decide)).trans <| (Gen.V4_of m c main_arg7 (by decide)).trans <| (Gen.V3_of m c main_arg7 (by decide)).trans <| (Gen.V2_of m c main_arg7 (by decide)).trans <| (Gen.V1_of m c main_arg7 (by decide)).trans rfl

/-! ## Through the two regions and the closing slice -/

/-- A reference that is no array of either region and is not the slice's result keeps its contents from W8 on. -/
theorem W11_of_W8 (c : Dev nD) (r : Ref sig .tc) (h0 : ∀ w, Pipeline.arrRef spec0 w ≠ r) (h1 : ∀ w, Pipeline.arrRef spec1 w ≠ r)
    (h2 : r ∉ Gen.hostOps2_W) : W11 m c (Proc.devRef .tc r) = W8 m c (Proc.devRef .tc r) :=
  (StableHlo.after_of_writes_sub hostOps2 _ Gen.hostOps2_writes h2).trans ((W10_of_ne m c r h1).trans (W9_of_ne m c r h0))

/-- An input array of region 1 that is no array of region 0 keeps its contents too: an input window's array is
    never written. -/
theorem W11_of_W8_in1 (c : Dev nD) (w : Fin cfg1.W) (hin : (cfg1.win w).isOut = false) (h0 : ∀ w', Pipeline.arrRef spec0 w' ≠ Pipeline.arrRef spec1 w)
    (h2 : Pipeline.arrRef spec1 w ∉ Gen.hostOps2_W) :
    W11 m c (Proc.devRef .tc (Pipeline.arrRef spec1 w)) = W8 m c (Proc.devRef .tc (Pipeline.arrRef spec1 w)) :=
  (StableHlo.after_of_writes_sub hostOps2 _ Gen.hostOps2_writes h2).trans
    ((W10_arr m c w).trans (((dat1 (V9 m) c).arrAt_in w hin _).trans ((A_eq1 (V9 m) c w).trans (W9_of_ne m c _ h0))))

theorem W11_main_arg0 (c : Dev nD) : W11 m c (Proc.devRef .tc main_arg0) = m ((c : Thread nD τ).loc main_arg0) :=
  (W11_of_W8 m c main_arg0 (by decide) (by decide) (by decide)).trans (W8_main_arg0 m c)
theorem W11_main_arg1 (c : Dev nD) : W11 m c (Proc.devRef .tc main_arg1) = m ((c : Thread nD τ).loc main_arg1) :=
  (W11_of_W8 m c main_arg1 (by decide) (by decide) (by decide)).trans (W8_main_arg1 m c)
theorem W11_main_arg2 (c : Dev nD) : W11 m c (Proc.devRef .tc main_arg2) = m ((c : Thread nD τ).loc main_arg2) :=
  (W11_of_W8_in1 m c 3 rfl (by decide) (by decide)).trans (W8_main_arg2 m c)
theorem W11_main_arg3 (c : Dev nD) : W11 m c (Proc.devRef .tc main_arg3) = m ((c : Thread nD τ).loc main_arg3) :=
  (W11_of_W8_in1 m c 4 rfl (by decide) (by decide)).trans (W8_main_arg3 m c)
theorem W11_main_arg4 (c : Dev nD) : W11 m c (Proc.devRef .tc main_arg4) = m ((c : Thread nD τ).loc main_arg4) :=
  (W11_of_W8_in1 m c 5 rfl (by decide) (by decide)).trans (W8_main_arg4 m c)
theorem W11_main_arg5 (c : Dev nD) : W11 m c (Proc.devRef .tc main_arg5) = m ((c : Thread nD τ).loc main_arg5) :=
  (W11_of_W8_in1 m c 6 rfl (by decide) (by decide)).trans (W8_main_arg5 m c)
theorem W11_main_arg6 (c : Dev nD) : W11 m c (Proc.devRef .tc main_arg6) = m ((c : Thread nD τ).loc main_arg6) :=
  (W11_of_W8 m c main_arg6 (by decide) (by decide) (by decide)).trans (W8_main_arg6 m c)
theorem W11_main_arg7 (c : Dev nD) : W11 m c (Proc.devRef .tc main_arg7) = m ((c : Thread nD τ).loc main_arg7) :=
  (W11_of_W8 m c main_arg7 (by decide) (by decide) (by decide)).trans (W8_main_arg7 m c)

/-! ## The frame -/

/-- Every weakly fair execution of @main terminates, nothing faulting, and the arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W11_main_arg0 m c),
     (h c _ (mem_uc main_arg1 (by decide))).trans (W11_main_arg1 m c),
     (h c _ (mem_uc main_arg2 (by decide))).trans (W11_main_arg2 m c),
     (h c _ (mem_uc main_arg3 (by decide))).trans (W11_main_arg3 m c),
     (h c _ (mem_uc main_arg4 (by decide))).trans (W11_main_arg4 m c),
     (h c _ (mem_uc main_arg5 (by decide))).trans (W11_main_arg5 m c),
     (h c _ (mem_uc main_arg6 (by decide))).trans (W11_main_arg6 m c),
     (h c _ (mem_uc main_arg7 (by decide))).trans (W11_main_arg7 m c)⟩)
    (run_all m ρ)

end Cert.Kernel.H

end
-- ==== Proof.KI.Reg0.lean ====
/-
  Region 0, the gather: at grid point (eb, k) the body compares the 1024 node ids of node block k with the 2048
  source ids of edge block eb, selects the edge weight where they agree and zero elsewhere, contracts that
  1024 x 2048 matrix with the node block's 1024 x 64 features over the node axis, and adds the 2048 x 64 product
  into a scratch accumulator that it zeroes at k = 0; at k = 48 the accumulator is stored as the edge block's
  messages. Stated here, for any float instance: what the accumulator holds after each point (acc0), the
  pipeline's proof data over it, and the body's obligation at every point.
-/
import proofs.«404055_j420906795210_2_alg».proof.Proof.Gen.KernelIdeal.Launch
import proofs.«404055_j420906795210_2_alg».proof.Proof.Gen.KernelIdeal.Skeleton
import proofs.«404055_j420906795210_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The accumulator -/

/-- The scratch accumulator after the body at position n: the node block's one-hot product added to zero at the
    first node block of an edge block (n ≡ 0 mod 49), to what position n - 1 left otherwise. -/
def acc0 (c : Dev nD) : (n : ℕ) → n < cfg0.N → Vec F S2048x64 .f32
  | 0, hn => k0_pay2 (grid0.coords ⟨0, hn⟩) (iblk0 V c 0 ⟨0, hn⟩) (iblk0 V c 1 ⟨0, hn⟩) (iblk0 V c 2 ⟨0, hn⟩) (k0_pay1 (F := F))
  | n + 1, hn =>
    if (n + 1) % 49 = 0 then
      k0_pay2 (grid0.coords ⟨n + 1, hn⟩) (iblk0 V c 0 ⟨n + 1, hn⟩) (iblk0 V c 1 ⟨n + 1, hn⟩) (iblk0 V c 2 ⟨n + 1, hn⟩) (k0_pay1 (F := F))
    else
      k0_pay2 (grid0.coords ⟨n + 1, hn⟩) (iblk0 V c 0 ⟨n + 1, hn⟩) (iblk0 V c 1 ⟨n + 1, hn⟩) (iblk0 V c 2 ⟨n + 1, hn⟩) (acc0 c n (Nat.lt_of_succ_lt hn))

/-- At the first node block of an edge block the accumulator starts from zero. -/
theorem acc0_first (c : Dev nD) (t : Fin cfg0.N) (h : t.val % 49 = 0) :
    acc0 V c t.val t.isLt = k0_pay2 (grid0.coords t) (iblk0 V c 0 t) (iblk0 V c 1 t) (iblk0 V c 2 t) (k0_pay1 (F := F)) := by
  obtain ⟨n, hn⟩ := t
  cases n with
  | zero => rfl
  | succ n => exact if_pos h

/-- At every other node block it adds to what the point before left. -/
theorem acc0_next (c : Dev nD) (t : Fin cfg0.N) (h : t.val % 49 ≠ 0) :
    acc0 V c t.val t.isLt = k0_pay2 (grid0.coords t) (iblk0 V c 0 t) (iblk0 V c 1 t) (iblk0 V c 2 t)
      (acc0 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant and the proof data -/

/-- The scratch operand as a memref. -/
abbrev scM0 : Memref sig .tc .vmem S2048x64 .f32 := Memref.whole cc0_scratch0

/-- The scoped buffers region 0 neither stages nor names (the other region's), each whole at anything. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The region's invariant before position n: before the first point the scoped buffers no window stages at
    anything and the generator register at some state; afterwards the same with the scratch accumulator at what
    position n - 1 left in it. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ rest0 (F := F) c ∗ (∃ r, prngReg c r))

/-- The proof data of pipeline 0 on core c: the arrays as the region finds them; after the body each input's
    buffer at its block and the output's at the accumulator's rounding; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = k0_pay3 (acc0 V c t.val t.isLt) := by dsimp only [dat0]

/-! ## The invariant at a position, and what the launch hands over -/

/-- After position n the accumulator holds that position's value. -/
theorem PhiS0_succ (c : Dev nD) (n : ℕ) (hn : n < cfg0.N) :
    PhiS0 V c (n + 1) hn = iprop(owns (c : Thread nD τ) scM0 fullShare (acc0 V c n hn) ∗ rest0 (F := F) c ∗ (∃ r, prngReg c r)) := rfl

theorem PhiS0_zero (c : Dev nD) (n : ℕ) (h : n ≤ cfg0.N) (hz : n = 0) : PhiS0 V c n h = Pipeline.ΦA spec0 c := by
  subst hz; rfl

/-- Before a position that is not the first the accumulator holds what the position before left. -/
theorem PhiS0_pos (c : Dev nD) (n : ℕ) (h : n ≤ cfg0.N) (hz : n ≠ 0) :
    PhiS0 V c n h = iprop(owns (c : Thread nD τ) scM0 fullShare (acc0 V c (n - 1) (by omega)) ∗ rest0 (F := F) c ∗ (∃ r, prngReg c r)) := by
  cases n with
  | zero => exact absurd rfl hz
  | succ n => rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.val_castSucc]

/-- What the launch hands the region: the accumulator's buffer at anything, the other region's scoped buffers at
    anything, the generator register at some state. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA rest0; rw [scopedRest0_eq]; simp only [scM0, owns_whole]
  rfl

/-! ## What each window's buffer holds when the body runs -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]

/-- The source ids' buffer holds the edge block's ids at every point, fetched there or carried over from the point
    before (the edge block changes only every 49 points). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

/-- The same for the edge weights. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-- The node block's features are fetched at every point. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The body's two tests, on the node-block coordinate -/

/-- The first conditional's test as the body computes it: the node-block coordinate is 0. -/
abbrev cond0_0 (i : grid0.Coords) : Prop := (Scalar.cmpi .ne (Scalar.extui (Scalar.cmpi .eq (BitVec.ofNat 32 (i 1).val) 0#32)) 0#32) = 1#1
/-- The second conditional's test: the node-block coordinate is 48, the last. -/
abbrev cond0_1 (i : grid0.Coords) : Prop := k0_cond2 i = 1#1

/-! ## Reading back a buffer stored whole -/

theorem zeros1 : (![0] : Fin 1 → ℕ) = fun _ => 0 := by funext a; fin_cases a; rfl
theorem zeros2 : (![0, 0] : Fin 2 → ℕ) = fun _ => 0 := by funext a; fin_cases a <;> rfl

/-- A buffer whose LAST store covered it whole reads as that store's payload, whatever was stored before. -/
theorem read_whole_store {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero hz inb y⟩)).trans
    (View.canon_cons_unit_zero hz inb w L)

/-- A whole-buffer load of a whole memref held at contents that read `X` reads `X`. -/
theorem load_whole {κ : Kind} {sp : Space} {S : Shape} {e : EltTy} (m : Memref sig κ sp S e) (hm : m.IsWhole)
    {off : Fin S.rank → ℕ} (hz : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero hz]

/-! ## The body's run, by the two tests -/

set_option maxHeartbeats 1000000 in
/-- At a node block that is neither the first nor the last the body finds the accumulator at `xs` and leaves it at
    `xs` plus the block's one-hot product; the inputs' buffers and the output's are left as found. -/
theorem run0_B (c : Dev nD) (i : grid0.Coords) (arg2 : Memref sig .tc .vmem S2048 .i32) (harg2 : arg2.IsWhole) (arg3 : Memref sig .tc .vmem S2048 .f32) (harg3 : arg3.IsWhole) (arg4 : Memref sig .tc .vmem S1024x64 .f32) (harg4 : arg4.IsWhole) (arg5 : Memref sig .tc .vmem S2048x64 .bf16) (harg5 : arg5.IsWhole) (arg6 : Memref sig .tc .vmem S2048x64 .f32) (harg6 : arg6.IsWhole) (hc0 : ¬cond0_0 i) (hc1 : ¬cond0_1 i)
    (x0 : Vec F S2048 .i32) (x1 : Vec F S2048 .f32) (x2 : Vec F S1024x64 .f32) (xi3 : Vec F S2048x64 .bf16) (xs : Vec F S2048x64 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k0_pay2 i x0 x1 x2 xs)) -∗ K ⟨⟩))
          ⊢ wp frame (wpE (defs₀ (F := F)) Variants.none c none) E (cc0__gather_scale_kernel i arg2 harg2 arg3 harg3 arg4 harg4 arg5 harg5 arg6 harg6) K := by
  simp only [cc0__gather_scale_kernel_eq_skeleton]; unfold cc0__gather_scale_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  rw [read_whole_store _ _ zeros2, load_whole arg2 harg2 zeros1, load_whole arg3 harg3 zeros1, load_whole arg4 harg4 zeros2, load_whole arg6 harg6 zeros2]

set_option maxHeartbeats 1000000 in
/-- At the first node block of an edge block the body zeroes the accumulator, found at anything, reads the zeros
    back and leaves the block's one-hot product added to them; the inputs' buffers and the output's are left as found. -/
theorem run0_A (c : Dev nD) (i : grid0.Coords) (arg2 : Memref sig .tc .vmem S2048 .i32) (harg2 : arg2.IsWhole) (arg3 : Memref sig .tc .vmem S2048 .f32) (harg3 : arg3.IsWhole) (arg4 : Memref sig .tc .vmem S1024x64 .f32) (harg4 : arg4.IsWhole) (arg5 : Memref sig .tc .vmem S2048x64 .bf16) (harg5 : arg5.IsWhole) (arg6 : Memref sig .tc .vmem S2048x64 .f32) (harg6 : arg6.IsWhole) (hc0 : cond0_0 i) (hc1 : ¬cond0_1 i)
    (x0 : Vec F S2048 .i32) (x1 : Vec F S2048 .f32) (x2 : Vec F S1024x64 .f32) (xi3 : Vec F S2048x64 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k0_pay2 i x0 x1 x2 (k0_pay1 (F := F)))) -∗ K ⟨⟩))
          ⊢ wp frame (wpE (defs₀ (F := F)) Variants.none c none) E (cc0__gather_scale_kernel i arg2 harg2 arg3 harg3 arg4 harg4 arg5 harg5 arg6 harg6) K := by
  simp only [cc0__gather_scale_kernel_eq_skeleton]; unfold cc0__gather_scale_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  sl_unfold_words
  rw [read_whole_store _ _ zeros2, load_whole arg2 harg2 zeros1, load_whole arg3 harg3 zeros1, load_whole arg4 harg4 zeros2, View.readCov_unit_zero _ zeros2]

set_option maxHeartbeats 1000000 in
/-- At the last node block the body adds the block's product as elsewhere and then stores the accumulator, rounded,
    whole into the output's buffer, found at anything. -/
theorem run0_C (c : Dev nD) (i : grid0.Coords) (arg2 : Memref sig .tc .vmem S2048 .i32) (harg2 : arg2.IsWhole) (arg3 : Memref sig .tc .vmem S2048 .f32) (harg3 : arg3.IsWhole) (arg4 : Memref sig .tc .vmem S1024x64 .f32) (harg4 : arg4.IsWhole) (arg5 : Memref sig .tc .vmem S2048x64 .bf16) (harg5 : arg5.IsWhole) (arg6 : Memref sig .tc .vmem S2048x64 .f32) (harg6 : arg6.IsWhole) (hc0 : ¬cond0_0 i) (hc1 : cond0_1 i)
    (x0 : Vec F S2048 .i32) (x1 : Vec F S2048 .f32) (x2 : Vec F S1024x64 .f32) (xs : Vec F S2048x64 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare (k0_pay3 (k0_pay2 i x0 x1 x2 xs)) ∗ owns (c : Thread nD τ) arg6 fullShare (k0_pay2 i x0 x1 x2 xs)) -∗ K ⟨⟩))
          ⊢ wp frame (wpE (defs₀ (F := F)) Variants.none c none) E (cc0__gather_scale_kernel i arg2 harg2 arg3 harg3 arg4 harg4 arg5 harg5 arg6 harg6) K := by
  simp only [cc0__gather_scale_kernel_eq_skeleton]; unfold cc0__gather_scale_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_words
    rw [read_whole_store _ _ zeros2, View.readCov_unit_zero _ zeros2, load_whole arg2 harg2 zeros1, load_whole arg3 harg3 zeros1, load_whole arg4 harg4 zeros2, load_whole arg6 harg6 zeros2]
  iexists _; isplitr
  swap; · iexact HS
  ipureintro
  sl_unfold_words
  rw [read_whole_store _ _ zeros2, load_whole arg2 harg2 zeros1, load_whole arg3 harg3 zeros1, load_whole arg4 harg4 zeros2, load_whole arg6 harg6 zeros2]

/-! ## The two tests in closed form: the node-block coordinate of point t is t mod 49 -/

theorem coord0_1 (t : Fin cfg0.N) : (grid0.coords t 1).val = t.val % 49 := by
  show t.val / grid0.stride 1 % 49 = t.val % 49
  rw [show grid0.stride 1 = 1 from by decide, Nat.div_one]

theorem cond0_0_iff (i : grid0.Coords) : cond0_0 i ↔ (i 1).val = 0 := by
  have h : ∀ k : Fin 49, (Scalar.cmpi .ne (Scalar.extui (Scalar.cmpi .eq (BitVec.ofNat 32 k.val) 0#32)) 0#32) = 1#1 ↔ k.val = 0 := by decide
  exact h (i 1)

theorem cond0_1_iff (i : grid0.Coords) : cond0_1 i ↔ (i 1).val = 48 := by
  have h : ∀ k : Fin 49, (Scalar.cmpi .ne (Scalar.extui (Scalar.cmpi .eq (BitVec.ofNat 32 k.val) 48#32)) 0#32) = 1#1 ↔ k.val = 48 := by decide
  exact h (i 1)

theorem hcond0_0 (t : Fin cfg0.N) : cond0_0 (grid0.coords t) ↔ t.val % 49 = 0 :=
  (cond0_0_iff _).trans (by rw [coord0_1])

theorem hcond0_1 (t : Fin cfg0.N) : cond0_1 (grid0.coords t) ↔ t.val % 49 = 48 :=
  (cond0_1_iff _).trans (by rw [coord0_1])

/-! ## Where the output window is idle -/

/-- Off the last node block the body stores nothing into the output's buffer: the window is idle there, -/
theorem idleAt0_3 (i : grid0.Coords) (h : ¬cond0_1 i) : cfg0.idle 3 i = true := by
  show (!(k0_cond2 i == 1#1)) = true
  rw [Bool.not_eq_true', beq_eq_false_iff_ne]; exact h

/-- and not written back; -/
theorem noFlush0_3 (t : Fin cfg0.N) (h : ¬t.val % 49 = 48) : (cfg0.win 3).flush t = false :=
  Bool.eq_false_iff.mpr fun hf => h ((flush0_3 t).mp hf)

/-- at the last node block it is live. -/
theorem liveAt0_3 (i : grid0.Coords) (h : cond0_1 i) : cfg0.idle 3 i = false := by
  show (!(k0_cond2 i == 1#1)) = false
  rw [h]; rfl

/-- The three inputs are never idle. -/
theorem liveAt0_in (w : Fin cfg0.W) (t : Fin cfg0.N) (hw : w.val < 3 := by decide) : cfg0.idle w (cfg0.grid.coords t) = false := by
  match w, hw with
  | 0, _ => rfl
  | 1, _ => rfl
  | 2, _ => rfl

theorem leaves0_0 (c : Dev nD) (t : Fin cfg0.N) :
    (dat0 V c).leavesExact 0 t = owns (c : Thread nD τ) (st0_0 t) fullShare (iblk0 V c 0 t) := by
  rw [show (dat0 V c).leavesExact 0 t = owns (c : Thread nD τ) (st0_0 t) fullShare ((dat0 V c).after 0 t) from by
    unfold Dat.leavesExact; rw [liveAt0_in 0 t], after0_0]
theorem leaves0_1 (c : Dev nD) (t : Fin cfg0.N) :
    (dat0 V c).leavesExact 1 t = owns (c : Thread nD τ) (st0_1 t) fullShare (iblk0 V c 1 t) := by
  rw [show (dat0 V c).leavesExact 1 t = owns (c : Thread nD τ) (st0_1 t) fullShare ((dat0 V c).after 1 t) from by
    unfold Dat.leavesExact; rw [liveAt0_in 1 t], after0_1]
theorem leaves0_2 (c : Dev nD) (t : Fin cfg0.N) :
    (dat0 V c).leavesExact 2 t = owns (c : Thread nD τ) (st0_2 t) fullShare (iblk0 V c 2 t) := by
  rw [show (dat0 V c).leavesExact 2 t = owns (c : Thread nD τ) (st0_2 t) fullShare ((dat0 V c).after 2 t) from by
    unfold Dat.leavesExact; rw [liveAt0_in 2 t], after0_2]

/-- Off the last node block the output's buffer goes back as it was found. -/
theorem leaves0_3_idle (c : Dev nD) (t : Fin cfg0.N) (h : ¬t.val % 49 = 48) :
    (dat0 V c).leavesExact 3 t = iprop(∃ d, owns (c : Thread nD τ) (st0_3 t) fullShare ((dat0 V c).before 3 t d)) :=
  Dat.leavesExact_idle (dat0 V c) 3 t (idleAt0_3 _ fun hc => h ((hcond0_1 t).mp hc)) (noFlush0_3 t h)

/-- At the last node block it holds the accumulator's rounding. -/
theorem leaves0_3_live (c : Dev nD) (t : Fin cfg0.N) (h : t.val % 49 = 48) :
    (dat0 V c).leavesExact 3 t = owns (c : Thread nD τ) (st0_3 t) fullShare (k0_pay3 (acc0 V c t.val t.isLt)) := by
  unfold Dat.leavesExact; rw [liveAt0_3 _ ((hcond0_1 t).mpr h), after0_3]

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The three inputs' buffers hold their blocks; the point's position mod 49 says which of
    the three runs applies; the invariant hands the body the accumulator at what the point before left (at anything
    at the very first point) and takes it back at this point's value, the other region's buffers and the generator
    register passing through untouched; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, PhiS0_castSucc]
  have hN : t.val < 19159 := lt_of_lt_of_eq t.isLt (show cfg0.N = 19159 from N_0)
  by_cases h0 : t.val % 49 = 0
  · have h1 : ¬t.val % 49 = 48 := by omega
    rw [leaves0_3_idle V c t h1, acc0_first V c t h0]
    by_cases hz : t.val = 0
    · rw [PhiS0_zero V c _ _ hz, PhiA0_eq]
      iintro ⟨⟨⟨HS, HR⟩, Hg⟩, Ho, ⟨%d0, H0⟩, ⟨%d1, H1⟩, ⟨%d2, H2⟩, ⟨%d3, H3⟩⟩
      iapply (run0_A c (grid0.coords t) _ _ _ _ _ _ _ _ _ _ ((hcond0_0 t).mpr h0) (fun h => h1 ((hcond0_1 t).mp h)) (iblk0 V c 0 t) (iblk0 V c 1 t) (iblk0 V c 2 t) ((dat0 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [PhiS0_pos V c _ _ hz]
      iintro ⟨⟨HS, HR, Hg⟩, Ho, ⟨%d0, H0⟩, ⟨%d1, H1⟩, ⟨%d2, H2⟩, ⟨%d3, H3⟩⟩
      iapply (run0_A c (grid0.coords t) _ _ _ _ _ _ _ _ _ _ ((hcond0_0 t).mpr h0) (fun h => h1 ((hcond0_1 t).mp h)) (iblk0 V c 0 t) (iblk0 V c 1 t) (iblk0 V c 2 t) ((dat0 V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    rw [PhiS0_pos V c _ _ hz, acc0_next V c t h0]
    by_cases h1 : t.val % 49 = 48
    · rw [leaves0_3_live V c t h1, acc0_next V c t h0]
      iintro ⟨⟨HS, HR, Hg⟩, Ho, ⟨%d0, H0⟩, ⟨%d1, H1⟩, ⟨%d2, H2⟩, ⟨%d3, H3⟩⟩
      iapply (run0_C c (grid0.coords t) _ _ _ _ _ _ _ _ _ _ (fun h => h0 ((hcond0_0 t).mp h)) ((hcond0_1 t).mpr h1) (iblk0 V c 0 t) (iblk0 V c 1 t) (iblk0 V c 2 t) (acc0 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [leaves0_3_idle V c t h1]
      iintro ⟨⟨HS, HR, Hg⟩, Ho, ⟨%d0, H0⟩, ⟨%d1, H1⟩, ⟨%d2, H2⟩, ⟨%d3, H3⟩⟩
      iapply (run0_B c (grid0.coords t) _ _ _ _ _ _ _ _ _ _ (fun h => h0 ((hcond0_0 t).mp h)) (fun h => h1 ((hcond0_1 t).mp h)) (iblk0 V c 0 t) (iblk0 V c 1 t) (iblk0 V c 2 t) ((dat0 V c).before 3 t d3) (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ :=
  fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped buffers and the generator register back. -/
theorem hout0 (c : Dev nD) : (dat0 V c).Φ (Fin.last cfg0.N) ⊢ Pipeline.ΦA spec0 c := by
  rw [show (dat0 V c).Φ (Fin.last cfg0.N) = PhiS0 V c cfg0.N (Nat.le_refl _) from rfl,
    PhiS0_pos V c _ _ (by have h : cfg0.N = 19159 := N_0; omega), PhiA0_eq]
  iintro ⟨HS, HR, Hg⟩
  isplitl [HS HR]
  · isplitl [HS]
    · iexists _; iexact HS
    iexact HR
  iexact Hg

end Cert.KernelIdeal.H

end
-- ==== Proof.KI.Reg1.lean ====
/-
  Region 1, the scatter and the two linear layers: at grid point (nb, eb) the body compares the 1024 node ids of
  node block nb with the 2048 destination ids of edge block eb, reads the one-hot matrix as numbers, contracts
  it over the edge axis with the edge block's 2048 x 64 messages and with a column of ones, and adds the two
  products into a 1024 x 64 and a 1024 x 1 scratch accumulator that it zeroes at eb = 0; at eb = 390 it divides
  the first by the larger of the second and one, applies the two linear layers to the node block's features and
  to that mean, and stores their sum as the node block's result. Stated here, for any float instance: what the
  two accumulators hold after each point (acc1), the pipeline's proof data over them, and the body's obligation
  at every point.
-/
import proofs.«404055_j420906795210_2_alg».proof.Proof.Gen.KernelIdeal.Launch
import proofs.«404055_j420906795210_2_alg».proof.Proof.Gen.KernelIdeal.Skeleton
import proofs.«404055_j420906795210_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulators -/

/-- The two scratch accumulators (the message sums, the in-degrees) after the body at position n: the edge
    block's one-hot products added to zero at the first edge block of a node block (n ≡ 0 mod 391), to what
    position n - 1 left otherwise. -/
def acc1 (c : Dev nD) : (n : ℕ) → n < cfg1.N → Vec F S1024x64 .f32 × Vec F S1024x1 .f32
  | 0, hn => (k1_pay4 (grid1.coords ⟨0, hn⟩) (iblk1 V c 1 ⟨0, hn⟩) (iblk1 V c 0 ⟨0, hn⟩) (k1_pay1 (F := F)),
      k1_pay5 (grid1.coords ⟨0, hn⟩) (iblk1 V c 1 ⟨0, hn⟩) (k1_pay2 (F := F)))
  | n + 1, hn =>
    if (n + 1) % 391 = 0 then
      (k1_pay4 (grid1.coords ⟨n + 1, hn⟩) (iblk1 V c 1 ⟨n + 1, hn⟩) (iblk1 V c 0 ⟨n + 1, hn⟩) (k1_pay1 (F := F)),
        k1_pay5 (grid1.coords ⟨n + 1, hn⟩) (iblk1 V c 1 ⟨n + 1, hn⟩) (k1_pay2 (F := F)))
    else
      (k1_pay4 (grid1.coords ⟨n + 1, hn⟩) (iblk1 V c 1 ⟨n + 1, hn⟩) (iblk1 V c 0 ⟨n + 1, hn⟩) (acc1 c n (Nat.lt_of_succ_lt hn)).1,
        k1_pay5 (grid1.coords ⟨n + 1, hn⟩) (iblk1 V c 1 ⟨n + 1, hn⟩) (acc1 c n (Nat.lt_of_succ_lt hn)).2)

/-- At the first edge block of a node block both accumulators start from zero. -/
theorem acc1_first (c : Dev nD) (t : Fin cfg1.N) (h : t.val % 391 = 0) :
    acc1 V c t.val t.isLt = (k1_pay4 (grid1.coords t) (iblk1 V c 1 t) (iblk1 V c 0 t) (k1_pay1 (F := F)),
      k1_pay5 (grid1.coords t) (iblk1 V c 1 t) (k1_pay2 (F := F))) := by
  obtain ⟨n, hn⟩ := t
  cases n with
  | zero => exact rfl
  | succ n => exact if_pos h

/-- At every other edge block they add to what the point before left. -/
theorem acc1_next (c : Dev nD) (t : Fin cfg1.N) (h : t.val % 391 ≠ 0) :
    acc1 V c t.val t.isLt = (k1_pay4 (grid1.coords t) (iblk1 V c 1 t) (iblk1 V c 0 t)
        (acc1 V c (t.val - 1) (Nat.lt_of_le_of_lt (Nat.sub_le _ _) t.isLt)).1,
      k1_pay5 (grid1.coords t) (iblk1 V c 1 t) (acc1 V c (t.val - 1) (Nat.lt_of_le_of_lt (Nat.sub_le _ _) t.isLt)).2) := by
  obtain ⟨n, hn⟩ := t
  cases n with
  | zero => exact absurd (Nat.zero_mod _) h
  | succ n => exact (if_neg h).trans rfl

/-- What the body stores as the node block's result at the last edge block: the two linear layers over the
    accumulators as position t leaves them. -/
def out1 (c : Dev nD) (t : Fin cfg1.N) : Vec F S1024x64 .f32 :=
  k1_pay6 (acc1 V c t.val t.isLt).1 (acc1 V c t.val t.isLt).2 (iblk1 V c 2 t) (iblk1 V c 3 t) (iblk1 V c 4 t) (iblk1 V c 5 t) (iblk1 V c 6 t)

/-! ## The invariant and the proof data -/

/-- The scratch operands as memrefs. -/
abbrev scM1a : Memref sig .tc .vmem S1024x64 .f32 := Memref.whole cc1_scratch0
abbrev scM1b : Memref sig .tc .vmem S1024x1 .f32 := Memref.whole cc1_scratch1

/-- The scoped buffers region 1 neither stages nor names (the other region's), each whole at anything. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The region's invariant before position n: before the first point the scoped buffers no window stages at
    anything and the generator register at some state; afterwards the same with the two scratch accumulators at
    what position n - 1 left in them. -/
def PhiS1 (c : Dev nD) : (n : ℕ) → n ≤ cfg1.N → sProp 𝕄
  | 0, _ => Pipeline.ΦA spec1 c
  | n + 1, hn => iprop(rest1 (F := F) c ∗ owns (c : Thread nD τ) scM1a fullShare (acc1 V c n hn).1
      ∗ owns (c : Thread nD τ) scM1b fullShare (acc1 V c n hn).2 ∗ (∃ r, prngReg c r))

/-- The proof data of pipeline 1 on core c: the arrays as the region finds them; after the body each input's
    buffer at its block and the output's at out1; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_7 (c : Dev nD) (t : Fin cfg1.N) : (dat1 V c).after 7 t = out1 V c t := by dsimp only [dat1]

/-! ## Which points zero the accumulators, and which store the result

The body branches twice on the edge-block coordinate eb of the point: on eb = 0 and on eb = 390. Position t of
the grid has eb = t mod 391, so the two tests are decided once over the 391 values of eb. -/

/-- The edge-block coordinate of position t. -/
theorem coord1_val (t : Fin cfg1.N) : ((grid1.coords t) 1).val = t.val % 391 := by
  show t.val / grid1.stride 1 % 391 = t.val % 391
  rw [show grid1.stride 1 = 1 from by decide, Nat.div_one]

/-- The test of the body's first branch (eb = 0), from the grid coordinates. -/
abbrev cond1_0 (i : grid1.Coords) : Prop := (Scalar.cmpi .ne (Scalar.extui (Scalar.cmpi .eq (BitVec.ofNat 32 (i 1).val) 0#32)) 0#32) = 1#1
/-- The test of its second branch (eb = 390). -/
abbrev cond1_1 (i : grid1.Coords) : Prop := k1_cond2 i = 1#1

theorem cond1_0_at : ∀ e : Fin 391, (Scalar.cmpi .ne (Scalar.extui (Scalar.cmpi .eq (BitVec.ofNat 32 e.val) 0#32)) 0#32) = 1#1 ↔ e.val = 0 := by
  decide +kernel

theorem cond1_1_at : ∀ e : Fin 391, (Scalar.cmpi .ne (Scalar.extui (Scalar.cmpi .eq (BitVec.ofNat 32 e.val) 390#32)) 0#32) = 1#1 ↔ e.val = 390 := by
  decide +kernel

/-- The first branch is taken at the positions ≡ 0 (mod 391). -/
theorem hcond1_0 (t : Fin cfg1.N) : cond1_0 (grid1.coords t) ↔ t.val % 391 = 0 := by
  show (Scalar.cmpi .ne (Scalar.extui (Scalar.cmpi .eq (BitVec.ofNat 32 ((grid1.coords t) 1).val) 0#32)) 0#32) = 1#1 ↔ _
  rw [coord1_val]
  exact cond1_0_at ⟨t.val % 391, Nat.mod_lt _ (by decide)⟩

/-- The second at the positions ≡ 390 (mod 391). -/
theorem hcond1_1 (t : Fin cfg1.N) : cond1_1 (grid1.coords t) ↔ t.val % 391 = 390 := by
  show (Scalar.cmpi .ne (Scalar.extui (Scalar.cmpi .eq (BitVec.ofNat 32 ((grid1.coords t) 1).val) 390#32)) 0#32) = 1#1 ↔ _
  rw [coord1_val]
  exact cond1_1_at ⟨t.val % 391, Nat.mod_lt _ (by decide)⟩

/-- Where the second branch is not taken the result window is idle, -/
theorem idleAt1_7 (t : Fin cfg1.N) (h : ¬cond1_1 (grid1.coords t)) : cfg1.idle 7 (grid1.coords t) = true := by
  show (!(k1_cond2 (grid1.coords t) == 1#1)) = true
  rw [Bool.not_eq_true', beq_eq_false_iff_ne]; exact h

/-- where it is taken the window is live, -/
theorem liveAt1_7 (t : Fin cfg1.N) (h : cond1_1 (grid1.coords t)) : cfg1.idle 7 (grid1.coords t) = false := by
  show (!(k1_cond2 (grid1.coords t) == 1#1)) = false
  rw [Bool.not_eq_false', beq_iff_eq]; exact h

/-- and the window's block is written back only at the positions ≡ 390 (mod 391). -/
theorem noFlush1_7 (t : Fin cfg1.N) (h : ¬t.val % 391 = 390) : (cfg1.win 7).flush t = false :=
  Bool.eq_false_iff.mpr fun hf => h ((flush1_7 t).mp hf)

/-! ## What the staging buffers hold when the body runs

Every input window's current staging buffer holds the window's block at every point, whether the point fetched it
or an earlier one did: the body leaves input buffers as it finds them, and a window not fetched at a point has not
moved since the point before. -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-- An input window is live at every point: the body leaves its buffer at the window's block. -/
theorem leaves1_0 (c : Dev nD) (t : Fin cfg1.N) :
    (dat1 V c).leavesExact 0 t = owns (c : Thread nD τ) (st1_0 t) fullShare (iblk1 V c 0 t) := by
  unfold Dat.leavesExact; rw [show cfg1.idle 0 (grid1.coords t) = false from rfl, after1_0]
theorem leaves1_1 (c : Dev nD) (t : Fin cfg1.N) :
    (dat1 V c).leavesExact 1 t = owns (c : Thread nD τ) (st1_1 t) fullShare (iblk1 V c 1 t) := by
  unfold Dat.leavesExact; rw [show cfg1.idle 1 (grid1.coords t) = false from rfl, after1_1]
theorem leaves1_2 (c : Dev nD) (t : Fin cfg1.N) :
    (dat1 V c).leavesExact 2 t = owns (c : Thread nD τ) (st1_2 t) fullShare (iblk1 V c 2 t) := by
  unfold Dat.leavesExact; rw [show cfg1.idle 2 (grid1.coords t) = false from rfl, after1_2]
theorem leaves1_3 (c : Dev nD) (t : Fin cfg1.N) :
    (dat1 V c).leavesExact 3 t = owns (c : Thread nD τ) (st1_3 t) fullShare (iblk1 V c 3 t) := by
  unfold Dat.leavesExact; rw [show cfg1.idle 3 (grid1.coords t) = false from rfl, after1_3]
theorem leaves1_4 (c : Dev nD) (t : Fin cfg1.N) :
    (dat1 V c).leavesExact 4 t = owns (c : Thread nD τ) (st1_4 t) fullShare (iblk1 V c 4 t) := by
  unfold Dat.leavesExact; rw [show cfg1.idle 4 (grid1.coords t) = false from rfl, after1_4]
theorem leaves1_5 (c : Dev nD) (t : Fin cfg1.N) :
    (dat1 V c).leavesExact 5 t = owns (c : Thread nD τ) (st1_5 t) fullShare (iblk1 V c 5 t) := by
  unfold Dat.leavesExact; rw [show cfg1.idle 5 (grid1.coords t) = false from rfl, after1_5]
theorem leaves1_6 (c : Dev nD) (t : Fin cfg1.N) :
    (dat1 V c).leavesExact 6 t = owns (c : Thread nD τ) (st1_6 t) fullShare (iblk1 V c 6 t) := by
  unfold Dat.leavesExact; rw [show cfg1.idle 6 (grid1.coords t) = false from rfl, after1_6]

/-! ## The invariant, opened

Before the first point the invariant is the launch's: every scoped buffer that is no staging buffer of this region
at some contents, the two accumulators among them. After a point it names what the two accumulators hold. Either
way it gives the other region's buffers, the two accumulators at some contents, and the generator register. -/

theorem PhiS1_zero (c : Dev nD) (n : ℕ) (h : n ≤ cfg1.N) (hz : n = 0) : PhiS1 V c n h = Pipeline.ΦA spec1 c := by
  subst hz; rfl

/-- After position n: the accumulators at what that position left. -/
theorem PhiS1_succ (c : Dev nD) (n : ℕ) (hn : n < cfg1.N) :
    PhiS1 V c (n + 1) hn = iprop(rest1 (F := F) c ∗ owns (c : Thread nD τ) scM1a fullShare (acc1 V c n hn).1
      ∗ owns (c : Thread nD τ) scM1b fullShare (acc1 V c n hn).2 ∗ (∃ r, prngReg c r)) := rfl

/-- Before a position that is not the first: the accumulators at what the position before left. -/
theorem PhiS1_pos (c : Dev nD) (n : ℕ) (h : n ≤ cfg1.N) (hz : n ≠ 0) :
    PhiS1 V c n h = iprop(rest1 (F := F) c ∗ owns (c : Thread nD τ) scM1a fullShare (acc1 V c (n - 1) (by omega)).1
      ∗ owns (c : Thread nD τ) scM1b fullShare (acc1 V c (n - 1) (by omega)).2 ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- The launch's invariant lists the other region's nine buffers, then the two accumulators, each at some
    contents, beside the generator register. -/
theorem PhiA1_open (c : Dev nD) :
    (Pipeline.ΦA spec1 c : sProp 𝕄) ⊢ iprop(rest1 (F := F) c ∗ (∃ d, owns (c : Thread nD τ) scM1a fullShare d)
      ∗ (∃ d, owns (c : Thread nD τ) scM1b fullShare d) ∗ (∃ r, prngReg c r)) := by
  unfold Pipeline.ΦA rest1; rw [scopedRest1_eq]; simp only [scM1a, scM1b, owns_whole]
  iintro ⟨⟨H1, H2, H3, H4, H5, H6, H7, H8, H9, Ha, Hb⟩, Hg⟩
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [Ha]; · iexact Ha
  isplitl [Hb]; · iexact Hb
  iexact Hg

theorem PhiA1_close (c : Dev nD) :
    iprop(rest1 (F := F) c ∗ (∃ d, owns (c : Thread nD τ) scM1a fullShare d)
      ∗ (∃ d, owns (c : Thread nD τ) scM1b fullShare d) ∗ (∃ r, prngReg c r)) ⊢ (Pipeline.ΦA spec1 c : sProp 𝕄) := by
  unfold Pipeline.ΦA rest1; rw [scopedRest1_eq]; simp only [scM1a, scM1b, owns_whole]
  iintro ⟨⟨H1, H2, H3, H4, H5, H6, H7, H8, H9⟩, Ha, Hb, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [Ha]; · iexact Ha
    iexact Hb
  iexact Hg

/-- Before any point the invariant gives the other region's buffers, the accumulators at some contents, and the
    generator register. -/
theorem PhiS1_open (c : Dev nD) (n : ℕ) (h : n ≤ cfg1.N) :
    PhiS1 V c n h ⊢ iprop(rest1 (F := F) c ∗ (∃ d, owns (c : Thread nD τ) scM1a fullShare d)
      ∗ (∃ d, owns (c : Thread nD τ) scM1b fullShare d) ∗ (∃ r, prngReg c r)) := by
  cases n with
  | zero => exact PhiA1_open c
  | succ n =>
    rw [PhiS1_succ]
    iintro ⟨Hr, Ha, Hb, Hg⟩
    isplitl [Hr]; · iexact Hr
    isplitl [Ha]; · iexists _; iexact Ha
    isplitl [Hb]; · iexists _; iexact Hb
    iexact Hg

/-! ## The body's three runs

Every load and store of the body is of a whole buffer, through the rectangle at zero offsets of the buffer's own
sizes. So a load reads the buffer's contents, one store leaves its payload whatever was there, and a load after a
store in the same run reads that payload. -/

theorem zeroOff1_2d : (![0, 0] : Fin 2 → Nat) = fun _ => 0 := funext fun a => by fin_cases a <;> rfl
theorem zeroOff1_1d : (![0] : Fin 1 → Nat) = fun _ => 0 := funext fun a => by fin_cases a; rfl

set_option maxHeartbeats 1000000 in
/-- THE FIRST EDGE BLOCK of a node block (eb = 0): on whole memrefs, the inputs' at their contents, the result's at
    contents it hands back untouched, the accumulators' at anything, the body zeroes both accumulators, reads the
    zeros back, and leaves in them the edge block's one-hot products added to zero. -/
theorem kernelRun1_A (c : Dev nD) (i : grid1.Coords) (arg2 : Memref sig .tc .vmem S2048x64 .bf16) (harg2 : arg2.IsWhole) (arg3 : Memref sig .tc .vmem S2048 .i32) (harg3 : arg3.IsWhole) (arg4 : Memref sig .tc .vmem S1024x64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S1024x64 .f32) (harg9 : arg9.IsWhole) (arg10 : Memref sig .tc .vmem S1024x64 .f32) (harg10 : arg10.IsWhole) (arg11 : Memref sig .tc .vmem S1024x1 .f32) (harg11 : arg11.IsWhole) (hc0 : cond1_0 i) (hc1 : ¬cond1_1 i)
    (x0 : Vec F S2048x64 .bf16) (x1 : Vec F S2048 .i32) (x2 : Vec F S1024x64 .f32) (x3 : Vec F S64x64 .f32) (x4 : Vec F S64 .f32) (x5 : Vec F S64x64 .f32) (x6 : Vec F S64 .f32) (xi7 : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare (k1_pay4 i x1 x0 (k1_pay1 (F := F))) ∗ owns (c : Thread nD τ) arg11 fullShare (k1_pay5 i x1 (k1_pay2 (F := F)))) -∗ K ⟨⟩))
      ⊢ wp frame (wpE (defs₀ (F := F)) Variants.none c none) E (cc1__scatter_mean_linear_kernel i arg2 harg2 arg3 harg3 arg4 harg4 arg5 harg5 arg6 harg6 arg7 harg7 arg8 harg8 arg9 harg9 arg10 harg10 arg11 harg11) K := by
  simp only [cc1__scatter_mean_linear_kernel_eq_skeleton]; unfold cc1__scatter_mean_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%da, %fa, -, HA⟩, ⟨%db, %fb, -, HB⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [HA]
  · iexists _; isplitr
    swap; · iexact HA
    ipureintro
    (try sl_unfold_words)
    rw [View.read_writes_eq_canon _ _ _ (fun y => ⟨_, List.mem_cons.mpr (Or.inl rfl), View.mem_set_unit_zero zeroOff1_2d inb_S1024x64_S1024x64_0_0 y⟩)]
    rw [View.canon_cons_unit_zero (S := S1024x64) zeroOff1_2d]
    simp only [View.readAt_eq_ld, harg2.read_unread, harg3.read_unread, View.readCov_unit_zero (S := S1024x64) _ zeroOff1_2d, View.ld_unit_zero (S := S2048) zeroOff1_1d, View.ld_unit_zero (S := S2048x64) zeroOff1_2d, View.ld_unit_zero (S := S1024x64) zeroOff1_2d, View.ld_unit_zero (S := S1024x1) zeroOff1_2d, View.ld_unit_zero (S := S64x64) zeroOff1_2d, View.ld_unit_zero (S := S64) zeroOff1_1d]
  · iexists _; isplitr
    swap; · iexact HB
    ipureintro
    (try sl_unfold_words)
    rw [View.read_writes_eq_canon _ _ _ (fun y => ⟨_, List.mem_cons.mpr (Or.inl rfl), View.mem_set_unit_zero zeroOff1_2d inb_S1024x1_S1024x1_0_0 y⟩)]
    rw [View.canon_cons_unit_zero (S := S1024x1) zeroOff1_2d]
    simp only [View.readAt_eq_ld, harg3.read_unread, View.readCov_unit_zero (S := S1024x1) _ zeroOff1_2d, View.ld_unit_zero (S := S2048) zeroOff1_1d, View.ld_unit_zero (S := S2048x64) zeroOff1_2d, View.ld_unit_zero (S := S1024x64) zeroOff1_2d, View.ld_unit_zero (S := S1024x1) zeroOff1_2d, View.ld_unit_zero (S := S64x64) zeroOff1_2d, View.ld_unit_zero (S := S64) zeroOff1_1d]

set_option maxHeartbeats 1000000 in
/-- AN EDGE BLOCK IN BETWEEN (0 < eb < 390): the accumulators, found at (xa, xb), are left at the edge block's one-hot
    products added to them; the result's buffer is handed back untouched. -/
theorem kernelRun1_B (c : Dev nD) (i : grid1.Coords) (arg2 : Memref sig .tc .vmem S2048x64 .bf16) (harg2 : arg2.IsWhole) (arg3 : Memref sig .tc .vmem S2048 .i32) (harg3 : arg3.IsWhole) (arg4 : Memref sig .tc .vmem S1024x64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S1024x64 .f32) (harg9 : arg9.IsWhole) (arg10 : Memref sig .tc .vmem S1024x64 .f32) (harg10 : arg10.IsWhole) (arg11 : Memref sig .tc .vmem S1024x1 .f32) (harg11 : arg11.IsWhole) (hc0 : ¬cond1_0 i) (hc1 : ¬cond1_1 i)
    (x0 : Vec F S2048x64 .bf16) (x1 : Vec F S2048 .i32) (x2 : Vec F S1024x64 .f32) (x3 : Vec F S64x64 .f32) (x4 : Vec F S64 .f32) (x5 : Vec F S64x64 .f32) (x6 : Vec F S64 .f32) (xi7 : Vec F S1024x64 .f32) (xa : Vec F S1024x64 .f32) (xb : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xa ∗ owns (c : Thread nD τ) arg11 fullShare xb
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare (k1_pay4 i x1 x0 xa) ∗ owns (c : Thread nD τ) arg11 fullShare (k1_pay5 i x1 xb)) -∗ K ⟨⟩))
      ⊢ wp frame (wpE (defs₀ (F := F)) Variants.none c none) E (cc1__scatter_mean_linear_kernel i arg2 harg2 arg3 harg3 arg4 harg4 arg5 harg5 arg6 harg6 arg7 harg7 arg8 harg8 arg9 harg9 arg10 harg10 arg11 harg11) K := by
  simp only [cc1__scatter_mean_linear_kernel_eq_skeleton]; unfold cc1__scatter_mean_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fa, %hfa, HA⟩, ⟨%fb, %hfb, HB⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hfa
  obtain rfl := harg11.eq_unread hfb
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [HA]
  · iexists _; isplitr
    swap; · iexact HA
    ipureintro
    (try sl_unfold_words)
    rw [View.read_writes_eq_canon _ _ _ (fun y => ⟨_, List.mem_cons.mpr (Or.inl rfl), View.mem_set_unit_zero zeroOff1_2d inb_S1024x64_S1024x64_0_0 y⟩)]
    rw [View.canon_cons_unit_zero (S := S1024x64) zeroOff1_2d]
    simp only [View.readAt_eq_ld, harg2.read_unread, harg3.read_unread, harg10.read_unread, View.ld_unit_zero (S := S2048) zeroOff1_1d, View.ld_unit_zero (S := S2048x64) zeroOff1_2d, View.ld_unit_zero (S := S1024x64) zeroOff1_2d, View.ld_unit_zero (S := S1024x1) zeroOff1_2d, View.ld_unit_zero (S := S64x64) zeroOff1_2d, View.ld_unit_zero (S := S64) zeroOff1_1d]
  · iexists _; isplitr
    swap; · iexact HB
    ipureintro
    (try sl_unfold_words)
    rw [View.read_writes_eq_canon _ _ _ (fun y => ⟨_, List.mem_cons.mpr (Or.inl rfl), View.mem_set_unit_zero zeroOff1_2d inb_S1024x1_S1024x1_0_0 y⟩)]
    rw [View.canon_cons_unit_zero (S := S1024x1) zeroOff1_2d]
    simp only [View.readAt_eq_ld, harg3.read_unread, harg11.read_unread, View.ld_unit_zero (S := S2048) zeroOff1_1d, View.ld_unit_zero (S := S2048x64) zeroOff1_2d, View.ld_unit_zero (S := S1024x64) zeroOff1_2d, View.ld_unit_zero (S := S1024x1) zeroOff1_2d, View.ld_unit_zero (S := S64x64) zeroOff1_2d, View.ld_unit_zero (S := S64) zeroOff1_1d]

set_option maxHeartbeats 1000000 in
/-- THE LAST EDGE BLOCK (eb = 390): as in between, and the body then reads both accumulators back, divides the sums by
    the larger of the degree and one, applies the two linear layers to the node block's features and to that mean,
    and stores their sum over the whole of the result's buffer, found at anything. -/
theorem kernelRun1_C (c : Dev nD) (i : grid1.Coords) (arg2 : Memref sig .tc .vmem S2048x64 .bf16) (harg2 : arg2.IsWhole) (arg3 : Memref sig .tc .vmem S2048 .i32) (harg3 : arg3.IsWhole) (arg4 : Memref sig .tc .vmem S1024x64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S1024x64 .f32) (harg9 : arg9.IsWhole) (arg10 : Memref sig .tc .vmem S1024x64 .f32) (harg10 : arg10.IsWhole) (arg11 : Memref sig .tc .vmem S1024x1 .f32) (harg11 : arg11.IsWhole) (hc0 : ¬cond1_0 i) (hc1 : cond1_1 i)
    (x0 : Vec F S2048x64 .bf16) (x1 : Vec F S2048 .i32) (x2 : Vec F S1024x64 .f32) (x3 : Vec F S64x64 .f32) (x4 : Vec F S64 .f32) (x5 : Vec F S64x64 .f32) (x6 : Vec F S64 .f32) (xa : Vec F S1024x64 .f32) (xb : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xa ∗ owns (c : Thread nD τ) arg11 fullShare xb
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k1_pay6 (k1_pay4 i x1 x0 xa) (k1_pay5 i x1 xb) x2 x3 x4 x5 x6) ∗ owns (c : Thread nD τ) arg10 fullShare (k1_pay4 i x1 x0 xa) ∗ owns (c : Thread nD τ) arg11 fullShare (k1_pay5 i x1 xb)) -∗ K ⟨⟩))
      ⊢ wp frame (wpE (defs₀ (F := F)) Variants.none c none) E (cc1__scatter_mean_linear_kernel i arg2 harg2 arg3 harg3 arg4 harg4 arg5 harg5 arg6 harg6 arg7 harg7 arg8 harg8 arg9 harg9 arg10 harg10 arg11 harg11) K := by
  simp only [cc1__scatter_mean_linear_kernel_eq_skeleton]; unfold cc1__scatter_mean_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fa, %hfa, HA⟩, ⟨%fb, %hfb, HB⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg10.eq_unread hfa
  obtain rfl := harg11.eq_unread hfb
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    (try sl_unfold_words)
    rw [View.read_writes_eq_canon _ _ _ (fun y => ⟨_, List.mem_cons.mpr (Or.inl rfl), View.mem_set_unit_zero zeroOff1_2d inb_S1024x64_S1024x64_0_0 y⟩)]
    rw [View.canon_cons_unit_zero (S := S1024x64) zeroOff1_2d]
    simp only [View.readAt_eq_ld, harg2.read_unread, harg3.read_unread, harg4.read_unread, harg5.read_unread, harg6.read_unread, harg7.read_unread, harg8.read_unread, harg10.read_unread, harg11.read_unread, View.readCov_unit_zero (S := S1024x64) _ zeroOff1_2d, View.readCov_unit_zero (S := S1024x1) _ zeroOff1_2d, View.ld_unit_zero (S := S2048) zeroOff1_1d, View.ld_unit_zero (S := S2048x64) zeroOff1_2d, View.ld_unit_zero (S := S1024x64) zeroOff1_2d, View.ld_unit_zero (S := S1024x1) zeroOff1_2d, View.ld_unit_zero (S := S64x64) zeroOff1_2d, View.ld_unit_zero (S := S64) zeroOff1_1d]
  isplitl [HA]
  · iexists _; isplitr
    swap; · iexact HA
    ipureintro
    (try sl_unfold_words)
    rw [View.read_writes_eq_canon _ _ _ (fun y => ⟨_, List.mem_cons.mpr (Or.inl rfl), View.mem_set_unit_zero zeroOff1_2d inb_S1024x64_S1024x64_0_0 y⟩)]
    rw [View.canon_cons_unit_zero (S := S1024x64) zeroOff1_2d]
    simp only [View.readAt_eq_ld, harg2.read_unread, harg3.read_unread, harg10.read_unread, View.ld_unit_zero (S := S2048) zeroOff1_1d, View.ld_unit_zero (S := S2048x64) zeroOff1_2d, View.ld_unit_zero (S := S1024x64) zeroOff1_2d, View.ld_unit_zero (S := S1024x1) zeroOff1_2d, View.ld_unit_zero (S := S64x64) zeroOff1_2d, View.ld_unit_zero (S := S64) zeroOff1_1d]
  · iexists _; isplitr
    swap; · iexact HB
    ipureintro
    (try sl_unfold_words)
    rw [View.read_writes_eq_canon _ _ _ (fun y => ⟨_, List.mem_cons.mpr (Or.inl rfl), View.mem_set_unit_zero zeroOff1_2d inb_S1024x1_S1024x1_0_0 y⟩)]
    rw [View.canon_cons_unit_zero (S := S1024x1) zeroOff1_2d]
    simp only [View.readAt_eq_ld, harg3.read_unread, harg11.read_unread, View.ld_unit_zero (S := S2048) zeroOff1_1d, View.ld_unit_zero (S := S2048x64) zeroOff1_2d, View.ld_unit_zero (S := S1024x64) zeroOff1_2d, View.ld_unit_zero (S := S1024x1) zeroOff1_2d, View.ld_unit_zero (S := S64x64) zeroOff1_2d, View.ld_unit_zero (S := S64) zeroOff1_1d]

/-! ## The obligation at a point -/

/-- What the body is called with at point t: the invariant, nothing owed, each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point. The inputs' buffers hold their blocks; t mod 391 says which of the three runs applies.
    At the first edge block of a node block the invariant hands the accumulators over at whatever they hold and
    takes them back at the edge block's products added to zero; at any other at what the point before left, and
    takes them back with the products added. The result window's buffer comes back untouched except at the last
    edge block, where it comes back at the two layers over the accumulators just stored. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5, leaves1_6]
  rw [PhiS1_castSucc V c t]
  have hN : t.val < 19159 := lt_of_lt_of_eq t.isLt (show cfg1.N = 19159 from N_1)
  by_cases h0 : t.val % 391 = 0
  · have h1 : ¬t.val % 391 = 390 := by omega
    have hc0 : cond1_0 (grid1.coords t) := (hcond1_0 t).mpr h0
    have hc1 : ¬cond1_1 (grid1.coords t) := fun h => h1 ((hcond1_1 t).mp h)
    rw [Dat.leavesExact_idle (dat1 V c) 7 t (idleAt1_7 t hc1) (noFlush1_7 t h1)]
    rw [acc1_first V c t h0]
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (PhiS1_open V c t.val (Nat.le_of_lt t.isLt)) $$ HΦ
    icases HΦ' with ⟨Hr, Ha, Hb, Hg⟩
    iapply (kernelRun1_A c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) ((dat1 V c).before 7 t d7) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Ha]; · iexact Ha
    isplitl [Hb]; · iexact Hb
    iintro ⟨H0, H1, H2, H3, H4, H5, H6, H7, Ha, Hb⟩
    isplitl [Hr Ha Hb Hg]
    · isplitl [Hr]; · iexact Hr
      isplitl [Ha]; · iexact Ha
      isplitl [Hb]; · iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hz : t.val ≠ 0 := fun e => h0 (by rw [e])
    have hc0 : ¬cond1_0 (grid1.coords t) := fun h => h0 ((hcond1_0 t).mp h)
    rw [PhiS1_pos V c _ _ hz]
    by_cases h1 : t.val % 391 = 390
    · have hc1 : cond1_1 (grid1.coords t) := (hcond1_1 t).mpr h1
      rw [show (dat1 V c).leavesExact 7 t = owns (c : Thread nD τ) (st1_7 t) fullShare ((dat1 V c).after 7 t) from by
        unfold Dat.leavesExact; rw [liveAt1_7 t hc1], after1_7]
      unfold out1
      rw [acc1_next V c t h0]
      dsimp only
      iintro ⟨⟨Hr, Ha, Hb, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun1_C c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) (acc1 V c (t.val - 1) (Nat.lt_of_le_of_lt (Nat.sub_le _ _) t.isLt)).1 (acc1 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [Ha]; · iexact Ha
      isplitl [Hb]; · iexact Hb
      iintro ⟨H0, H1, H2, H3, H4, H5, H6, H7, Ha, Hb⟩
      isplitl [Hr Ha Hb Hg]
      · isplitl [Hr]; · iexact Hr
        isplitl [Ha]; · iexact Ha
        isplitl [Hb]; · iexact Hb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond1_1 (grid1.coords t) := fun h => h1 ((hcond1_1 t).mp h)
      rw [Dat.leavesExact_idle (dat1 V c) 7 t (idleAt1_7 t hc1) (noFlush1_7 t h1)]
      rw [acc1_next V c t h0]
      dsimp only
      iintro ⟨⟨Hr, Ha, Hb, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun1_B c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) ((dat1 V c).before 7 t d7) (acc1 V c (t.val - 1) (Nat.lt_of_le_of_lt (Nat.sub_le _ _) t.isLt)).1 (acc1 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [Ha]; · iexact Ha
      isplitl [Hb]; · iexact Hb
      iintro ⟨H0, H1, H2, H3, H4, H5, H6, H7, Ha, Hb⟩
      isplitl [Hr Ha Hb Hg]
      · isplitl [Hr]; · iexact Hr
        isplitl [Ha]; · iexact Ha
        isplitl [Hb]; · iexact Hb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the scoped buffers and the generator register back. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  exact (PhiS1_open V c _ _).trans (PhiA1_close c)

end Cert.KernelIdeal.H

end
-- ==== Proof.KI.Run.lean ====
/-
  The run of @main: eight host stretches (the constants and the four paddings), the gather region, the scatter
  region, and the closing slice. Between two items core c holds every unscoped buffer at contents named here
  (W0 … W11): a host stretch applies its operations, a region replaces its output array by what its write-backs
  leave and keeps every other buffer. Every weakly fair execution terminates with each unscoped buffer at W11.
-/
import proofs.«404055_j420906795210_2_alg».proof.Proof.Gen.KernelIdeal.Launch
import proofs.«404055_j420906795210_2_alg».proof.Proof.Gen.KernelIdeal.Skeleton
import proofs.«404055_j420906795210_2_alg».proof.Proof.Gen.KernelIdeal.Points
import proofs.«404055_j420906795210_2_alg».proof.Proof.Gen.KernelIdeal.Regions
import proofs.«404055_j420906795210_2_alg».proof.Proof.KI.Reg0
import proofs.«404055_j420906795210_2_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch, and after each of the eight host stretches before the regions (the generated
    valuations: each stretch applies its operations to the one before). -/
abbrev W0 : Dev nD → Valuation τ sig (Elt F) := fun c => Gen.V0 m c
abbrev W1 : Dev nD → Valuation τ sig (Elt F) := fun c => Gen.V1 m c
abbrev W2 : Dev nD → Valuation τ sig (Elt F) := fun c => Gen.V2 m c
abbrev W3 : Dev nD → Valuation τ sig (Elt F) := fun c => Gen.V3 m c
abbrev W4 : Dev nD → Valuation τ sig (Elt F) := fun c => Gen.V4 m c
abbrev W5 : Dev nD → Valuation τ sig (Elt F) := fun c => Gen.V5 m c
abbrev W6 : Dev nD → Valuation τ sig (Elt F) := fun c => Gen.V6 m c
abbrev W7 : Dev nD → Valuation τ sig (Elt F) := fun c => Gen.V7 m c
abbrev W8 : Dev nD → Valuation τ sig (Elt F) := fun c => Gen.V8 m c
/-- The same read at the TensorCore's references: what region 0's proof data take. -/
abbrev V8 : (c : Dev nD) → (b : Ref sig .tc) → Buf (Elt F) ((c : Thread nD τ).loc b) := fun c b => W8 m c b
/-- At region 0's exit: its arrays at what the pipeline leaves, every other buffer as entered. -/
def W9 (c : Dev nD) : Valuation τ sig (Elt F) :=
  Pipeline.withArrays spec0 c (W8 m c) fun w => (dat0 (V8 m) c).arrAt w cfg0.N
theorem W9_arr (c : Dev nD) (w : Fin cfg0.W) :
    W9 m c (Proc.devRef .tc (Pipeline.arrRef spec0 w)) = (dat0 (V8 m) c).arrAt w cfg0.N := by
  unfold W9; exact Pipeline.withArrays_arr spec0 launch0.win.arr_inj c _ _ w
theorem W9_of_ne (c : Dev nD) (b : Ref sig .tc) (hb : ∀ w, Pipeline.arrRef spec0 w ≠ b) :
    W9 m c (Proc.devRef .tc b) = W8 m c (Proc.devRef .tc b) := by
  unfold W9; exact Pipeline.withArrays_of_ne spec0 c _ _ b hb
abbrev V9 : (c : Dev nD) → (b : Ref sig .tc) → Buf (Elt F) ((c : Thread nD τ).loc b) := fun c b => W9 m c b
theorem hF0 (c : Dev nD) (w : Fin cfg0.W) : (dat0 (V8 m) c).arrAt w cfg0.N = V9 m c (Pipeline.arrRef spec0 w) :=
  (W9_arr m c w).symm
theorem hrest0 (c : Dev nD) : ∀ b, b ∉ Finset.univ.image (Pipeline.arrRef spec0) → V9 m c b = V8 m c b :=
  fun b hb => W9_of_ne m c b fun w e => hb (Finset.mem_image.mpr ⟨w, Finset.mem_univ _, e⟩)
/-- At region 1's exit: its arrays at what the pipeline leaves, every other buffer as entered. -/
def W10 (c : Dev nD) : Valuation τ sig (Elt F) :=
  Pipeline.withArrays spec1 c (W9 m c) fun w => (dat1 (V9 m) c).arrAt w cfg1.N
theorem W10_arr (c : Dev nD) (w : Fin cfg1.W) :
    W10 m c (Proc.devRef .tc (Pipeline.arrRef spec1 w)) = (dat1 (V9 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
abbrev V10 : (c : Dev nD) → (b : Ref sig .tc) → Buf (Elt F) ((c : Thread nD τ).loc b) := fun c b => W10 m c b
theorem hF1 (c : Dev nD) (w : Fin cfg1.W) : (dat1 (V9 m) c).arrAt w cfg1.N = V10 m c (Pipeline.arrRef spec1 w) :=
  (W10_arr m c w).symm
theorem hrest1 (c : Dev nD) : ∀ b, b ∉ Finset.univ.image (Pipeline.arrRef spec1) → V10 m c b = V9 m c b :=
  fun b hb => W10_of_ne m c b fun w e => hb (Finset.mem_image.mpr ⟨w, Finset.mem_univ _, e⟩)
/-- After the closing slice. -/
abbrev W11 : Dev nD → Valuation τ sig (Elt F) := fun c => StableHlo.after hostOps2 (W10 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V8 m) c
  | ⟨1, _⟩ => fun c => dat1 (V9 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered with every unscoped buffer at the boundary contents before it,
    left with them at the contents after it; its arrays are split out of the unscoped buffers and put back at
    what the write-backs leave; the scoped rest and the generator register go into the invariant and come back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V8 m) c).loose
  hwaits := Pipeline.hwaits_of_owed_zero _ _ _ _ L lv 0 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec0 c (V8 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V8 m) c).Φ 0 from rfl]
    iintro ⟨Hp, -, Hr⟩
    iapply (hin0 (V8 m) c)
    unfold Pipeline.ΦA
    isplitl [Hr]; · iexact Hr
    iexact Hp
  hout c := by
    rw [Pipeline.ownSems0_none, show (pdats m 0 c).Φ (Fin.last _) = (dat0 (V8 m) c).Φ (Fin.last cfg0.N) from rfl]
    iintro H
    ihave H' := (hout0 (V8 m) c) $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V8 m c) (V9 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary contents before it,
    left with them at the contents after it; its arrays are split out of the unscoped buffers and put back at
    what the write-backs leave; the scoped rest and the generator register go into the invariant and come back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V9 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec1 c (V9 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V9 m) c).Φ 0 from rfl]
    iintro ⟨Hp, -, Hr⟩
    iapply (hin1 (V9 m) c)
    unfold Pipeline.ΦA
    isplitl [Hr]; · iexact Hr
    iexact Hp
  hout c := by
    rw [Pipeline.ownSems0_none, show (pdats m 1 c).Φ (Fin.last _) = (dat1 (V9 m) c).Φ (Fin.last cfg1.N) from rfl]
    iintro H
    ihave H' := (hout1 (V9 m) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V9 m c) (V10 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .host (hseg hostOps0_7 hostOps0_7_sub hostOps0_7_fresh (W7 m)),
    .region (reg0 m),
    .region (reg1 m),
    .host (hseg hostOps2 hostOps2_sub hostOps2_fresh (W10 m)) ]

theorem main_run (c : Dev nD) : main (F := F) c = Pipeline.Seg.run (segs m) := (main_chain c).trans (by chain_rfl)

set_option backward.isDefEq.respectTransparency.types false in
/-- Every weakly fair execution of @main from memory m with zero counters terminates, nothing faulting, and
    every final state holds each unscoped buffer of core c at W11. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W11 m c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

end Cert.KernelIdeal.H

end
-- ==== Proof.KI.Args.lean ====
/-
  No item of @main writes an argument: the host stretches write only their own results, region 0 only its
  message array, region 1 only its result array (the weight matrices and biases it stages are inputs). So each
  argument's buffer holds its launch contents at the end.
-/
import proofs.«404055_j420906795210_2_alg».proof.Proof.KI.Run

set_option maxRecDepth 16384

noncomputable section

namespace Cert.KernelIdeal.H

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ)

/-! ## Through the eight host stretches -/
theorem W8_main_arg0 (c : Dev nD) : W8 m c (Proc.devRef .tc main_arg0) = m ((c : Thread nD τ).loc main_arg0) :=
  (Gen.V8_of m c main_arg0 (by decide)).trans <| (Gen.V7_of m c main_arg0 (by decide)).trans <| (Gen.V6_of m c main_arg0 (by decide)).trans <| (Gen.V5_of m c main_arg0 (by decide)).trans <| (Gen.V4_of m c main_arg0 (by decide)).trans <| (Gen.V3_of m c main_arg0 (by decide)).trans <| (Gen.V2_of m c main_arg0 (by decide)).trans <| (Gen.V1_of m c main_arg0 (by decide)).trans rfl
theorem W8_main_arg1 (c : Dev nD) : W8 m c (Proc.devRef .tc main_arg1) = m ((c : Thread nD τ).loc main_arg1) :=
  (Gen.V8_of m c main_arg1 (by decide)).trans <| (Gen.V7_of m c main_arg1 (by decide)).trans <| (Gen.V6_of m c main_arg1 (by decide)).trans <| (Gen.V5_of m c main_arg1 (by decide)).trans <| (Gen.V4_of m c main_arg1 (by decide)).trans <| (Gen.V3_of m c main_arg1 (by decide)).trans <| (Gen.V2_of m c main_arg1 (by decide)).trans <| (Gen.V1_of m c main_arg1 (by decide)).trans rfl
theorem W8_main_arg2 (c : Dev nD) : W8 m c (Proc.devRef .tc main_arg2) = m ((c : Thread nD τ).loc main_arg2) :=
  (Gen.V8_of m c main_arg2 (by decide)).trans <| (Gen.V7_of m c main_arg2 (by decide)).trans <| (Gen.V6_of m c main_arg2 (by decide)).trans <| (Gen.V5_of m c main_arg2 (by decide)).trans <| (Gen.V4_of m c main_arg2 (by decide)).trans <| (Gen.V3_of m c main_arg2 (by decide)).trans <| (Gen.V2_of m c main_arg2 (by decide)).trans <| (Gen.V1_of m c main_arg2 (by decide)).trans rfl
theorem W8_main_arg3 (c : Dev nD) : W8 m c (Proc.devRef .tc main_arg3) = m ((c : Thread nD τ).loc main_arg3) :=
  (Gen.V8_of m c main_arg3 (by decide)).trans <| (Gen.V7_of m c main_arg3 (by decide)).trans <| (Gen.V6_of m c main_arg3 (by decide)).trans <| (Gen.V5_of m c main_arg3 (by decide)).trans <| (Gen.V4_of m c main_arg3 (by decide)).trans <| (Gen.V3_of m c main_arg3 (by decide)).trans <| (Gen.V2_of m c main_arg3 (by decide)).trans <| (Gen.V1_of m c main_arg3 (by decide)).trans rfl
theorem W8_main_arg4 (c : Dev nD) : W8 m c (Proc.devRef .tc main_arg4) = m ((c : Thread nD τ).loc main_arg4) :=
  (Gen.V8_of m c main_arg4 (by decide)).trans <| (Gen.V7_of m c main_arg4 (by decide)).trans <| (Gen.V6_of m c main_arg4 (by decide)).trans <| (Gen.V5_of m c main_arg4 (by decide)).trans <| (Gen.V4_of m c main_arg4 (by decide)).trans <| (Gen.V3_of m c main_arg4 (by decide)).trans <| (Gen.V2_of m c main_arg4 (by decide)).trans <| (Gen.V1_of m c main_arg4 (by decide)).trans rfl
theorem W8_main_arg5 (c : Dev nD) : W8 m c (Proc.devRef .tc main_arg5) = m ((c : Thread nD τ).loc main_arg5) :=
  (Gen.V8_of m c main_arg5 (by decide)).trans <| (Gen.V7_of m c main_arg5 (by decide)).trans <| (Gen.V6_of m c main_arg5 (by decide)).trans <| (Gen.V5_of m c main_arg5 (by decide)).trans <| (Gen.V4_of m c main_arg5 (by decide)).trans <| (Gen.V3_of m c main_arg5 (by decide)).trans <| (Gen.V2_of m c main_arg5 (by decide)).trans <| (Gen.V1_of m c main_arg5 (by decide)).trans rfl
theorem W8_main_arg6 (c : Dev nD) : W8 m c (Proc.devRef .tc main_arg6) = m ((c : Thread nD τ).loc main_arg6) :=
  (Gen.V8_of m c main_arg6 (by decide)).trans <| (Gen.V7_of m c main_arg6 (by decide)).trans <| (Gen.V6_of m c main_arg6 (by decide)).trans <| (Gen.V5_of m c main_arg6 (by decide)).trans <| (Gen.V4_of m c main_arg6 (by decide)).trans <| (Gen.V3_of m c main_arg6 (by decide)).trans <| (Gen.V2_of m c main_arg6 (by decide)).trans <| (Gen.V1_of m c main_arg6 (by decide)).trans rfl
theorem W8_main_arg7 (c : Dev nD) : W8 m c (Proc.devRef .tc main_arg7) = m ((c : Thread nD τ).loc main_arg7) :=
  (Gen.V8_of m c main_arg7 (by decide)).trans <| (Gen.V7_of m c main_arg7 (by decide)).trans <| (Gen.V6_of m c main_arg7 (by decide)).trans <| (Gen.V5_of m c main_arg7 (by decide)).trans <| (Gen.V4_of m c main_arg7 (by decide)).trans <| (Gen.V3_of m c main_arg7 (by decide)).trans <| (Gen.V2_of m c main_arg7 (by decide)).trans <| (Gen.V1_of m c main_arg7 (by decide)).trans rfl

/-! ## Through the two regions and the closing slice -/

/-- A reference that is no array of either region and is not the slice's result keeps its contents from W8 on. -/
theorem W11_of_W8 (c : Dev nD) (r : Ref sig .tc) (h0 : ∀ w, Pipeline.arrRef spec0 w ≠ r) (h1 : ∀ w, Pipeline.arrRef spec1 w ≠ r)
    (h2 : r ∉ Gen.hostOps2_W) : W11 m c (Proc.devRef .tc r) = W8 m c (Proc.devRef .tc r) :=
  (StableHlo.after_of_writes_sub hostOps2 _ Gen.hostOps2_writes h2).trans ((W10_of_ne m c r h1).trans (W9_of_ne m c r h0))

/-- An input array of region 1 that is no array of region 0 keeps its contents too: an input window's array is
    never written. -/
theorem W11_of_W8_in1 (c : Dev nD) (w : Fin cfg1.W) (hin : (cfg1.win w).isOut = false) (h0 : ∀ w', Pipeline.arrRef spec0 w' ≠ Pipeline.arrRef spec1 w)
    (h2 : Pipeline.arrRef spec1 w ∉ Gen.hostOps2_W) :
    W11 m c (Proc.devRef .tc (Pipeline.arrRef spec1 w)) = W8 m c (Proc.devRef .tc (Pipeline.arrRef spec1 w)) :=
  (StableHlo.after_of_writes_sub hostOps2 _ Gen.hostOps2_writes h2).trans
    ((W10_arr m c w).trans (((dat1 (V9 m) c).arrAt_in w hin _).trans ((A_eq1 (V9 m) c w).trans (W9_of_ne m c _ h0))))

theorem W11_main_arg0 (c : Dev nD) : W11 m c (Proc.devRef .tc main_arg0) = m ((c : Thread nD τ).loc main_arg0) :=
  (W11_of_W8 m c main_arg0 (by decide) (by decide) (by decide)).trans (W8_main_arg0 m c)
theorem W11_main_arg1 (c : Dev nD) : W11 m c (Proc.devRef .tc main_arg1) = m ((c : Thread nD τ).loc main_arg1) :=
  (W11_of_W8 m c main_arg1 (by decide) (by decide) (by decide)).trans (W8_main_arg1 m c)
theorem W11_main_arg2 (c : Dev nD) : W11 m c (Proc.devRef .tc main_arg2) = m ((c : Thread nD τ).loc main_arg2) :=
  (W11_of_W8_in1 m c 3 rfl (by decide) (by decide)).trans (W8_main_arg2 m c)
theorem W11_main_arg3 (c : Dev nD) : W11 m c (Proc.devRef .tc main_arg3) = m ((c : Thread nD τ).loc main_arg3) :=
  (W11_of_W8_in1 m c 4 rfl (by decide) (by decide)).trans (W8_main_arg3 m c)
theorem W11_main_arg4 (c : Dev nD) : W11 m c (Proc.devRef .tc main_arg4) = m ((c : Thread nD τ).loc main_arg4) :=
  (W11_of_W8_in1 m c 5 rfl (by decide) (by decide)).trans (W8_main_arg4 m c)
theorem W11_main_arg5 (c : Dev nD) : W11 m c (Proc.devRef .tc main_arg5) = m ((c : Thread nD τ).loc main_arg5) :=
  (W11_of_W8_in1 m c 6 rfl (by decide) (by decide)).trans (W8_main_arg5 m c)
theorem W11_main_arg6 (c : Dev nD) : W11 m c (Proc.devRef .tc main_arg6) = m ((c : Thread nD τ).loc main_arg6) :=
  (W11_of_W8 m c main_arg6 (by decide) (by decide) (by decide)).trans (W8_main_arg6 m c)
theorem W11_main_arg7 (c : Dev nD) : W11 m c (Proc.devRef .tc main_arg7) = m ((c : Thread nD τ).loc main_arg7) :=
  (W11_of_W8 m c main_arg7 (by decide) (by decide) (by decide)).trans (W8_main_arg7 m c)

/-! ## The frame -/

/-- Every weakly fair execution of @main terminates, nothing faulting, and the arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W11_main_arg0 m c),
     (h c _ (mem_uc main_arg1 (by decide))).trans (W11_main_arg1 m c),
     (h c _ (mem_uc main_arg2 (by decide))).trans (W11_main_arg2 m c),
     (h c _ (mem_uc main_arg3 (by decide))).trans (W11_main_arg3 m c),
     (h c _ (mem_uc main_arg4 (by decide))).trans (W11_main_arg4 m c),
     (h c _ (mem_uc main_arg5 (by decide))).trans (W11_main_arg5 m c),
     (h c _ (mem_uc main_arg6 (by decide))).trans (W11_main_arg6 m c),
     (h c _ (mem_uc main_arg7 (by decide))).trans (W11_main_arg7 m c)⟩)
    (run_all m ρ)

end Cert.KernelIdeal.H

end
-- ==== Proof.Spec.lean ====
/-
  The mathematics of the certificate, over the extended reals, with no program in sight.

  The kernel gathers and scatters by one-hot contraction. Region 0 leaves, for edge e and column d,
      msgP e d = ∑ n < 50176, (if n = src e then w e else 0) · feat n d
  over the padded arrays (800768 edges, 50176 nodes); region 1 leaves, for node n and output column o,
      outP n o = (∑ k, feat n k · Wself o k + bself o) + (∑ k, (S n k / max (D n) 1) · Wneigh o k + bneigh o)
  with S n k = ∑ e < 800768, [n = dst e] · msg e k and D n = ∑ e < 800768, [n = dst e] · 1.
  The reference gathers row r e of the features, scales it by the edge's weight, sums the messages and the
  ones over the edges that land on each node, and applies the same two layers: G.
-/
import Idealize.ShloMosaic.PureOps.Ideal
import Idealize.ShloMosaic.Lib.ValueIdx

noncomputable section

open scoped BigOperators

namespace Cert.Spec

open Idealize.ShloMosaic Idealize.ShloMosaic.ValueIdx

/-! ## Shapes (the programs' own, by value) -/

abbrev SE : Shape := ⟨1, ![800000]⟩
abbrev SEp : Shape := ⟨1, ![800768]⟩
abbrev SND : Shape := ⟨2, ![50000, 64]⟩
abbrev SNpD : Shape := ⟨2, ![50176, 64]⟩
abbrev SEpD : Shape := ⟨2, ![800768, 64]⟩
abbrev SDD : Shape := ⟨2, ![64, 64]⟩
abbrev SD : Shape := ⟨1, ![64]⟩

/-! ## The kernel's two regions, over the padded arrays -/

/-- Region 0 at edge e, column d: the one-hot gather scaled by the edge weight, as a sum over all padded node ids. -/
def msgAt (srcp : SEp.Idx → BitVec 32) (wp : SEp.Idx → EReal) (featp : SNpD.Idx → EReal) (e : Fin 800768) (d : Fin 64) : EReal :=
  ∑ n : Fin 50176, (if BitVec.ofNat 32 n.val = srcp (ix1 e) then wp (ix1 e) else 0) * featp (ix2 n d)

/-- Region 0's result array. -/
def msgP (srcp : SEp.Idx → BitVec 32) (wp : SEp.Idx → EReal) (featp : SNpD.Idx → EReal) : SEpD.Idx → EReal :=
  fun j => msgAt srcp wp featp (j 0) (j 1)

/-- Region 1's message sums: the one-hot scatter, as a sum over all padded edges. -/
def sumP (dstp : SEp.Idx → BitVec 32) (msg : SEpD.Idx → EReal) (n : Fin 50176) (k : Fin 64) : EReal :=
  ∑ e : Fin 800768, (if BitVec.ofNat 32 n.val = dstp (ix1 e) then (1 : EReal) else 0) * msg (ix2 e k)

/-- Region 1's in-degrees. -/
def degP (dstp : SEp.Idx → BitVec 32) (n : Fin 50176) : EReal :=
  ∑ e : Fin 800768, (if BitVec.ofNat 32 n.val = dstp (ix1 e) then (1 : EReal) else 0) * 1

/-- Region 1 at node n, output column o: the mean of the incoming messages through the neighbour layer, beside
    the self layer. -/
def outAt (dstp : SEp.Idx → BitVec 32) (msg : SEpD.Idx → EReal) (featp : SNpD.Idx → EReal)
    (Ws : SDD.Idx → EReal) (bs : SD.Idx → EReal) (Wn : SDD.Idx → EReal) (bn : SD.Idx → EReal) (n : Fin 50176) (o : Fin 64) : EReal :=
  (∑ k : Fin 64, featp (ix2 n k) * Ws (ix2 o k) + bs (ix1 o))
    + (∑ k : Fin 64, Ideal.div (sumP dstp msg n k) (max (degP dstp n) 1) * Wn (ix2 o k) + bn (ix1 o))

/-- Region 1's result array. -/
def outP (dstp : SEp.Idx → BitVec 32) (msg : SEpD.Idx → EReal) (featp : SNpD.Idx → EReal)
    (Ws : SDD.Idx → EReal) (bs : SD.Idx → EReal) (Wn : SDD.Idx → EReal) (bn : SD.Idx → EReal) : SNpD.Idx → EReal :=
  fun j => outAt dstp msg featp Ws bs Wn bn (j 0) (j 1)

/-! ## The reference -/

/-- The reference's result at node n, output column o: r e is the feature row edge e reads, hit e n says edge e
    lands on node n. -/
def GAt (feat : SND.Idx → EReal) (w : SE.Idx → EReal) (Ws : SDD.Idx → EReal) (bs : SD.Idx → EReal)
    (Wn : SDD.Idx → EReal) (bn : SD.Idx → EReal) (r : Fin 800000 → Fin 50000) (hit : Fin 800000 → Fin 50000 → Prop)
    [∀ e n, Decidable (hit e n)] (n : Fin 50000) (o : Fin 64) : EReal :=
  (∑ k : Fin 64, feat (ix2 n k) * Ws (ix2 o k) + bs (ix1 o))
    + (∑ k : Fin 64,
        Ideal.div (∑ e ∈ Finset.univ.filter (fun e => hit e n), feat (ix2 (r e) k) * w (ix1 e))
          (max (∑ e ∈ Finset.univ.filter (fun e => hit e n), (1 : EReal)) 1) * Wn (ix2 o k) + bn (ix1 o))

/-- The reference's result array. -/
def G (feat : SND.Idx → EReal) (w : SE.Idx → EReal) (Ws : SDD.Idx → EReal) (bs : SD.Idx → EReal)
    (Wn : SDD.Idx → EReal) (bn : SD.Idx → EReal) (r : Fin 800000 → Fin 50000) (hit : Fin 800000 → Fin 50000 → Prop)
    [∀ e n, Decidable (hit e n)] : SND.Idx → EReal :=
  fun j => GAt feat w Ws bs Wn bn r hit (j 0) (j 1)

/-- The row an in-range source id names. -/
def rowOf (src : SE.Idx → BitVec 32) (e : Fin 800000) : Fin 50000 :=
  ⟨(src (ix1 e)).toNat % 50000, Nat.mod_lt _ (by norm_num)⟩

/-- Edge e lands on node n: its destination id, read signed, is n. -/
def hitOf (dst : SE.Idx → BitVec 32) (e : Fin 800000) (n : Fin 50000) : Prop := (dst (ix1 e)).toInt = (n.val : ℤ)

instance (dst : SE.Idx → BitVec 32) (e : Fin 800000) (n : Fin 50000) : Decidable (hitOf dst e n) := by
  unfold hitOf; infer_instance

end Cert.Spec

end
-- ==== Proof.KI.Val0.lean ====
/-
  Region 0 read as values, at the ideal instance: the accumulator after node block k of edge block eb is the sum
  over the node ids of blocks 0..k of (weight where the id is the edge's source, else zero) times the node's
  feature; so the block stored at k = 48 is the sum over all 50176 padded node ids, and the blocks tile the
  message array.
-/
import proofs.«404055_j420906795210_2_alg».proof.Proof.KI.Reg0
import proofs.«404055_j420906795210_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The contraction of the gather: over the node axis of both operands -/

/-- The body's one matrix product: left 1024 x 2048 (node, edge), right 1024 x 64 (node, column), contracted over
    the node axis of both, result 2048 x 64 (edge, column). -/
abbrev D0 := dot_S1024x2048_S1024x64_S2048x64_0_0_1_1_n_n

theorem lhsD0_0 (j : S2048x64.Idx) (k : D0.contr.Idx) : (D0.lhsIdx j k 0 : ℕ) = k ⟨0, by decide⟩ := by
  simp [DotDims.lhsIdx, D0, dot_S1024x2048_S1024x64_S2048x64_0_0_1_1_n_n]; rfl
theorem lhsD0_1 (j : S2048x64.Idx) (k : D0.contr.Idx) : (D0.lhsIdx j k 1 : ℕ) = j 0 := by
  simp [DotDims.lhsIdx, D0, dot_S1024x2048_S1024x64_S2048x64_0_0_1_1_n_n]; rfl
theorem rhsD0_0 (j : S2048x64.Idx) (k : D0.contr.Idx) : (D0.rhsIdx j k 0 : ℕ) = k ⟨0, by decide⟩ := by
  simp [DotDims.rhsIdx, D0, dot_S1024x2048_S1024x64_S2048x64_0_0_1_1_n_n]; rfl
theorem rhsD0_1 (j : S2048x64.Idx) (k : D0.contr.Idx) : (D0.rhsIdx j k 1 : ℕ) = j 1 := by
  simp [DotDims.rhsIdx, D0, dot_S1024x2048_S1024x64_S2048x64_0_0_1_1_n_n]; rfl

/-! ## The layout steps of the body, read at an index -/

/-- A column repeated along the second axis reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of 2048 entries laid as one row and repeated down 1024 rows reads, at (j, e), its entry e. -/
theorem row_apply {α : Type} (x : S2048.Idx → α) (h0 : S2048.ShapeCasts S2048) (h1 : S2048.ShapeCasts S1x2048)
    (h2 : S1x2048.Broadcasts S1024x2048) (j : Fin 1024) (e : Fin 2048) :
    broadcastTo S1024x2048 (shapeCast S1x2048 (shapeCast S2048 x h0) h1) h2 (ix2 j e) = x (ix1 e) := by
  rw [broadcastTo_1b_ab_apply, shapeCast_a_1a_apply, shapeCast_self]

/-- The id column at row j: the first id's word plus the word of j. -/
theorem idcol_apply (w : BitVec 32) (h : S1024x1.Iotas .tc 32 [0]) (j : Fin 1024) :
    addi (broadcast S1024x1 w) (iota .tc S1024x1 32 [0] h) (ix2 j (0 : Fin 1)) = w + BitVec.ofNat 32 j.val := by
  show IntOp.addi w (iota .tc S1024x1 32 [0] h (ix2 j (0 : Fin 1))) = _
  rw [iota_single_apply]
  rfl

/-- Node block k starts at id 1024 k: words multiply and add as the numbers do, modulo 2^32 on both sides. -/
theorem idword (k j : ℕ) : Scalar.muli (BitVec.ofNat 32 k) 1024#32 + BitVec.ofNat 32 j = BitVec.ofNat 32 (k * 1024 + j) := by
  rw [BitVec.ofNat_add, BitVec.ofNat_mul]
  rfl

/-- Selecting on the comparison of two words is the conditional on their equality. -/
theorem select_cmpi_eq {α : Type} (c1 c2 : BitVec 32) (A B : α) :
    Scalar.select (IntOp.cmpi .eq c1 c2) A B = if c1 = c2 then A else B := by
  show (if BitVec.ofBool (c1 == c2) = 1#1 then A else B) = _
  by_cases h : c1 = c2
  · subst h
    rw [beq_self_eq_true, if_pos rfl]
    exact if_pos rfl
  · rw [beq_eq_false_iff_ne.mpr h, if_neg h]
    exact if_neg (by decide)

/-- The weighted one-hot matrix at (node j, edge e): the edge's weight where node j's id is the edge's source,
    zero elsewhere. -/
theorem onehot_apply (k : ℕ) (x0 : IVec S2048 32) (x1 : FVec Ideal S2048 .f32) (hi : S1024x1.Iotas .tc 32 [0])
    (hb1 : S1024x1.Broadcasts S1024x2048) (h0 : S2048.ShapeCasts S2048) (h1 : S2048.ShapeCasts S1x2048)
    (hb2 : S1x2048.Broadcasts S1024x2048) (j : Fin 1024) (e : Fin 2048) :
    select (cmpi .eq (broadcastTo S1024x2048 (addi (broadcast S1024x1 (Scalar.muli (BitVec.ofNat 32 k) 1024#32)) (iota .tc S1024x1 32 [0] hi)) hb1)
        (broadcastTo S1024x2048 (shapeCast S1x2048 (shapeCast S2048 x0 h0) h1) hb2))
      (broadcastTo S1024x2048 (shapeCast S1x2048 (shapeCast S2048 x1 h0) h1) hb2)
      (broadcast S1024x2048 (FloatOps.ofBits (F := Ideal) .f32 0x00000000#32)) (ix2 j e)
      = if BitVec.ofNat 32 (k * 1024 + j.val) = x0 (ix1 e) then x1 (ix1 e) else 0 := by
  show Scalar.select (IntOp.cmpi .eq (broadcastTo S1024x2048 _ hb1 (ix2 j e)) (broadcastTo S1024x2048 _ hb2 (ix2 j e)))
    (broadcastTo S1024x2048 _ hb2 (ix2 j e)) (Ideal.ofBits .f32 0x00000000#32) = _
  rw [broadcastTo_a1_ab_apply, row_apply, row_apply, idcol_apply, idword, select_cmpi_eq, Ideal.ofBits_zero_f32]

/-! ## The body's three values at an index -/

/-- The body's update at edge e, column d: the accumulator plus, over the 1024 nodes of block k, the edge's weight
    where the node's id is the edge's source (zero elsewhere) times the node's feature. -/
theorem pay2_apply (i : grid0.Coords) (x0 : Vec Ideal S2048 .i32) (x1 : Vec Ideal S2048 .f32)
    (x2 : Vec Ideal S1024x64 .f32) (a : Vec Ideal S2048x64 .f32) (e : Fin 2048) (d : Fin 64) :
    k0_pay2 i x0 x1 x2 a (ix2 e d)
      = a (ix2 e d) + ∑ j : Fin 1024, (if BitVec.ofNat 32 ((i 1).val * 1024 + j.val) = x0 (ix1 e) then x1 (ix1 e) else 0) * x2 (ix2 j d) := by
  unfold k0_pay2
  dsimp only
  refine (congrFun (shapeCast_self _ _) (ix2 e d)).trans ?_
  show a (ix2 e d) + FloatOps.matmul (F := Ideal) D0 none _ _ (constant (F := Ideal) S2048x64 .f32 0x00000000#32) (ix2 e d) = _
  refine congrArg (a (ix2 e d) + ·) ?_
  refine (Ideal.matmul_constant_zero_apply D0 none _ _ (ix2 e d)).trans ?_
  rw [← Equiv.sum_comp (contrEquiv1 D0 1024 rfl rfl).symm]
  refine Finset.sum_congr rfl fun j _ => ?_
  have c := contrEquiv1_symm_val D0 1024 rfl rfl j
  have hl : D0.lhsIdx (ix2 e d) ((contrEquiv1 D0 1024 rfl rfl).symm j) = ix2 j e :=
    Shape.idx_ext₂ ((lhsD0_0 _ _).trans c) (lhsD0_1 _ _)
  have hr : D0.rhsIdx (ix2 e d) ((contrEquiv1 D0 1024 rfl rfl).symm j) = ix2 j d :=
    Shape.idx_ext₂ ((rhsD0_0 _ _).trans c) (rhsD0_1 _ _)
  rw [hl, hr]
  refine congrArg₂ (· * ·) ?_ ?_
  · exact onehot_apply (i 1).val x0 x1 _ _ _ _ _ j e
  · exact congrFun (shapeCast_self x2 _) (ix2 j d)

/-- The value the accumulator is reset to is zero everywhere. -/
theorem pay1_apply (j : S2048x64.Idx) : (k0_pay1 (F := Ideal)) j = 0 := by
  unfold k0_pay1
  refine (congrFun (shapeCast_self _ _) j).trans ?_
  exact Ideal.ofBits_zero_f32

/-- The stored block is the accumulator: narrowing the float format changes no value here. -/
theorem pay3_apply (v : Vec Ideal S2048x64 .f32) (j : S2048x64.Idx) : k0_pay3 v j = v j := rfl

variable (V : (c : Dev nD) → (b : Ref sig .tc) → Buf (Elt Ideal) ((c : Thread nD τ).loc b))

/-! ## The arrays and the blocks, by their shapes -/

/-- The padded source ids, edge weights and node features as the region finds them. -/
abbrev srcA (c : Dev nD) : Cert.Spec.SEp.Idx → BitVec 32 := V c main_v0
abbrev wA (c : Dev nD) : Cert.Spec.SEp.Idx → EReal := V c main_v1
abbrev featA (c : Dev nD) : Cert.Spec.SNpD.Idx → EReal := V c main_v3

/-- The three input blocks at point t: 2048 source ids, 2048 weights, 1024 feature rows. -/
abbrev srcB (c : Dev nD) (t : Fin cfg0.N) : Vec Ideal S2048 .i32 := iblk0 V c 0 t
abbrev wB (c : Dev nD) (t : Fin cfg0.N) : Vec Ideal S2048 .f32 := iblk0 V c 1 t
abbrev featB (c : Dev nD) (t : Fin cfg0.N) : Vec Ideal S1024x64 .f32 := iblk0 V c 2 t

/-- Point t is (edge block t / 49, node block t % 49): the edge windows and the result window sit at block t / 49,
    the feature window at block t % 49 of the rows and block 0 of the columns, and the body's second grid
    coordinate is t % 49. -/
theorem idx_facts0 : ∀ t : Fin cfg0.N,
    win0_0.index t (0 : Fin 1) = t.val / 49 ∧ win0_1.index t (0 : Fin 1) = t.val / 49
    ∧ win0_2.index t (0 : Fin 2) = t.val % 49 ∧ win0_2.index t (1 : Fin 2) = 0
    ∧ win0_3.index t (0 : Fin 2) = t.val / 49 ∧ win0_3.index t (1 : Fin 2) = 0
    ∧ (grid0.coords t 1).val = t.val % 49 :=
  (by decide +kernel : ∀ t : Fin grid0.N, _)

theorem t_lt (t : Fin cfg0.N) : t.val < 19159 := by
  have hN : cfg0.N = 19159 := N_0
  have := t.isLt
  omega

/-- The edge that row e of point t's edge block is. -/
def edgeOf (t : Fin cfg0.N) (e : Fin 2048) : Fin 800768 :=
  ⟨t.val / 49 * 2048 + e.val, by have := t_lt t; have := e.isLt; omega⟩

/-- Node n's share of edge g's message in column d: g's weight if n is g's source, else zero, times n's feature. -/
def share (c : Dev nD) (g : Fin 800768) (d : Fin 64) (n : Fin 50176) : EReal :=
  (if BitVec.ofNat 32 n.val = srcA V c (ix1 g) then wA V c (ix1 g) else 0) * featA V c (ix2 n d)

/-- The message is the sum of all 50176 shares. -/
theorem msgAt_eq (c : Dev nD) (g : Fin 800768) (d : Fin 64) :
    Cert.Spec.msgAt (srcA V c) (wA V c) (featA V c) g d = ∑ n : Fin 50176, share V c g d n := rfl

/-- The shares of the 1024 nodes of block k, summed (zero past the 49 blocks). -/
def blockShare (c : Dev nD) (g : Fin 800768) (d : Fin 64) (k : ℕ) : EReal :=
  if h : k < 49 then ∑ j : Fin 1024, share V c g d ⟨k * 1024 + j.val, by have := j.isLt; omega⟩ else 0

/-! ## The blocks read off the arrays: a block's coordinate is its index times its size plus the coordinate inside -/

theorem srcB_apply (c : Dev nD) (t : Fin cfg0.N) (e : Fin 2048) : srcB V c t (ix1 e) = srcA V c (ix1 (edgeOf t e)) := by
  obtain ⟨h0, -⟩ := idx_facts0 t
  show V c main_v0 (((cfg0.win 0).blk t).view.emb (ix1 e)) = V c main_v0 (ix1 (edgeOf t e))
  refine congrArg _ (funext fun a => Fin.ext ?_)
  match a with
  | ⟨0, _⟩ =>
    show win0_0.index t (0 : Fin 1) * 2048 + 1 * e.val = t.val / 49 * 2048 + e.val
    rw [h0]; omega

theorem wB_apply (c : Dev nD) (t : Fin cfg0.N) (e : Fin 2048) : wB V c t (ix1 e) = wA V c (ix1 (edgeOf t e)) := by
  obtain ⟨-, h1, -⟩ := idx_facts0 t
  show V c main_v1 (((cfg0.win 1).blk t).view.emb (ix1 e)) = V c main_v1 (ix1 (edgeOf t e))
  refine congrArg _ (funext fun a => Fin.ext ?_)
  match a with
  | ⟨0, _⟩ =>
    show win0_1.index t (0 : Fin 1) * 2048 + 1 * e.val = t.val / 49 * 2048 + e.val
    rw [h1]; omega

theorem featB_apply (c : Dev nD) (t : Fin cfg0.N) (j : Fin 1024) (d : Fin 64) :
    featB V c t (ix2 j d) = featA V c (ix2 ⟨t.val % 49 * 1024 + j.val, by have := j.isLt; omega⟩ d) := by
  obtain ⟨-, -, h20, h21, -⟩ := idx_facts0 t
  show V c main_v3 (((cfg0.win 2).blk t).view.emb (ix2 j d)) = V c main_v3 (ix2 ⟨t.val % 49 * 1024 + j.val, _⟩ d)
  refine congrArg _ (funext fun a => Fin.ext ?_)
  match a with
  | ⟨0, _⟩ =>
    show win0_2.index t (0 : Fin 2) * 1024 + 1 * j.val = t.val % 49 * 1024 + j.val
    rw [h20]; omega
  | ⟨1, _⟩ =>
    show win0_2.index t (1 : Fin 2) * 64 + 1 * d.val = d.val
    rw [h21]; omega

/-! ## One point adds one node block's shares; the accumulator after node block k holds blocks 0..k -/

/-- The body at point t, over any accumulator: it adds the shares of node block t % 49 for the edges of block t / 49. -/
theorem point_step (c : Dev nD) (t : Fin cfg0.N) (a : Vec Ideal S2048x64 .f32) (e : Fin 2048) (d : Fin 64) :
    k0_pay2 (grid0.coords t) (srcB V c t) (wB V c t) (featB V c t) a (ix2 e d)
      = a (ix2 e d) + blockShare V c (edgeOf t e) d (t.val % 49) := by
  obtain ⟨-, -, -, -, -, -, hk⟩ := idx_facts0 t
  refine (pay2_apply (grid0.coords t) (srcB V c t) (wB V c t) (featB V c t) a e d).trans ?_
  refine congrArg (a (ix2 e d) + ·) ?_
  unfold blockShare
  rw [dif_pos (Nat.mod_lt _ (by decide))]
  refine Finset.sum_congr rfl fun j _ => ?_
  unfold share
  rw [srcB_apply, wB_apply, featB_apply V c t j d, hk]

/-- After the point with node block k the accumulator holds, at edge e of its edge block and column d, the shares
    of node blocks 0..k: by induction on k, the reset at k = 0 starting from zero. -/
theorem acc0_val (c : Dev nD) : ∀ (k : ℕ) (t : Fin cfg0.N), t.val % 49 = k → ∀ (e : Fin 2048) (d : Fin 64),
    acc0 V c t.val t.isLt (ix2 e d) = ∑ k' ∈ Finset.range (k + 1), blockShare V c (edgeOf t e) d k'
  | 0, t, ht, e, d => by
    rw [acc0_first V c t ht]
    refine (point_step V c t (k0_pay1 (F := Ideal)) e d).trans ?_
    rw [pay1_apply, zero_add, ht, Finset.sum_range_one]
  | k + 1, t, ht, e, d => by
    have hne : t.val % 49 ≠ 0 := by omega
    have hlt := t_lt t
    rw [acc0_next V c t hne]
    refine (point_step V c t _ e d).trans ?_
    have hb : t.val - 1 < cfg0.N := Nat.lt_of_le_of_lt (Nat.sub_le _ _) t.isLt
    have ih : acc0 V c (t.val - 1) hb (ix2 e d) = ∑ k' ∈ Finset.range (k + 1), blockShare V c (edgeOf ⟨t.val - 1, hb⟩ e) d k' :=
      acc0_val c k ⟨t.val - 1, hb⟩ (by show (t.val - 1) % 49 = k; omega) e d
    have he : edgeOf ⟨t.val - 1, hb⟩ e = edgeOf t e :=
      Fin.ext (by
        show (t.val - 1) / 49 * 2048 + e.val = t.val / 49 * 2048 + e.val
        have : (t.val - 1) / 49 = t.val / 49 := by omega
        rw [this])
    rw [he] at ih
    rw [ih, ht, Finset.sum_range_succ _ (k + 1)]

/-- The 49 node blocks of 1024 are the 50176 padded nodes: node block k's j-th node is node 1024 k + j. -/
def nodeEquiv : Fin 49 × Fin 1024 ≃ Fin 50176 := finProdFinEquiv.trans (finCongr (by norm_num))

theorem nodeEquiv_val (k : Fin 49) (j : Fin 1024) : (nodeEquiv (k, j)).val = j.val + 1024 * k.val := rfl

/-- So all 49 blocks' shares sum to the message. -/
theorem sum_blocks (c : Dev nD) (g : Fin 800768) (d : Fin 64) :
    ∑ k' ∈ Finset.range 49, blockShare V c g d k' = Cert.Spec.msgAt (srcA V c) (wA V c) (featA V c) g d := by
  rw [msgAt_eq, Finset.sum_range, ← Equiv.sum_comp nodeEquiv (share V c g d), Fintype.sum_prod_type]
  refine Finset.sum_congr rfl fun k _ => ?_
  unfold blockShare
  rw [dif_pos k.isLt]
  refine Finset.sum_congr rfl fun j _ => ?_
  refine congrArg (share V c g d) (Fin.ext ?_)
  rw [nodeEquiv_val]
  show k.val * 1024 + j.val = j.val + 1024 * k.val
  omega

/-! ## From the stored blocks to the array -/

/-- The message window's block at point t, read off any contents G of the message array: its entry (e, d) is
    G at edge (t / 49) * 2048 + e, column d. -/
theorem read_blk3 (t : Fin cfg0.N) (G : S800768x64.Idx → EReal) (y : ((cfg0.win 3).xblock (grid0.coords t)).Idx)
    (e : Fin 2048) (d : Fin 64) (he : e.val = (y 0).val) (hd : d.val = (y 1).val) :
    ((cfg0.win 3).blk t).view.read (Elt Ideal) G y = G (ix2 (edgeOf t e) d) := by
  obtain ⟨-, -, -, -, h30, h31, -⟩ := idx_facts0 t
  show G (((cfg0.win 3).blk t).view.emb y) = G (ix2 (edgeOf t e) d)
  refine congrArg G (funext fun a => Fin.ext ?_)
  match a with
  | ⟨0, _⟩ =>
    show win0_3.index t (0 : Fin 2) * 2048 + 1 * (y 0).val = t.val / 49 * 2048 + e.val
    rw [h30]; omega
  | ⟨1, _⟩ =>
    show win0_3.index t (1 : Fin 2) * 64 + 1 * (y 1).val = d.val
    rw [h31]; omega

/-- What a storing point (node block 48) writes back is its block of the messages. -/
theorem flushed_eq0 (c : Dev nD) (t : Fin cfg0.N) (hf : (cfg0.win 3).flush t = true) :
    (dat0 V c).flushed 3 t
      = ((cfg0.win 3).blk t).view.read (Elt Ideal) (Cert.Spec.msgP (srcA V c) (wA V c) (featA V c)) := by
  have h48 : t.val % 49 = 48 := (flush0_3 t).mp hf
  show (cfg0.win 3).cut (grid0.coords t) ((dat0 V c).after 3 t) = _
  rw [after0_3]
  funext y
  obtain ⟨e, he⟩ : ∃ e : Fin 2048, e = y 0 := ⟨y 0, rfl⟩
  obtain ⟨d, hd⟩ : ∃ d : Fin 64, d = y 1 := ⟨y 1, rfl⟩
  have hev : e.val = (y 0).val := congrArg Fin.val he
  have hdv : d.val = (y 1).val := congrArg Fin.val hd
  have hy : (cfg0.win 3).xinj (grid0.coords t) y = ix2 e d :=
    funext fun a => match a with
      | ⟨0, _⟩ => Fin.ext hev.symm
      | ⟨1, _⟩ => Fin.ext hdv.symm
  refine Eq.trans (b := acc0 V c t.val t.isLt (ix2 e d)) ?_ ?_
  · show k0_pay3 (acc0 V c t.val t.isLt) ((cfg0.win 3).xinj (grid0.coords t) y) = _
    rw [hy]
    exact pay3_apply _ _
  · refine (acc0_val V c 48 t h48 e d).trans ?_
    refine (sum_blocks V c (edgeOf t e) d).trans ?_
    exact (read_blk3 t (Cert.Spec.msgP (srcA V c) (wA V c) (featA V c)) y e d hev hdv).symm

/-- An entry of the message array is in point t's block iff each coordinate is in the block's range on its axis. -/
theorem mem_blk3 (t : Fin cfg0.N) (i : S800768x64.Idx) :
    i ∈ ((cfg0.win 3).blk t).view.set ↔ ∀ a : Fin 2, win0_3.index t a * S2048x64.size a ≤ (i a).val ∧ (i a).val < win0_3.index t a * S2048x64.size a + S2048x64.size a := by
  show i ∈ ((View.whole main_v4).slice (win0_3.rect t)).set ↔ _
  rw [View.set_slice_whole, Rect.mem_set_unit]
  exact Iff.rfl

/-- Every entry (r, d) of the message array lies in the block stored at the last node block of edge block r / 2048. -/
theorem cover3 (i : S800768x64.Idx) :
    ∃ t : Fin cfg0.N, (cfg0.win 3).flush t = true ∧ i ∈ ((cfg0.win 3).blk t).view.set := by
  have hi0 : (i 0).val < 800768 := (i 0).isLt
  have hi1 : (i 1).val < 64 := (i 1).isLt
  have hN : cfg0.N = 19159 := N_0
  have hb : (i 0).val / 2048 * 49 + 48 < cfg0.N := by omega
  obtain ⟨-, -, -, -, h30, h31, -⟩ := idx_facts0 ⟨(i 0).val / 2048 * 49 + 48, hb⟩
  refine ⟨⟨(i 0).val / 2048 * 49 + 48, hb⟩, (flush0_3 _).mpr (by show ((i 0).val / 2048 * 49 + 48) % 49 = 48; omega), ?_⟩
  rw [mem_blk3]
  intro a
  match a with
  | ⟨0, _⟩ =>
    show win0_3.index ⟨(i 0).val / 2048 * 49 + 48, hb⟩ (0 : Fin 2) * 2048 ≤ (i 0).val ∧ (i 0).val < win0_3.index ⟨(i 0).val / 2048 * 49 + 48, hb⟩ (0 : Fin 2) * 2048 + 2048
    rw [h30]
    show ((i 0).val / 2048 * 49 + 48) / 49 * 2048 ≤ (i 0).val ∧ (i 0).val < ((i 0).val / 2048 * 49 + 48) / 49 * 2048 + 2048
    omega
  | ⟨1, _⟩ =>
    show win0_3.index ⟨(i 0).val / 2048 * 49 + 48, hb⟩ (1 : Fin 2) * 64 ≤ (i 1).val ∧ (i 1).val < win0_3.index ⟨(i 0).val / 2048 * 49 + 48, hb⟩ (1 : Fin 2) * 64 + 64
    rw [h31]; omega

/-- The message array after region 0: at edge e, column d, the one-hot gather over all padded node ids. -/
theorem final0 (c : Dev nD) :
    (dat0 (F := Ideal) V c).arrAt 3 cfg0.N
      = Cert.Spec.msgP (V c main_v0 : Cert.Spec.SEp.Idx → BitVec 32) (V c main_v1 : Cert.Spec.SEp.Idx → EReal) (V c main_v3 : Cert.Spec.SNpD.Idx → EReal) :=
  (dat0 V c).arrAt_eq_of_cover 3 (Cert.Spec.msgP (srcA V c) (wA V c) (featA V c)) (fun t hf => flushed_eq0 V c t hf) cover3

end Cert.KernelIdeal.H

end
-- ==== Proof.KI.Val1.lean ====
/-
  Region 1 read as values, at the ideal instance: the two accumulators after edge block eb of node block nb are
  the sums over the edges of blocks 0..eb of (one where the edge's destination is the node, else zero) times the
  edge's message, and times one; so the block stored at eb = 390 applies the two linear layers to the sums over
  all 800768 padded edges, and the blocks tile the result array.
-/
import proofs.«404055_j420906795210_2_alg».proof.Proof.KI.Reg1
import proofs.«404055_j420906795210_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open scoped BigOperators

variable (V : (c : Dev nD) → (b : Ref sig .tc) → Buf (Elt Ideal) ((c : Thread nD τ).loc b))

namespace V1

/-! ## The body's values at an index, over the blocks as variables -/

/-- The id word of node nb * 1024 + r, as the kernel forms it. -/
theorem nodeword (nb r : Nat) : BitVec.ofNat 32 nb * 1024#32 + BitVec.ofNat 32 r = BitVec.ofNat 32 (nb * 1024 + r) := by
  rw [BitVec.ofNat_add, BitVec.ofNat_mul]

/-- A one-bit word widened and read as a number is one or zero. -/
theorem onehot_word (b : Bool) : ((((BitVec.ofBool b).setWidth 32).toInt : ℝ) : EReal) = if b = true then (1 : EReal) else 0 := by
  cases b <;> simp

/-- An [a, 1] column broadcast to [a, b] reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-hot matrix at (r, e): one where node nb * 1024 + r is edge e's destination, else zero. -/
theorem pay3_apply (i : grid1.Coords) (x1 : Vec Ideal S2048 .i32) (r : Fin 1024) (e : Fin 2048) :
    k1_pay3 (F := Ideal) i x1 (ix2 r e) = if BitVec.ofNat 32 ((i 0).val * 1024 + r.val) = x1 (ix1 e) then (1 : EReal) else 0 := by
  unfold k1_pay3
  dsimp only
  have hL : broadcastTo S1024x2048 (addi (broadcast S1024x1 (Scalar.muli (BitVec.ofNat 32 (i 0).val) 1024#32))
      (iota Kind.tc S1024x1 32 [0] iota_S1024x1_d0_w32)) broadcasts_S1024x1_S1024x2048 (ix2 r e)
      = BitVec.ofNat 32 ((i 0).val * 1024 + r.val) := by
    refine (broadcastTo_a1_ab_apply _ _ r e).trans ?_
    show Scalar.muli (BitVec.ofNat 32 (i 0).val) 1024#32 + iota Kind.tc S1024x1 32 [0] iota_S1024x1_d0_w32 (ix2 r (0 : Fin 1)) = _
    rw [iota_single_apply]
    exact nodeword _ _
  have hR : broadcastTo S1024x2048 (shapeCast S1x2048 (shapeCast S2048 x1 shapeCasts_S2048_S2048) shapeCasts_S2048_S1x2048)
      broadcasts_S1x2048_S1024x2048 (ix2 r e) = x1 (ix1 e) := by
    refine (broadcastTo_1b_ab_apply _ _ r e).trans ?_
    refine (shapeCast_a_1a_apply _ _ (0 : Fin 1) e).trans ?_
    rw [shapeCast_self]
  show ((((BitVec.ofBool (_ == _)).setWidth 32).toInt : ℝ) : EReal) = _
  rw [onehot_word, hL, hR]
  simp only [beq_iff_eq]

/-! ## The one-hot product with the message block: operand indices -/

theorem lhsA_0 (j : S1024x64.Idx) (k : dot_S1024x2048_S2048x64_S1024x64_1_0_0_1_n_n.contr.Idx) :
    ((dot_S1024x2048_S2048x64_S1024x64_1_0_0_1_n_n.lhsIdx j k) 0).val = (j 0).val := by
  simp [DotDims.lhsIdx, dot_S1024x2048_S2048x64_S1024x64_1_0_0_1_n_n]; rfl

theorem lhsA_1 (j : S1024x64.Idx) (k : dot_S1024x2048_S2048x64_S1024x64_1_0_0_1_n_n.contr.Idx) :
    ((dot_S1024x2048_S2048x64_S1024x64_1_0_0_1_n_n.lhsIdx j k) 1).val = (k ⟨0, by decide⟩).val :=
  DotDims.lhsIdx_val_of_single dot_S1024x2048_S2048x64_S1024x64_1_0_0_1_n_n (cl := 1) rfl j k

theorem rhsA_0 (j : S1024x64.Idx) (k : dot_S1024x2048_S2048x64_S1024x64_1_0_0_1_n_n.contr.Idx) :
    ((dot_S1024x2048_S2048x64_S1024x64_1_0_0_1_n_n.rhsIdx j k) 0).val = (k ⟨0, by decide⟩).val :=
  DotDims.rhsIdx_val_of_single dot_S1024x2048_S2048x64_S1024x64_1_0_0_1_n_n (cr := 0) rfl j k

theorem rhsA_1 (j : S1024x64.Idx) (k : dot_S1024x2048_S2048x64_S1024x64_1_0_0_1_n_n.contr.Idx) :
    ((dot_S1024x2048_S2048x64_S1024x64_1_0_0_1_n_n.rhsIdx j k) 1).val = (j 1).val := by
  simp [DotDims.rhsIdx, dot_S1024x2048_S2048x64_S1024x64_1_0_0_1_n_n]; rfl

/-- The product of a 1024 x 2048 matrix with a 2048 x 64 one into zero, at (r, d): the sum over the 2048 of the entries' products. -/
theorem matmulA_apply (L : FVec Ideal S1024x2048 .bf16) (R : FVec Ideal S2048x64 .bf16) (r : Fin 1024) (d : Fin 64) :
    FloatOps.matmul dot_S1024x2048_S2048x64_S1024x64_1_0_0_1_n_n none L R (constant (F := Ideal) S1024x64 .f32 0x00000000#32) (ix2 r d)
      = ∑ e : Fin 2048, L (ix2 r e) * R (ix2 e d) := by
  refine (Ideal.matmul_constant_zero_apply _ none L R (ix2 r d)).trans ?_
  rw [← Equiv.sum_comp (contrEquiv1 dot_S1024x2048_S2048x64_S1024x64_1_0_0_1_n_n 2048 rfl rfl).symm]
  refine Finset.sum_congr rfl fun e _ => ?_
  have hk := contrEquiv1_symm_val dot_S1024x2048_S2048x64_S1024x64_1_0_0_1_n_n 2048 rfl rfl e
  have l2 : dot_S1024x2048_S2048x64_S1024x64_1_0_0_1_n_n.lhsIdx (ix2 r d)
      ((contrEquiv1 dot_S1024x2048_S2048x64_S1024x64_1_0_0_1_n_n 2048 rfl rfl).symm e) = ix2 r e := by
    funext ax; apply Fin.ext
    match ax with
    | ⟨0, _⟩ => exact lhsA_0 _ _
    | ⟨1, _⟩ => exact (lhsA_1 _ _).trans hk
  have r2 : dot_S1024x2048_S2048x64_S1024x64_1_0_0_1_n_n.rhsIdx (ix2 r d)
      ((contrEquiv1 dot_S1024x2048_S2048x64_S1024x64_1_0_0_1_n_n 2048 rfl rfl).symm e) = ix2 e d := by
    funext ax; apply Fin.ext
    match ax with
    | ⟨0, _⟩ => exact (rhsA_0 _ _).trans hk
    | ⟨1, _⟩ => exact rhsA_1 _ _
  rw [l2, r2]

/-- The message accumulator after one more edge block, at (r, d): what it held plus, over the block's 2048 edges,
    one where node nb * 1024 + r is the edge's destination, times the edge's message at column d. -/
theorem pay4_apply (i : grid1.Coords) (x1 : Vec Ideal S2048 .i32) (x0 : Vec Ideal S2048x64 .bf16) (a : Vec Ideal S1024x64 .f32)
    (r : Fin 1024) (d : Fin 64) :
    k1_pay4 (F := Ideal) i x1 x0 a (ix2 r d)
      = a (ix2 r d) + ∑ e : Fin 2048, (if BitVec.ofNat 32 ((i 0).val * 1024 + r.val) = x1 (ix1 e) then (1 : EReal) else 0) * x0 (ix2 e d) := by
  unfold k1_pay4
  dsimp only
  rw [shapeCast_self, shapeCast_self]
  show a (ix2 r d) + FloatOps.matmul dot_S1024x2048_S2048x64_S1024x64_1_0_0_1_n_n none (k1_pay3 (F := Ideal) i x1) x0
    (constant (F := Ideal) S1024x64 .f32 0x00000000#32) (ix2 r d) = _
  refine congrArg (a (ix2 r d) + ·) ?_
  refine (matmulA_apply _ _ r d).trans ?_
  exact Finset.sum_congr rfl fun e _ => by rw [pay3_apply]

/-! ## The one-hot product with the column of ones: operand indices -/

theorem lhsB_0 (j : S1024x1.Idx) (k : dot_S1024x2048_S2048x1_S1024x1_1_0_0_1_n_n.contr.Idx) :
    ((dot_S1024x2048_S2048x1_S1024x1_1_0_0_1_n_n.lhsIdx j k) 0).val = (j 0).val := by
  simp [DotDims.lhsIdx, dot_S1024x2048_S2048x1_S1024x1_1_0_0_1_n_n]; rfl

theorem lhsB_1 (j : S1024x1.Idx) (k : dot_S1024x2048_S2048x1_S1024x1_1_0_0_1_n_n.contr.Idx) :
    ((dot_S1024x2048_S2048x1_S1024x1_1_0_0_1_n_n.lhsIdx j k) 1).val = (k ⟨0, by decide⟩).val :=
  DotDims.lhsIdx_val_of_single dot_S1024x2048_S2048x1_S1024x1_1_0_0_1_n_n (cl := 1) rfl j k

theorem rhsB_0 (j : S1024x1.Idx) (k : dot_S1024x2048_S2048x1_S1024x1_1_0_0_1_n_n.contr.Idx) :
    ((dot_S1024x2048_S2048x1_S1024x1_1_0_0_1_n_n.rhsIdx j k) 0).val = (k ⟨0, by decide⟩).val :=
  DotDims.rhsIdx_val_of_single dot_S1024x2048_S2048x1_S1024x1_1_0_0_1_n_n (cr := 0) rfl j k

theorem rhsB_1 (j : S1024x1.Idx) (k : dot_S1024x2048_S2048x1_S1024x1_1_0_0_1_n_n.contr.Idx) :
    ((dot_S1024x2048_S2048x1_S1024x1_1_0_0_1_n_n.rhsIdx j k) 1).val = (j 1).val := by
  have h1 : (j 1).val < 1 := (j 1).isLt
  have h2 : ((dot_S1024x2048_S2048x1_S1024x1_1_0_0_1_n_n.rhsIdx j k) 1).val < 1 := (dot_S1024x2048_S2048x1_S1024x1_1_0_0_1_n_n.rhsIdx j k 1).isLt
  omega

/-- The product of a 1024 x 2048 matrix with a 2048 x 1 column into zero, at (r, u). -/
theorem matmulB_apply (L : FVec Ideal S1024x2048 .bf16) (R : FVec Ideal S2048x1 .bf16) (r : Fin 1024) (u : Fin 1) :
    FloatOps.matmul dot_S1024x2048_S2048x1_S1024x1_1_0_0_1_n_n none L R (constant (F := Ideal) S1024x1 .f32 0x00000000#32) (ix2 r u)
      = ∑ e : Fin 2048, L (ix2 r e) * R (ix2 e u) := by
  refine (Ideal.matmul_constant_zero_apply _ none L R (ix2 r u)).trans ?_
  rw [← Equiv.sum_comp (contrEquiv1 dot_S1024x2048_S2048x1_S1024x1_1_0_0_1_n_n 2048 rfl rfl).symm]
  refine Finset.sum_congr rfl fun e _ => ?_
  have hk := contrEquiv1_symm_val dot_S1024x2048_S2048x1_S1024x1_1_0_0_1_n_n 2048 rfl rfl e
  have l2 : dot_S1024x2048_S2048x1_S1024x1_1_0_0_1_n_n.lhsIdx (ix2 r u)
      ((contrEquiv1 dot_S1024x2048_S2048x1_S1024x1_1_0_0_1_n_n 2048 rfl rfl).symm e) = ix2 r e := by
    funext ax; apply Fin.ext
    match ax with
    | ⟨0, _⟩ => exact lhsB_0 _ _
    | ⟨1, _⟩ => exact (lhsB_1 _ _).trans hk
  have r2 : dot_S1024x2048_S2048x1_S1024x1_1_0_0_1_n_n.rhsIdx (ix2 r u)
      ((contrEquiv1 dot_S1024x2048_S2048x1_S1024x1_1_0_0_1_n_n 2048 rfl rfl).symm e) = ix2 e u := by
    funext ax; apply Fin.ext
    match ax with
    | ⟨0, _⟩ => exact (rhsB_0 _ _).trans hk
    | ⟨1, _⟩ => exact rhsB_1 _ _
  rw [l2, r2]

/-- The bf16 word 0x3F80 is the number one, -/
theorem one_bf16 : Ideal.ofBits .bf16 0x3F80#16 = (1 : EReal) := by
  simp [Ideal.ofBits, Ideal.ieee]
  exact_mod_cast (by norm_num : (128 : ℝ) * (2 ^ 7)⁻¹ = 1)

/-- and so is the f32 word 0x3F800000. -/
theorem one_f32 : Ideal.ofBits .f32 0x3F800000#32 = (1 : EReal) := by
  simp [Ideal.ofBits, Ideal.ieee]
  exact_mod_cast (by norm_num : (8388608 : ℝ) * (2 ^ 23)⁻¹ = 1)

/-- The degree accumulator after one more edge block, at row r: what it held plus, over the block's 2048 edges, one
    where node nb * 1024 + r is the edge's destination, times one. -/
theorem pay5_apply (i : grid1.Coords) (x1 : Vec Ideal S2048 .i32) (b : Vec Ideal S1024x1 .f32) (r : Fin 1024) :
    k1_pay5 (F := Ideal) i x1 b (ix2 r (0 : Fin 1))
      = b (ix2 r (0 : Fin 1)) + ∑ e : Fin 2048, (if BitVec.ofNat 32 ((i 0).val * 1024 + r.val) = x1 (ix1 e) then (1 : EReal) else 0) * 1 := by
  unfold k1_pay5
  dsimp only
  rw [shapeCast_self]
  show b (ix2 r (0 : Fin 1)) + FloatOps.matmul dot_S1024x2048_S2048x1_S1024x1_1_0_0_1_n_n none (k1_pay3 (F := Ideal) i x1)
    (broadcast S2048x1 (Scalar.ofBits (F := Ideal) .bf16 0x3F80#16)) (constant (F := Ideal) S1024x1 .f32 0x00000000#32) (ix2 r (0 : Fin 1)) = _
  refine congrArg (b (ix2 r (0 : Fin 1)) + ·) ?_
  refine (matmulB_apply _ _ r 0).trans ?_
  refine Finset.sum_congr rfl fun e _ => ?_
  rw [pay3_apply]
  exact congrArg (_ * ·) one_bf16

/-! ## The linear layers: operand indices -/

theorem lhsC_0 (j : S1024x64.Idx) (k : dot_S1024x64_S64x64_S1024x64_1_1_0_0_n_n.contr.Idx) :
    ((dot_S1024x64_S64x64_S1024x64_1_1_0_0_n_n.lhsIdx j k) 0).val = (j 0).val := by
  simp [DotDims.lhsIdx, dot_S1024x64_S64x64_S1024x64_1_1_0_0_n_n]; rfl

theorem lhsC_1 (j : S1024x64.Idx) (k : dot_S1024x64_S64x64_S1024x64_1_1_0_0_n_n.contr.Idx) :
    ((dot_S1024x64_S64x64_S1024x64_1_1_0_0_n_n.lhsIdx j k) 1).val = (k ⟨0, by decide⟩).val :=
  DotDims.lhsIdx_val_of_single dot_S1024x64_S64x64_S1024x64_1_1_0_0_n_n (cl := 1) rfl j k

theorem rhsC_0 (j : S1024x64.Idx) (k : dot_S1024x64_S64x64_S1024x64_1_1_0_0_n_n.contr.Idx) :
    ((dot_S1024x64_S64x64_S1024x64_1_1_0_0_n_n.rhsIdx j k) 0).val = (j 1).val := by
  simp [DotDims.rhsIdx, dot_S1024x64_S64x64_S1024x64_1_1_0_0_n_n]; rfl

theorem rhsC_1 (j : S1024x64.Idx) (k : dot_S1024x64_S64x64_S1024x64_1_1_0_0_n_n.contr.Idx) :
    ((dot_S1024x64_S64x64_S1024x64_1_1_0_0_n_n.rhsIdx j k) 1).val = (k ⟨0, by decide⟩).val :=
  DotDims.rhsIdx_val_of_single dot_S1024x64_S64x64_S1024x64_1_1_0_0_n_n (cr := 1) rfl j k

/-- A 1024 x 64 block against the transpose of a 64 x 64 matrix, into zero, at (r, o): the sum over k of
    the block at (r, k) times the matrix at (o, k). -/
theorem matmulC_apply (L : FVec Ideal S1024x64 .bf16) (R : FVec Ideal S64x64 .bf16) (r : Fin 1024) (o : Fin 64) :
    FloatOps.matmul dot_S1024x64_S64x64_S1024x64_1_1_0_0_n_n none L R (constant (F := Ideal) S1024x64 .f32 0x00000000#32) (ix2 r o)
      = ∑ k : Fin 64, L (ix2 r k) * R (ix2 o k) := by
  refine (Ideal.matmul_constant_zero_apply _ none L R (ix2 r o)).trans ?_
  rw [← Equiv.sum_comp (contrEquiv1 dot_S1024x64_S64x64_S1024x64_1_1_0_0_n_n 64 rfl rfl).symm]
  refine Finset.sum_congr rfl fun e _ => ?_
  have hk := contrEquiv1_symm_val dot_S1024x64_S64x64_S1024x64_1_1_0_0_n_n 64 rfl rfl e
  have l2 : dot_S1024x64_S64x64_S1024x64_1_1_0_0_n_n.lhsIdx (ix2 r o)
      ((contrEquiv1 dot_S1024x64_S64x64_S1024x64_1_1_0_0_n_n 64 rfl rfl).symm e) = ix2 r e := by
    funext ax; apply Fin.ext
    match ax with
    | ⟨0, _⟩ => exact lhsC_0 _ _
    | ⟨1, _⟩ => exact (lhsC_1 _ _).trans hk
  have r2 : dot_S1024x64_S64x64_S1024x64_1_1_0_0_n_n.rhsIdx (ix2 r o)
      ((contrEquiv1 dot_S1024x64_S64x64_S1024x64_1_1_0_0_n_n 64 rfl rfl).symm e) = ix2 o e := by
    funext ax; apply Fin.ext
    match ax with
    | ⟨0, _⟩ => exact rhsC_0 _ _
    | ⟨1, _⟩ => exact (rhsC_1 _ _).trans hk
  rw [l2, r2]

/-- A bias row [64] laid over the 1024 rows reads, at (r, o), the bias at o. -/
theorem bias_apply (v : Vec Ideal S64 .f32) (r : Fin 1024) (o : Fin 64) :
    broadcastTo S1024x64 (shapeCast S1x64 v shapeCasts_S64_S1x64) broadcasts_S1x64_S1024x64 (ix2 r o) = v (ix1 o) :=
  (broadcastTo_1b_ab_apply _ _ r o).trans (shapeCast_a_1a_apply _ _ (0 : Fin 1) o)

/-- The stored result block at (r, o): the self layer over the node block's features beside the neighbour layer over
    the message sums divided by the larger of the degree and one. -/
theorem pay6_apply (a : Vec Ideal S1024x64 .f32) (b : Vec Ideal S1024x1 .f32) (x2 : Vec Ideal S1024x64 .f32)
    (x3 : Vec Ideal S64x64 .f32) (x4 : Vec Ideal S64 .f32) (x5 : Vec Ideal S64x64 .f32) (x6 : Vec Ideal S64 .f32)
    (r : Fin 1024) (o : Fin 64) :
    k1_pay6 (F := Ideal) a b x2 x3 x4 x5 x6 (ix2 r o)
      = (∑ k : Fin 64, x2 (ix2 r k) * x3 (ix2 o k) + x4 (ix1 o))
        + (∑ k : Fin 64, Ideal.div (a (ix2 r k)) (max (b (ix2 r (0 : Fin 1))) 1) * x5 (ix2 o k) + x6 (ix1 o)) := by
  unfold k1_pay6
  rw [shapeCast_self, addf_apply, addf_apply, addf_apply]
  refine congrArg₂ (· + ·) (congrArg₂ (· + ·) ?_ (bias_apply x4 r o)) (congrArg₂ (· + ·) ?_ (bias_apply x6 r o))
  · exact matmulC_apply _ _ r o
  · refine (matmulC_apply _ _ r o).trans ?_
    refine Finset.sum_congr rfl fun k _ => ?_
    refine congrArg (· * x5 (ix2 o k)) ?_
    show Ideal.div (a (ix2 r k)) (broadcastTo S1024x64 (maximumf b (broadcast S1024x1 (FloatOps.ofBits (F := Ideal) .f32 0x3F800000#32)))
      broadcasts_S1024x1_S1024x64 (ix2 r k)) = _
    rw [broadcastTo_a1_ab_apply]
    show Ideal.div _ (max (b (ix2 r (0 : Fin 1))) (Ideal.ofBits .f32 0x3F800000#32)) = _
    rw [one_f32]

/-- The block the accumulators are reset to is zero everywhere. -/
theorem pay1_apply (j : S1024x64.Idx) : k1_pay1 (F := Ideal) j = 0 := by
  unfold k1_pay1
  show shapeCast S1024x64 (broadcast S1024x64 (Ideal.ofBits .f32 0x00000000#32)) shapeCasts_S1024x64_S1024x64 j = 0
  rw [shapeCast_self]
  exact Ideal.ofBits_zero_f32

theorem pay2_apply (j : S1024x1.Idx) : k1_pay2 (F := Ideal) j = 0 := by
  unfold k1_pay2
  show shapeCast S1024x1 (broadcast S1024x1 (Ideal.ofBits .f32 0x00000000#32)) shapeCasts_S1024x1_S1024x1 j = 0
  rw [shapeCast_self]
  exact Ideal.ofBits_zero_f32

/-! ## Where the blocks sit -/

theorem hN1 : cfg1.N = 19159 := N_1

/-- Point t of the 49 x 391 grid has node block t / 391 -/
theorem coord0 (t : Fin cfg1.N) : ((grid1.coords t) 0).val = t.val / 391 := by
  have ht : t.val < 19159 := lt_of_lt_of_eq t.isLt hN1
  show t.val / grid1.stride 0 % 49 = t.val / 391
  rw [show grid1.stride 0 = 391 from by decide]
  omega

/-- and edge block t % 391. -/
theorem coord1 (t : Fin cfg1.N) : ((grid1.coords t) 1).val = t.val % 391 := by
  show t.val / grid1.stride 1 % 391 = t.val % 391
  rw [show grid1.stride 1 = 1 from by decide, Nat.div_one]

/-- A small number's 32-bit word reads back as the number. -/
theorem toNat_small (x : ℕ) (h : x < 4294967296) : (BitVec.ofNat 32 x).toNat = x := by
  rw [BitVec.toNat_ofNat]; exact Nat.mod_eq_of_lt h

/-- Where each window's block sits at point t: edge blocks by t % 391, node blocks by t / 391, the weights whole. -/
theorem idx1 (t : Fin cfg1.N) :
    win1_0.index t (0 : Fin 2) = t.val % 391 ∧ win1_0.index t (1 : Fin 2) = 0
    ∧ win1_1.index t (0 : Fin 1) = t.val % 391
    ∧ win1_2.index t (0 : Fin 2) = t.val / 391 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val / 391 ∧ win1_7.index t (1 : Fin 2) = 0
    ∧ ((grid1.coords t) 0).val = t.val / 391 := by
  have ht : t.val < 19159 := lt_of_lt_of_eq t.isLt hN1
  have hm : t.val % 391 < 391 := Nat.mod_lt _ (by norm_num)
  have c0 := coord0 t
  have c1 := coord1 t
  have a0 : (BitVec.ofNat 32 ((grid1.coords t) 0).val).toNat = t.val / 391 := by
    rw [c0]; exact toNat_small _ (by omega)
  have a1 : (BitVec.ofNat 32 ((grid1.coords t) 1).val).toNat = t.val % 391 := by
    rw [c1]; exact toNat_small _ (by omega)
  exact ⟨a1, rfl, a1, a0, rfl, rfl, rfl, rfl, rfl, rfl, rfl, a0, rfl, c0⟩

/-! ## The arrays region 1 reads, and its blocks, by their literal types -/

abbrev dstA (c : Dev nD) : Vec Ideal S800768 .i32 := V c main_v2
abbrev msgA (c : Dev nD) : Vec Ideal S800768x64 .bf16 := V c main_v4
abbrev featA (c : Dev nD) : Vec Ideal S50176x64 .f32 := V c main_v3
abbrev wsA (c : Dev nD) : Vec Ideal S64x64 .f32 := V c main_arg2
abbrev bsA (c : Dev nD) : Vec Ideal S64 .f32 := V c main_arg3
abbrev wnA (c : Dev nD) : Vec Ideal S64x64 .f32 := V c main_arg4
abbrev bnA (c : Dev nD) : Vec Ideal S64 .f32 := V c main_arg5

abbrev mblk (c : Dev nD) (t : Fin cfg1.N) : Vec Ideal S2048x64 .bf16 := iblk1 V c 0 t
abbrev dblk (c : Dev nD) (t : Fin cfg1.N) : Vec Ideal S2048 .i32 := iblk1 V c 1 t
abbrev fblk (c : Dev nD) (t : Fin cfg1.N) : Vec Ideal S1024x64 .f32 := iblk1 V c 2 t
abbrev wsblk (c : Dev nD) (t : Fin cfg1.N) : Vec Ideal S64x64 .f32 := iblk1 V c 3 t
abbrev bsblk (c : Dev nD) (t : Fin cfg1.N) : Vec Ideal S64 .f32 := iblk1 V c 4 t
abbrev wnblk (c : Dev nD) (t : Fin cfg1.N) : Vec Ideal S64x64 .f32 := iblk1 V c 5 t
abbrev bnblk (c : Dev nD) (t : Fin cfg1.N) : Vec Ideal S64 .f32 := iblk1 V c 6 t

/-- Edge e of the edge block at point t is edge (t % 391) * 2048 + e of the padded edges. -/
theorem edge_lt (t : Fin cfg1.N) (e : Fin 2048) : t.val % 391 * 2048 + e.val < 800768 := by
  have := e.isLt; have := Nat.mod_lt t.val (show 0 < 391 by norm_num); omega

/-- Row r of the node block at point t is node (t / 391) * 1024 + r of the padded nodes. -/
theorem node_lt (t : Fin cfg1.N) (r : Fin 1024) : t.val / 391 * 1024 + r.val < 50176 := by
  have := r.isLt; have ht : t.val < 19159 := lt_of_lt_of_eq t.isLt hN1; omega

theorem mblk_apply (c : Dev nD) (t : Fin cfg1.N) (e : Fin 2048) (d : Fin 64) :
    mblk V c t (ix2 e d) = msgA V c (ix2 ⟨t.val % 391 * 2048 + e.val, edge_lt t e⟩ d) := by
  unfold mblk iblk1
  rw [View.read_apply]
  show V c main_v4 _ = V c main_v4 _
  refine congrArg (V c main_v4) (funext fun a => Fin.ext ?_)
  match a with
  | ⟨0, _⟩ => show win1_0.index t (0 : Fin 2) * 2048 + 1 * e.val = t.val % 391 * 2048 + e.val; rw [(idx1 t).1]; omega
  | ⟨1, _⟩ => show win1_0.index t (1 : Fin 2) * 64 + 1 * d.val = d.val; rw [(idx1 t).2.1]; omega

theorem dblk_apply (c : Dev nD) (t : Fin cfg1.N) (e : Fin 2048) :
    dblk V c t (ix1 e) = dstA V c (ix1 ⟨t.val % 391 * 2048 + e.val, edge_lt t e⟩) := by
  unfold dblk iblk1
  rw [View.read_apply]
  show V c main_v2 _ = V c main_v2 _
  refine congrArg (V c main_v2) (funext fun a => Fin.ext ?_)
  match a with
  | ⟨0, _⟩ => show win1_1.index t (0 : Fin 1) * 2048 + 1 * e.val = t.val % 391 * 2048 + e.val; rw [(idx1 t).2.2.1]; omega

theorem fblk_apply (c : Dev nD) (t : Fin cfg1.N) (r : Fin 1024) (k : Fin 64) :
    fblk V c t (ix2 r k) = featA V c (ix2 ⟨t.val / 391 * 1024 + r.val, node_lt t r⟩ k) := by
  unfold fblk iblk1
  rw [View.read_apply]
  show V c main_v3 _ = V c main_v3 _
  refine congrArg (V c main_v3) (funext fun a => Fin.ext ?_)
  match a with
  | ⟨0, _⟩ => show win1_2.index t (0 : Fin 2) * 1024 + 1 * r.val = t.val / 391 * 1024 + r.val; rw [(idx1 t).2.2.2.1]; omega
  | ⟨1, _⟩ => show win1_2.index t (1 : Fin 2) * 64 + 1 * k.val = k.val; rw [(idx1 t).2.2.2.2.1]; omega

theorem wsblk_apply (c : Dev nD) (t : Fin cfg1.N) (o k : Fin 64) : wsblk V c t (ix2 o k) = wsA V c (ix2 o k) := by
  unfold wsblk iblk1
  rw [View.read_apply]
  show V c main_arg2 _ = V c main_arg2 _
  refine congrArg (V c main_arg2) (funext fun a => Fin.ext ?_)
  match a with
  | ⟨0, _⟩ => show win1_3.index t (0 : Fin 2) * 64 + 1 * o.val = o.val; rw [(idx1 t).2.2.2.2.2.1]; omega
  | ⟨1, _⟩ => show win1_3.index t (1 : Fin 2) * 64 + 1 * k.val = k.val; rw [(idx1 t).2.2.2.2.2.2.1]; omega

theorem bsblk_apply (c : Dev nD) (t : Fin cfg1.N) (o : Fin 64) : bsblk V c t (ix1 o) = bsA V c (ix1 o) := by
  unfold bsblk iblk1
  rw [View.read_apply]
  show V c main_arg3 _ = V c main_arg3 _
  refine congrArg (V c main_arg3) (funext fun a => Fin.ext ?_)
  match a with
  | ⟨0, _⟩ => show win1_4.index t (0 : Fin 1) * 64 + 1 * o.val = o.val; rw [(idx1 t).2.2.2.2.2.2.2.1]; omega

theorem wnblk_apply (c : Dev nD) (t : Fin cfg1.N) (o k : Fin 64) : wnblk V c t (ix2 o k) = wnA V c (ix2 o k) := by
  unfold wnblk iblk1
  rw [View.read_apply]
  show V c main_arg4 _ = V c main_arg4 _
  refine congrArg (V c main_arg4) (funext fun a => Fin.ext ?_)
  match a with
  | ⟨0, _⟩ => show win1_5.index t (0 : Fin 2) * 64 + 1 * o.val = o.val; rw [(idx1 t).2.2.2.2.2.2.2.2.1]; omega
  | ⟨1, _⟩ => show win1_5.index t (1 : Fin 2) * 64 + 1 * k.val = k.val; rw [(idx1 t).2.2.2.2.2.2.2.2.2.1]; omega

theorem bnblk_apply (c : Dev nD) (t : Fin cfg1.N) (o : Fin 64) : bnblk V c t (ix1 o) = bnA V c (ix1 o) := by
  unfold bnblk iblk1
  rw [View.read_apply]
  show V c main_arg5 _ = V c main_arg5 _
  refine congrArg (V c main_arg5) (funext fun a => Fin.ext ?_)
  match a with
  | ⟨0, _⟩ => show win1_6.index t (0 : Fin 1) * 64 + 1 * o.val = o.val; rw [(idx1 t).2.2.2.2.2.2.2.2.2.2.1]; omega

/-! ## Sums over the first edges -/

/-- One where the node with id m is edge e's destination, else zero. -/
def hot (dst : Cert.Spec.SEp.Idx → BitVec 32) (m : ℕ) (e : Fin 800768) : EReal :=
  if BitVec.ofNat 32 m = dst (ix1 e) then 1 else 0

/-- A function of the padded edges, continued by zero past them. -/
def extN (f : Fin 800768 → EReal) (x : ℕ) : EReal := if h : x < 800768 then f ⟨x, h⟩ else 0

/-- The sum over the edges of blocks 0..eb is the sum over those of blocks 0..eb-1 plus block eb's 2048 terms. -/
theorem sum_block (f : Fin 800768 → EReal) (eb : ℕ) (heb : eb < 391) :
    ∑ x ∈ Finset.range ((eb + 1) * 2048), extN f x
      = ∑ x ∈ Finset.range (eb * 2048), extN f x
        + ∑ e : Fin 2048, f ⟨eb * 2048 + e.val, by have := e.isLt; omega⟩ := by
  rw [show (eb + 1) * 2048 = eb * 2048 + 2048 by ring, Finset.sum_range_add]
  refine congrArg (_ + ·) ?_
  rw [Finset.sum_range]
  refine Finset.sum_congr rfl fun e _ => ?_
  unfold extN
  rw [dif_pos]

/-- All 391 blocks are all 800768 edges. -/
theorem sum_all (f : Fin 800768 → EReal) : ∑ x ∈ Finset.range ((390 + 1) * 2048), extN f x = ∑ e : Fin 800768, f e := by
  rw [show (390 + 1) * 2048 = 800768 by norm_num, Finset.sum_range]
  exact Finset.sum_congr rfl fun e _ => by unfold extN; rw [dif_pos e.isLt]

/-! ## One point's step, over the block's contents as variables -/

/-- If the message accumulator holds node block nb's sums over edge blocks 0..eb-1 and the point's blocks are edge block eb's,
    the body leaves the sums over edge blocks 0..eb. -/
theorem step_msg (dst : Cert.Spec.SEp.Idx → BitVec 32) (msg : Cert.Spec.SEpD.Idx → EReal) (i : grid1.Coords)
    (x1 : Vec Ideal S2048 .i32) (x0 : Vec Ideal S2048x64 .bf16) (a : Vec Ideal S1024x64 .f32) (nb eb : ℕ) (heb : eb < 391)
    (hi : (i 0).val = nb)
    (h1 : ∀ e : Fin 2048, x1 (ix1 e) = dst (ix1 ⟨eb * 2048 + e.val, by have := e.isLt; omega⟩))
    (h0 : ∀ (e : Fin 2048) (d : Fin 64), x0 (ix2 e d) = msg (ix2 ⟨eb * 2048 + e.val, by have := e.isLt; omega⟩ d))
    (r : Fin 1024) (d : Fin 64)
    (ha : a (ix2 r d) = ∑ x ∈ Finset.range (eb * 2048), extN (fun e => hot dst (nb * 1024 + r.val) e * msg (ix2 e d)) x) :
    k1_pay4 (F := Ideal) i x1 x0 a (ix2 r d)
      = ∑ x ∈ Finset.range ((eb + 1) * 2048), extN (fun e => hot dst (nb * 1024 + r.val) e * msg (ix2 e d)) x := by
  rw [sum_block _ eb heb, pay4_apply, ha, hi]
  refine congrArg (_ + ·) (Finset.sum_congr rfl fun e _ => ?_)
  rw [h1 e, h0 e d]
  rfl

/-- The same for the degree accumulator. -/
theorem step_deg (dst : Cert.Spec.SEp.Idx → BitVec 32) (i : grid1.Coords)
    (x1 : Vec Ideal S2048 .i32) (b : Vec Ideal S1024x1 .f32) (nb eb : ℕ) (heb : eb < 391)
    (hi : (i 0).val = nb)
    (h1 : ∀ e : Fin 2048, x1 (ix1 e) = dst (ix1 ⟨eb * 2048 + e.val, by have := e.isLt; omega⟩))
    (r : Fin 1024)
    (hb : b (ix2 r (0 : Fin 1)) = ∑ x ∈ Finset.range (eb * 2048), extN (fun e => hot dst (nb * 1024 + r.val) e * 1) x) :
    k1_pay5 (F := Ideal) i x1 b (ix2 r (0 : Fin 1))
      = ∑ x ∈ Finset.range ((eb + 1) * 2048), extN (fun e => hot dst (nb * 1024 + r.val) e * 1) x := by
  rw [sum_block _ eb heb, pay5_apply, hb, hi]
  refine congrArg (_ + ·) (Finset.sum_congr rfl fun e _ => ?_)
  rw [h1 e]
  rfl

/-! ## The accumulators after each point -/

/-- After the point with node block nb = n / 391 and edge block eb = n % 391, row r of the message accumulator holds node
    nb * 1024 + r's sums over the edges of blocks 0..eb, and the degree accumulator the count of those edges that land on it. -/
theorem acc_inv (c : Dev nD) : ∀ (n : ℕ) (hn : n < cfg1.N),
    (∀ (r : Fin 1024) (d : Fin 64), (acc1 V c n hn).1 (ix2 r d)
        = ∑ x ∈ Finset.range ((n % 391 + 1) * 2048),
            extN (fun e => hot (dstA V c) (n / 391 * 1024 + r.val) e * msgA V c (ix2 e d)) x)
    ∧ (∀ r : Fin 1024, (acc1 V c n hn).2 (ix2 r (0 : Fin 1))
        = ∑ x ∈ Finset.range ((n % 391 + 1) * 2048), extN (fun e => hot (dstA V c) (n / 391 * 1024 + r.val) e * 1) x) := by
  intro n
  induction n using Nat.strong_induction_on with
  | _ n ih =>
    intro hn
    have hmod : n % 391 < 391 := Nat.mod_lt n (by norm_num)
    by_cases h : n % 391 = 0
    · rw [acc1_first V c ⟨n, hn⟩ h]
      dsimp only
      refine ⟨fun r d => ?_, fun r => ?_⟩
      · refine step_msg (dstA V c) (msgA V c) (grid1.coords ⟨n, hn⟩) (dblk V c ⟨n, hn⟩) (mblk V c ⟨n, hn⟩)
          (k1_pay1 (F := Ideal)) (n / 391) (n % 391) hmod (idx1 ⟨n, hn⟩).2.2.2.2.2.2.2.2.2.2.2.2.2
          (fun e => dblk_apply V c ⟨n, hn⟩ e) (fun e d => mblk_apply V c ⟨n, hn⟩ e d) r d ?_
        rw [h, Nat.zero_mul, Finset.range_zero, Finset.sum_empty]
        exact pay1_apply _
      · refine step_deg (dstA V c) (grid1.coords ⟨n, hn⟩) (dblk V c ⟨n, hn⟩)
          (k1_pay2 (F := Ideal)) (n / 391) (n % 391) hmod (idx1 ⟨n, hn⟩).2.2.2.2.2.2.2.2.2.2.2.2.2
          (fun e => dblk_apply V c ⟨n, hn⟩ e) r ?_
        rw [h, Nat.zero_mul, Finset.range_zero, Finset.sum_empty]
        exact pay2_apply _
    · have hlt : n - 1 < cfg1.N := Nat.lt_of_le_of_lt (Nat.sub_le _ _) hn
      obtain ⟨ih1, ih2⟩ := ih (n - 1) (by omega) hlt
      have e1 : (n - 1) % 391 + 1 = n % 391 := by omega
      have e2 : (n - 1) / 391 = n / 391 := by omega
      rw [e1, e2] at ih1 ih2
      rw [acc1_next V c ⟨n, hn⟩ h]
      dsimp only
      refine ⟨fun r d => ?_, fun r => ?_⟩
      · exact step_msg (dstA V c) (msgA V c) (grid1.coords ⟨n, hn⟩) (dblk V c ⟨n, hn⟩) (mblk V c ⟨n, hn⟩)
          (acc1 V c (n - 1) hlt).1 (n / 391) (n % 391) hmod (idx1 ⟨n, hn⟩).2.2.2.2.2.2.2.2.2.2.2.2.2
          (fun e => dblk_apply V c ⟨n, hn⟩ e) (fun e d => mblk_apply V c ⟨n, hn⟩ e d) r d (ih1 r d)
      · exact step_deg (dstA V c) (grid1.coords ⟨n, hn⟩) (dblk V c ⟨n, hn⟩)
          (acc1 V c (n - 1) hlt).2 (n / 391) (n % 391) hmod (idx1 ⟨n, hn⟩).2.2.2.2.2.2.2.2.2.2.2.2.2
          (fun e => dblk_apply V c ⟨n, hn⟩ e) r (ih2 r)

/-! ## The stored block, and the array -/

/-- Region 1's result array as the specification gives it from the arrays the region finds. -/
abbrev outA (c : Dev nD) : Vec Ideal S50176x64 .f32 :=
  Cert.Spec.outP (dstA V c) (msgA V c) (featA V c) (wsA V c) (bsA V c) (wnA V c) (bnA V c)

/-- Over the contents as variables: if the accumulators hold node n's sums over all edges and the other blocks are node
    n's features and the weights, the stored entry is the specification's. -/
theorem out_point (dst : Cert.Spec.SEp.Idx → BitVec 32) (msg : Cert.Spec.SEpD.Idx → EReal) (feat : Cert.Spec.SNpD.Idx → EReal)
    (ws : Cert.Spec.SDD.Idx → EReal) (bs : Cert.Spec.SD.Idx → EReal) (wn : Cert.Spec.SDD.Idx → EReal) (bn : Cert.Spec.SD.Idx → EReal)
    (a : Vec Ideal S1024x64 .f32) (b : Vec Ideal S1024x1 .f32) (x2 : Vec Ideal S1024x64 .f32)
    (x3 : Vec Ideal S64x64 .f32) (x4 : Vec Ideal S64 .f32) (x5 : Vec Ideal S64x64 .f32) (x6 : Vec Ideal S64 .f32)
    (n : Fin 50176) (r : Fin 1024) (o : Fin 64)
    (ha : ∀ k : Fin 64, a (ix2 r k) = Cert.Spec.sumP dst msg n k) (hb : b (ix2 r (0 : Fin 1)) = Cert.Spec.degP dst n)
    (h2 : ∀ k : Fin 64, x2 (ix2 r k) = feat (ix2 n k)) (h3 : ∀ k : Fin 64, x3 (ix2 o k) = ws (ix2 o k))
    (h4 : x4 (ix1 o) = bs (ix1 o)) (h5 : ∀ k : Fin 64, x5 (ix2 o k) = wn (ix2 o k)) (h6 : x6 (ix1 o) = bn (ix1 o)) :
    k1_pay6 (F := Ideal) a b x2 x3 x4 x5 x6 (ix2 r o) = Cert.Spec.outAt dst msg feat ws bs wn bn n o := by
  rw [pay6_apply, hb, h4, h6]
  unfold Cert.Spec.outAt
  refine congrArg₂ (· + ·) (congrArg (· + bs (ix1 o)) (Finset.sum_congr rfl fun k _ => ?_))
    (congrArg (· + bn (ix1 o)) (Finset.sum_congr rfl fun k _ => ?_))
  · rw [h2 k, h3 k]
  · rw [ha k, h5 k]

/-- At the last edge block the accumulators hold the sums over all padded edges. -/
theorem acc_last (c : Dev nD) (t : Fin cfg1.N) (h : t.val % 391 = 390) (r : Fin 1024) :
    (∀ k : Fin 64, (acc1 V c t.val t.isLt).1 (ix2 r k)
        = Cert.Spec.sumP (dstA V c) (msgA V c) ⟨t.val / 391 * 1024 + r.val, node_lt t r⟩ k)
    ∧ (acc1 V c t.val t.isLt).2 (ix2 r (0 : Fin 1)) = Cert.Spec.degP (dstA V c) ⟨t.val / 391 * 1024 + r.val, node_lt t r⟩ := by
  obtain ⟨i1, i2⟩ := acc_inv V c t.val t.isLt
  refine ⟨fun k => ?_, ?_⟩
  · rw [i1 r k, h, sum_all]; rfl
  · rw [i2 r, h, sum_all]; rfl

/-- Row r, column o of the result block at point t is row (t / 391) * 1024 + r, column o of the result array. -/
theorem emb7 (t : Fin cfg1.N) (r : Fin 1024) (o : Fin 64) :
    (((cfg1.win 7).blk t).view.emb (ix2 r o) : S50176x64.Idx) = ix2 ⟨t.val / 391 * 1024 + r.val, node_lt t r⟩ o := by
  funext a; apply Fin.ext
  match a with
  | ⟨0, _⟩ => show win1_7.index t (0 : Fin 2) * 1024 + 1 * r.val = t.val / 391 * 1024 + r.val; rw [(idx1 t).2.2.2.2.2.2.2.2.2.2.2.1]; omega
  | ⟨1, _⟩ => show win1_7.index t (1 : Fin 2) * 64 + 1 * o.val = o.val; rw [(idx1 t).2.2.2.2.2.2.2.2.2.2.2.2.1]; omega

/-- What the last edge block's point writes back is its block of the specification's array. -/
theorem flushed_eq (c : Dev nD) (t : Fin cfg1.N) (hf : (cfg1.win 7).flush t = true) :
    (dat1 (F := Ideal) V c).flushed 7 t = ((cfg1.win 7).blk t).view.read (Elt Ideal) (outA V c) := by
  have h390 : t.val % 391 = 390 := (flush1_7 t).mp hf
  show (cfg1.win 7).cut (grid1.coords t) ((dat1 (F := Ideal) V c).after 7 t) = _
  rw [after1_7]
  funext j
  obtain ⟨r, o, rfl⟩ : ∃ (r : Fin 1024) (o : Fin 64), j = ix2 r o := ⟨j 0, j 1, eq_ix2 j⟩
  show out1 V c t (ix2 r o) = outA V c (((cfg1.win 7).blk t).view.emb (ix2 r o))
  rw [emb7 t r o]
  unfold out1
  obtain ⟨l1, l2⟩ := acc_last V c t h390 r
  exact out_point (dstA V c) (msgA V c) (featA V c) (wsA V c) (bsA V c) (wnA V c) (bnA V c)
    (acc1 V c t.val t.isLt).1 (acc1 V c t.val t.isLt).2 (fblk V c t) (wsblk V c t) (bsblk V c t) (wnblk V c t) (bnblk V c t)
    ⟨t.val / 391 * 1024 + r.val, node_lt t r⟩ r o l1 l2 (fun k => fblk_apply V c t r k) (fun k => wsblk_apply V c t o k)
    (bsblk_apply V c t o) (fun k => wnblk_apply V c t o k) (bnblk_apply V c t o)

/-- Every entry of the result array lies in the block of its node block's last point. -/
theorem cover7 (i : S50176x64.Idx) : ∃ t : Fin cfg1.N, (cfg1.win 7).flush t = true ∧ i ∈ ((cfg1.win 7).blk t).view.set := by
  have hi0 : (i 0).val < 50176 := (i 0).isLt
  have hi1 : (i 1).val < 64 := (i 1).isLt
  have hlt : (i 0).val / 1024 * 391 + 390 < cfg1.N := by rw [hN1]; omega
  refine ⟨⟨(i 0).val / 1024 * 391 + 390, hlt⟩, (flush1_7 _).mpr (by show ((i 0).val / 1024 * 391 + 390) % 391 = 390; omega), ?_⟩
  show i ∈ ((View.whole main_v5).slice (win1_7.rect ⟨(i 0).val / 1024 * 391 + 390, hlt⟩)).set
  rw [View.set_slice_whole, Rect.mem_set_unit]
  have q0 := (idx1 ⟨(i 0).val / 1024 * 391 + 390, hlt⟩).2.2.2.2.2.2.2.2.2.2.2.1
  have q1 := (idx1 ⟨(i 0).val / 1024 * 391 + 390, hlt⟩).2.2.2.2.2.2.2.2.2.2.2.2.1
  have q0' : win1_7.index ⟨(i 0).val / 1024 * 391 + 390, hlt⟩ (0 : Fin 2) = (i 0).val / 1024 := by
    rw [q0]; show ((i 0).val / 1024 * 391 + 390) / 391 = (i 0).val / 1024; omega
  intro a
  match a with
  | ⟨0, _⟩ =>
    show win1_7.index ⟨(i 0).val / 1024 * 391 + 390, hlt⟩ (0 : Fin 2) * 1024 ≤ (i 0).val
      ∧ (i 0).val < win1_7.index ⟨(i 0).val / 1024 * 391 + 390, hlt⟩ (0 : Fin 2) * 1024 + 1024
    rw [q0']; omega
  | ⟨1, _⟩ =>
    show win1_7.index ⟨(i 0).val / 1024 * 391 + 390, hlt⟩ (1 : Fin 2) * 64 ≤ (i 1).val
      ∧ (i 1).val < win1_7.index ⟨(i 0).val / 1024 * 391 + 390, hlt⟩ (1 : Fin 2) * 64 + 64
    rw [q1]; omega

end V1

/-- The result array after region 1: at node n, column o, the two linear layers over the one-hot scatter's mean. -/
theorem final1 (c : Dev nD) :
    (dat1 (F := Ideal) V c).arrAt 7 cfg1.N
      = Cert.Spec.outP (V c main_v2 : Cert.Spec.SEp.Idx → BitVec 32) (V c main_v4 : Cert.Spec.SEpD.Idx → EReal)
          (V c main_v3 : Cert.Spec.SNpD.Idx → EReal) (V c main_arg2 : Cert.Spec.SDD.Idx → EReal) (V c main_arg3 : Cert.Spec.SD.Idx → EReal)
          (V c main_arg4 : Cert.Spec.SDD.Idx → EReal) (V c main_arg5 : Cert.Spec.SD.Idx → EReal) :=
  (dat1 (F := Ideal) V c).arrAt_eq_of_cover 7 (V1.outA V c) (fun t hf => V1.flushed_eq V c t hf) V1.cover7

end Cert.KernelIdeal.H

end
-- ==== Proof.Bridge.lean ====
/-
  The padded one-hot sums of the kernel are the reference's filtered sums.

  Over the extended reals 0 · x = 0 for every x, and + and · are commutative and associative, so no finiteness
  is needed. Three facts carry the whole module:
    * a 32-bit word equals the word of a natural n < 2^32 exactly when its unsigned value is n, and for
      n < 2^31 exactly when its signed value is n;
    * a sum over Fin N whose terms vanish from m on is the sum over Fin m;
    * a sum of (if i = a then c else 0) · g i has the one term c · g a.
  With them the gather sum at a real edge e is feat (row e) · w e and at a padding edge is 0 (its weight is 0);
  the scatter sums over the 800768 padded edges drop their 768 padding terms (the padding destination 50176 is no
  node below 50000) and their one-hot factor becomes the filter "edge e lands on node n"; the self layer reads
  the unpadded features below row 50000.
-/
import proofs.«404055_j420906795210_2_alg».proof.Proof.Spec
import Mathlib.Algebra.BigOperators.Fin

noncomputable section

open scoped BigOperators

namespace Cert.Spec

open Idealize.ShloMosaic Idealize.ShloMosaic.ValueIdx

/-! ## Words -/

/-- The word of a natural below 2^32 is x exactly when x, read unsigned, is that natural. -/
theorem ofNat_eq_iff_toNat (x : BitVec 32) (n : ℕ) (hn : n < 4294967296) :
    BitVec.ofNat 32 n = x ↔ x.toNat = n := by
  constructor
  · rintro rfl
    rw [BitVec.toNat_ofNat]; omega
  · intro h
    apply BitVec.eq_of_toNat_eq
    rw [BitVec.toNat_ofNat, h]; omega

/-- The word of a natural below 2^31 is x exactly when x, read signed, is that natural. -/
theorem ofNat_eq_iff_toInt (x : BitVec 32) (n : ℕ) (hn : n < 2147483648) :
    BitVec.ofNat 32 n = x ↔ x.toInt = (n : ℤ) := by
  rw [ofNat_eq_iff_toNat x n (by omega), BitVec.toInt_eq_toNat_cond]
  have := x.isLt
  split_ifs <;> omega

/-! ## Sums -/

/-- A sum whose terms vanish from index m on is the sum of its first m terms. -/
theorem sum_pad {M : Type*} [AddCommMonoid M] {m N : ℕ} (h : m ≤ N) (f : Fin N → M)
    (hz : ∀ i : Fin N, m ≤ i.val → f i = 0) : ∑ i, f i = ∑ i : Fin m, f (Fin.castLE h i) := by
  obtain ⟨k, rfl⟩ := Nat.exists_eq_add_of_le h
  rw [Fin.sum_univ_add]
  have hk : ∑ i : Fin k, f (Fin.natAdd m i) = 0 := Finset.sum_eq_zero (fun i _ => hz _ (by simp))
  rw [hk, add_zero]
  rfl

/-- The row a source id below 50000 names is that id. -/
theorem rowOf_eq (src : SE.Idx → BitVec 32) (e : Fin 800000) (h : (src (ix1 e)).toNat < 50000) :
    rowOf src e = ⟨(src (ix1 e)).toNat, h⟩ := Fin.ext (Nat.mod_eq_of_lt h)

/-! ## The gather -/

/-- An edge of weight 0 sends the zero message. -/
theorem msgAt_pad (srcp : SEp.Idx → BitVec 32) (wp : SEp.Idx → EReal) (featp : SNpD.Idx → EReal)
    (e : Fin 800768) (d : Fin 64) (hw : wp (ix1 e) = 0) : msgAt srcp wp featp e d = 0 := by
  unfold msgAt
  refine Finset.sum_eq_zero (fun n _ => ?_)
  rw [hw, ite_self, zero_mul]

/-- At a real edge the one-hot sum over the padded node ids is the one term of the edge's source row. -/
theorem msgAt_real (feat : SND.Idx → EReal) (w : SE.Idx → EReal) (src : SE.Idx → BitVec 32)
    (srcp : SEp.Idx → BitVec 32) (wp : SEp.Idx → EReal) (featp : SNpD.Idx → EReal)
    (hsrc : ∀ e : Fin 800000, (src (ix1 e)).toNat < 50000)
    (hsrcp : ∀ e : Fin 800768, srcp (ix1 e) = if h : e.val < 800000 then src (ix1 ⟨e.val, h⟩) else 0#32)
    (hwp : ∀ e : Fin 800768, wp (ix1 e) = if h : e.val < 800000 then w (ix1 ⟨e.val, h⟩) else 0)
    (hfeatp : ∀ (n : Fin 50176) (d : Fin 64), featp (ix2 n d) = if h : n.val < 50000 then feat (ix2 ⟨n.val, h⟩ d) else 0)
    (e : Fin 800000) (d : Fin 64) :
    msgAt srcp wp featp (Fin.castLE (by norm_num) e) d = feat (ix2 (rowOf src e) d) * w (ix1 e) := by
  have hs : srcp (ix1 (Fin.castLE (by norm_num : 800000 ≤ 800768) e)) = src (ix1 e) := by
    rw [hsrcp]; exact dif_pos e.isLt
  have hw : wp (ix1 (Fin.castLE (by norm_num : 800000 ≤ 800768) e)) = w (ix1 e) := by
    rw [hwp]; exact dif_pos e.isLt
  have hlt := hsrc e
  unfold msgAt
  rw [hs, hw, rowOf_eq src e hlt]
  rw [Finset.sum_eq_single (⟨(src (ix1 e)).toNat, by omega⟩ : Fin 50176)]
  · rw [if_pos ((ofNat_eq_iff_toNat _ _ (by omega)).2 rfl), hfeatp]
    rw [dif_pos hlt, mul_comm]
  · intro b _ hb
    rw [if_neg, zero_mul]
    intro hc
    apply hb
    have hb' := (ofNat_eq_iff_toNat _ _ (by have := b.isLt; omega)).1 hc
    exact Fin.ext hb'.symm
  · intro h; exact absurd (Finset.mem_univ _) h

/-! ## The scatter -/

/-- The padded message sums at a real node are the reference's sums over the edges that land on it. -/
theorem sumP_eq (feat : SND.Idx → EReal) (w : SE.Idx → EReal) (src dst : SE.Idx → BitVec 32)
    (srcp dstp : SEp.Idx → BitVec 32) (wp : SEp.Idx → EReal) (featp : SNpD.Idx → EReal)
    (hsrc : ∀ e : Fin 800000, (src (ix1 e)).toNat < 50000)
    (hsrcp : ∀ e : Fin 800768, srcp (ix1 e) = if h : e.val < 800000 then src (ix1 ⟨e.val, h⟩) else 0#32)
    (hwp : ∀ e : Fin 800768, wp (ix1 e) = if h : e.val < 800000 then w (ix1 ⟨e.val, h⟩) else 0)
    (hdstp : ∀ e : Fin 800768, dstp (ix1 e) = if h : e.val < 800000 then dst (ix1 ⟨e.val, h⟩) else 50176#32)
    (hfeatp : ∀ (n : Fin 50176) (d : Fin 64), featp (ix2 n d) = if h : n.val < 50000 then feat (ix2 ⟨n.val, h⟩ d) else 0)
    (n : Fin 50000) (k : Fin 64) :
    sumP dstp (msgP srcp wp featp) ⟨n.val, by omega⟩ k
      = ∑ e ∈ Finset.univ.filter (fun e => hitOf dst e n), feat (ix2 (rowOf src e) k) * w (ix1 e) := by
  unfold sumP
  rw [sum_pad (by norm_num : 800000 ≤ 800768)]
  · rw [Finset.sum_filter]
    refine Finset.sum_congr rfl (fun e _ => ?_)
    have hd : dstp (ix1 (Fin.castLE (by norm_num : 800000 ≤ 800768) e)) = dst (ix1 e) := by
      rw [hdstp]; exact dif_pos e.isLt
    rw [hd]
    show (if BitVec.ofNat 32 n.val = dst (ix1 e) then (1 : EReal) else 0)
        * msgAt srcp wp featp (Fin.castLE (by norm_num : 800000 ≤ 800768) e) k = _
    rw [msgAt_real feat w src srcp wp featp hsrc hsrcp hwp hfeatp e k]
    by_cases hh : hitOf dst e n
    · rw [if_pos hh, if_pos ((ofNat_eq_iff_toInt _ _ (by omega)).2 hh), one_mul]
    · rw [if_neg hh, if_neg (fun hc => hh ((ofNat_eq_iff_toInt _ _ (by omega)).1 hc)), zero_mul]
  · intro e he
    show _ * msgAt srcp wp featp e k = 0
    rw [msgAt_pad srcp wp featp e k (by rw [hwp]; exact dif_neg (by omega)), mul_zero]

/-- The padded in-degree of a real node is the number of edges that land on it. -/
theorem degP_eq (dst : SE.Idx → BitVec 32) (dstp : SEp.Idx → BitVec 32)
    (hdstp : ∀ e : Fin 800768, dstp (ix1 e) = if h : e.val < 800000 then dst (ix1 ⟨e.val, h⟩) else 50176#32)
    (n : Fin 50000) :
    degP dstp ⟨n.val, by omega⟩ = ∑ e ∈ Finset.univ.filter (fun e => hitOf dst e n), (1 : EReal) := by
  unfold degP
  rw [sum_pad (by norm_num : 800000 ≤ 800768)]
  · rw [Finset.sum_filter]
    refine Finset.sum_congr rfl (fun e _ => ?_)
    have hd : dstp (ix1 (Fin.castLE (by norm_num : 800000 ≤ 800768) e)) = dst (ix1 e) := by
      rw [hdstp]; exact dif_pos e.isLt
    rw [hd, mul_one]
    by_cases hh : hitOf dst e n
    · rw [if_pos hh, if_pos ((ofNat_eq_iff_toInt _ _ (by omega)).2 hh)]
    · rw [if_neg hh, if_neg (fun hc => hh ((ofNat_eq_iff_toInt _ _ (by omega)).1 hc))]
  · intro e he
    rw [hdstp, dif_neg (by omega), if_neg, zero_mul]
    intro hc
    have h1 := (ofNat_eq_iff_toNat _ _ (by omega)).1 hc
    rw [BitVec.toNat_ofNat] at h1
    omega

/-! ## The layer -/

/-- The kernel's padded result at a real node is the reference's. -/
theorem bridge (feat : SND.Idx → EReal) (w : SE.Idx → EReal) (Ws : SDD.Idx → EReal) (bs : SD.Idx → EReal)
    (Wn : SDD.Idx → EReal) (bn : SD.Idx → EReal) (src dst : SE.Idx → BitVec 32)
    (srcp dstp : SEp.Idx → BitVec 32) (wp : SEp.Idx → EReal) (featp : SNpD.Idx → EReal)
    (hsrc : ∀ e : Fin 800000, (src (ix1 e)).toNat < 50000)
    (hsrcp : ∀ e : Fin 800768, srcp (ix1 e) = if h : e.val < 800000 then src (ix1 ⟨e.val, h⟩) else 0#32)
    (hwp : ∀ e : Fin 800768, wp (ix1 e) = if h : e.val < 800000 then w (ix1 ⟨e.val, h⟩) else 0)
    (hdstp : ∀ e : Fin 800768, dstp (ix1 e) = if h : e.val < 800000 then dst (ix1 ⟨e.val, h⟩) else 50176#32)
    (hfeatp : ∀ (n : Fin 50176) (d : Fin 64), featp (ix2 n d) = if h : n.val < 50000 then feat (ix2 ⟨n.val, h⟩ d) else 0)
    (n : Fin 50000) (o : Fin 64) :
    outAt dstp (msgP srcp wp featp) featp Ws bs Wn bn ⟨n.val, by omega⟩ o
      = GAt feat w Ws bs Wn bn (rowOf src) (hitOf dst) n o := by
  have hS := fun k => sumP_eq feat w src dst srcp dstp wp featp hsrc hsrcp hwp hdstp hfeatp n k
  have hD := degP_eq dst dstp hdstp n
  have hF : ∀ k : Fin 64, featp (ix2 (⟨n.val, by omega⟩ : Fin 50176) k) = feat (ix2 n k) := fun k => by
    rw [hfeatp]; exact dif_pos n.isLt
  unfold outAt GAt
  simp only [hS, hD, hF]

end Cert.Spec

end
-- ==== Proof.KI.Result.lean ====
/-
  The kernel's result as a value, at the ideal instance: the closing slice of region 1's array, which is outP of
  region 0's message array msgP and of the padded inputs; the four paddings are read off the host stretches
  (source ids padded with 0, weights with 0.0, destination ids with 50176, features with zero rows), and the
  bridge turns the one-hot sums over the padded arrays into the reference's G.
-/
import proofs.«404055_j420906795210_2_alg».proof.Proof.KI.Run
import proofs.«404055_j420906795210_2_alg».proof.Proof.KI.Val0
import proofs.«404055_j420906795210_2_alg».proof.Proof.KI.Val1
import proofs.«404055_j420906795210_2_alg».proof.Proof.Bridge
import Idealize.ShloMosaic.Lib.KernelVsHost
import Idealize.ShloMosaic.Lib.StableHlo.Run
import Idealize.ShloMosaic.Lib.Pipeline.Value
import Idealize.ShloMosaic.Lib.Pipeline.Cells
import Idealize.ShloMosaic.Lib.ValueIdx
import Idealize.ShloMosaic.PureOps.Ideal.Laws

set_option maxRecDepth 16384

noncomputable section

namespace Cert.KernelIdeal.H

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The paddings and the closing slice, read at an index -/

/-- A vector of 800000 entries padded by 768 at the end: the entry below 800000, the padding value from there on. -/
theorem pad1_apply {α : Type} (x : (⟨1, ![800000]⟩ : Shape).Idx → α) (v : (⟨0, ![]⟩ : Shape).Idx → α)
    (h : (⟨1, ![800000]⟩ : Shape).Pads (![0] : Fin 1 → Nat) ![768] ![0] ⟨1, ![800768]⟩) (hu : 0 < (⟨0, ![]⟩ : Shape).numel)
    (e : Fin 800768) :
    pad ⟨1, ![800768]⟩ ![0] ![768] ![0] x v h hu (ix1 e) = if he : e.val < 800000 then x (ix1 ⟨e.val, he⟩) else v ix0 := by
  by_cases he : e.val < 800000
  · rw [dif_pos he]
    refine pad_apply_of_inside _ _ _ x v h hu (ix1 e) (ix1 ⟨e.val, he⟩) fun a => ?_
    match a with
    | ⟨0, _⟩ => show e.val = 0 + e.val * (0 + 1); omega
  · rw [dif_neg he]
    refine (pad_apply_of_not_inside _ _ _ x v h hu (ix1 e) ⟨0, by decide⟩ ?_).trans (congrArg v (eq_ix0 _))
    show ¬ (0 ≤ e.val ∧ (e.val - 0) % 1 = 0 ∧ (e.val - 0) / 1 < 800000)
    omega

/-- A 50000 x 64 matrix padded by 176 rows at the end: the row below 50000, the padding value from there on. -/
theorem pad2_apply {α : Type} (x : (⟨2, ![50000, 64]⟩ : Shape).Idx → α) (v : (⟨0, ![]⟩ : Shape).Idx → α)
    (h : (⟨2, ![50000, 64]⟩ : Shape).Pads (![0, 0] : Fin 2 → Nat) ![176, 0] ![0, 0] ⟨2, ![50176, 64]⟩) (hu : 0 < (⟨0, ![]⟩ : Shape).numel)
    (n : Fin 50176) (d : Fin 64) :
    pad ⟨2, ![50176, 64]⟩ ![0, 0] ![176, 0] ![0, 0] x v h hu (ix2 n d) = if hn : n.val < 50000 then x (ix2 ⟨n.val, hn⟩ d) else v ix0 := by
  by_cases hn : n.val < 50000
  · rw [dif_pos hn]
    refine pad_apply_of_inside _ _ _ x v h hu (ix2 n d) (ix2 ⟨n.val, hn⟩ d) fun a => ?_
    match a with
    | ⟨0, _⟩ => show n.val = 0 + n.val * (0 + 1); omega
    | ⟨1, _⟩ => show d.val = 0 + d.val * (0 + 1); omega
  · rw [dif_neg hn]
    refine (pad_apply_of_not_inside _ _ _ x v h hu (ix2 n d) ⟨0, by decide⟩ ?_).trans (congrArg v (eq_ix0 _))
    show ¬ (0 ≤ n.val ∧ (n.val - 0) % 1 = 0 ∧ (n.val - 0) / 1 < 50000)
    omega

/-- The first 50000 rows of a 50176 x 64 matrix: row n of the slice is row n of the matrix. -/
theorem slice_apply {α : Type} (x : (⟨2, ![50176, 64]⟩ : Shape).Idx → α)
    (h : (⟨2, ![50176, 64]⟩ : Shape).Slices (![0, 0] : Fin 2 → Nat) ⟨2, ![50000, 64]⟩) (n : Fin 50000) (o : Fin 64) :
    extractStridedSlice ⟨2, ![50000, 64]⟩ ![0, 0] x h (ix2 n o) = x (ix2 (⟨n.val, by omega⟩ : Fin 50176) o) := by
  refine extractStridedSlice_apply _ x h (ix2 n o) (ix2 (⟨n.val, by omega⟩ : Fin 50176) o) fun a => ?_
  match a with
  | ⟨0, _⟩ => show n.val = 0 + n.val; omega
  | ⟨1, _⟩ => show o.val = 0 + o.val; omega

/-! ## What each constant-and-pad pair of host stretches leaves in its padded array, from any contents -/

section Stretches

variable (V : Valuation τ sig (Elt Ideal))

/-- The source ids padded with the constant 0. -/
theorem st01_v0 :
    (StableHlo.after (hostOps0_1 (F := Ideal)) (StableHlo.after (hostOps0 (F := Ideal)) V) (Proc.devRef .tc main_v0) : S800768.Idx → BitVec 32)
      = pad S800768 ![0] ![768] ![0] (V (Proc.devRef .tc main_arg6) : S800000.Idx → BitVec 32) (constantI S_ 32 0#32)
          pads_S800000_S800768_07680 h_S_ := by
  after_results
  rfl

/-- The edge weights padded with the constant 0.0. -/
theorem st23_v1 :
    (StableHlo.after (hostOps0_3 (F := Ideal)) (StableHlo.after (hostOps0_2 (F := Ideal)) V) (Proc.devRef .tc main_v1) : S800768.Idx → EReal)
      = pad S800768 ![0] ![768] ![0] (V (Proc.devRef .tc main_arg1) : S800000.Idx → EReal) (constant (F := Ideal) S_ .f32 0x00000000#32)
          pads_S800000_S800768_07680 h_S_ := by
  after_results
  rfl

/-- The destination ids padded with the constant 50176. -/
theorem st45_v2 :
    (StableHlo.after (hostOps0_5 (F := Ideal)) (StableHlo.after (hostOps0_4 (F := Ideal)) V) (Proc.devRef .tc main_v2) : S800768.Idx → BitVec 32)
      = pad S800768 ![0] ![768] ![0] (V (Proc.devRef .tc main_arg7) : S800000.Idx → BitVec 32) (constantI S_ 32 50176#32)
          pads_S800000_S800768_07680 h_S_ := by
  after_results
  rfl

/-- The features padded with 176 rows of the constant 0.0. -/
theorem st67_v3 :
    (StableHlo.after (hostOps0_7 (F := Ideal)) (StableHlo.after (hostOps0_6 (F := Ideal)) V) (Proc.devRef .tc main_v3) : S50176x64.Idx → EReal)
      = pad S50176x64 ![0, 0] ![176, 0] ![0, 0] (V (Proc.devRef .tc main_arg0) : S50000x64.Idx → EReal) (constant (F := Ideal) S_ .f32 0x00000000#32)
          pads_S50000x64_S50176x64_01760_000 h_S_ := by
  after_results
  rfl

/-- The closing stretch leaves the slice of region 1's array in the result buffer. -/
theorem st2_v6 :
    (StableHlo.after (hostOps2 (F := Ideal)) V (Proc.devRef .tc main_v6) : S50000x64.Idx → EReal)
      = extractStridedSlice S50000x64 ![0, 0] (V (Proc.devRef .tc main_v5) : S50176x64.Idx → EReal) slices_S50176x64_S50000x64_0_0 := by
  after_results

end Stretches

variable (m : (ℓ : Loc nD τ sig) → Buf (Elt Ideal) ℓ)

/-! ## The buffers at region 0's entry -/

/-- The padded source ids: written by the second stretch, by none after it. -/
theorem V8_v0 (c : Dev nD) :
    (V8 (F := Ideal) m c main_v0 : Cert.Spec.SEp.Idx → BitVec 32)
      = pad S800768 ![0] ![768] ![0] (m ((c.tc : Thread nD τ).loc main_arg6) : Cert.Spec.SE.Idx → BitVec 32) (constantI S_ 32 0#32)
          pads_S800000_S800768_07680 h_S_ :=
  (Gen.V8_of m c main_v0 (by decide)).trans <| (Gen.V7_of m c main_v0 (by decide)).trans <| (Gen.V6_of m c main_v0 (by decide)).trans <|
    (Gen.V5_of m c main_v0 (by decide)).trans <| (Gen.V4_of m c main_v0 (by decide)).trans <| (Gen.V3_of m c main_v0 (by decide)).trans <|
    st01_v0 (Gen.V0 m c)

/-- The padded weights: written by the fourth stretch, by none after it; the weights themselves by none before. -/
theorem V8_v1 (c : Dev nD) :
    (V8 (F := Ideal) m c main_v1 : Cert.Spec.SEp.Idx → EReal)
      = pad S800768 ![0] ![768] ![0] (m ((c.tc : Thread nD τ).loc main_arg1) : Cert.Spec.SE.Idx → EReal) (constant (F := Ideal) S_ .f32 0x00000000#32)
          pads_S800000_S800768_07680 h_S_ :=
  (Gen.V8_of m c main_v1 (by decide)).trans <| (Gen.V7_of m c main_v1 (by decide)).trans <| (Gen.V6_of m c main_v1 (by decide)).trans <|
    (Gen.V5_of m c main_v1 (by decide)).trans <| (st23_v1 (Gen.V2 m c)).trans <|
    congrArg (fun x : S800000.Idx → EReal => pad S800768 ![0] ![768] ![0] x (constant (F := Ideal) S_ .f32 0x00000000#32) pads_S800000_S800768_07680 h_S_)
      ((Gen.V2_of m c main_arg1 (by decide)).trans (Gen.V1_of m c main_arg1 (by decide)))

/-- The padded destination ids: written by the sixth stretch, by none after it. -/
theorem V8_v2 (c : Dev nD) :
    (V8 (F := Ideal) m c main_v2 : Cert.Spec.SEp.Idx → BitVec 32)
      = pad S800768 ![0] ![768] ![0] (m ((c.tc : Thread nD τ).loc main_arg7) : Cert.Spec.SE.Idx → BitVec 32) (constantI S_ 32 50176#32)
          pads_S800000_S800768_07680 h_S_ :=
  (Gen.V8_of m c main_v2 (by decide)).trans <| (Gen.V7_of m c main_v2 (by decide)).trans <| (st45_v2 (Gen.V4 m c)).trans <|
    congrArg (fun x : S800000.Idx → BitVec 32 => pad S800768 ![0] ![768] ![0] x (constantI S_ 32 50176#32) pads_S800000_S800768_07680 h_S_)
      ((Gen.V4_of m c main_arg7 (by decide)).trans <| (Gen.V3_of m c main_arg7 (by decide)).trans <|
        (Gen.V2_of m c main_arg7 (by decide)).trans (Gen.V1_of m c main_arg7 (by decide)))

/-- The padded features: written by the eighth stretch. -/
theorem V8_v3 (c : Dev nD) :
    (V8 (F := Ideal) m c main_v3 : Cert.Spec.SNpD.Idx → EReal)
      = pad S50176x64 ![0, 0] ![176, 0] ![0, 0] (m ((c.tc : Thread nD τ).loc main_arg0) : Cert.Spec.SND.Idx → EReal) (constant (F := Ideal) S_ .f32 0x00000000#32)
          pads_S50000x64_S50176x64_01760_000 h_S_ :=
  (st67_v3 (Gen.V6 m c)).trans <|
    congrArg (fun x : S50000x64.Idx → EReal => pad S50176x64 ![0, 0] ![176, 0] ![0, 0] x (constant (F := Ideal) S_ .f32 0x00000000#32) pads_S50000x64_S50176x64_01760_000 h_S_)
      ((Gen.V6_of m c main_arg0 (by decide)).trans <| (Gen.V5_of m c main_arg0 (by decide)).trans <| (Gen.V4_of m c main_arg0 (by decide)).trans <|
        (Gen.V3_of m c main_arg0 (by decide)).trans <| (Gen.V2_of m c main_arg0 (by decide)).trans (Gen.V1_of m c main_arg0 (by decide)))

/-- No stretch writes the layers' weights and biases. -/
theorem V8_arg2 (c : Dev nD) : V8 (F := Ideal) m c main_arg2 = m ((c.tc : Thread nD τ).loc main_arg2) :=
  (Gen.V8_of m c main_arg2 (by decide)).trans <| (Gen.V7_of m c main_arg2 (by decide)).trans <| (Gen.V6_of m c main_arg2 (by decide)).trans <|
    (Gen.V5_of m c main_arg2 (by decide)).trans <| (Gen.V4_of m c main_arg2 (by decide)).trans <| (Gen.V3_of m c main_arg2 (by decide)).trans <|
    (Gen.V2_of m c main_arg2 (by decide)).trans (Gen.V1_of m c main_arg2 (by decide))
theorem V8_arg3 (c : Dev nD) : V8 (F := Ideal) m c main_arg3 = m ((c.tc : Thread nD τ).loc main_arg3) :=
  (Gen.V8_of m c main_arg3 (by decide)).trans <| (Gen.V7_of m c main_arg3 (by decide)).trans <| (Gen.V6_of m c main_arg3 (by decide)).trans <|
    (Gen.V5_of m c main_arg3 (by decide)).trans <| (Gen.V4_of m c main_arg3 (by decide)).trans <| (Gen.V3_of m c main_arg3 (by decide)).trans <|
    (Gen.V2_of m c main_arg3 (by decide)).trans (Gen.V1_of m c main_arg3 (by decide))
theorem V8_arg4 (c : Dev nD) : V8 (F := Ideal) m c main_arg4 = m ((c.tc : Thread nD τ).loc main_arg4) :=
  (Gen.V8_of m c main_arg4 (by decide)).trans <| (Gen.V7_of m c main_arg4 (by decide)).trans <| (Gen.V6_of m c main_arg4 (by decide)).trans <|
    (Gen.V5_of m c main_arg4 (by decide)).trans <| (Gen.V4_of m c main_arg4 (by decide)).trans <| (Gen.V3_of m c main_arg4 (by decide)).trans <|
    (Gen.V2_of m c main_arg4 (by decide)).trans (Gen.V1_of m c main_arg4 (by decide))
theorem V8_arg5 (c : Dev nD) : V8 (F := Ideal) m c main_arg5 = m ((c.tc : Thread nD τ).loc main_arg5) :=
  (Gen.V8_of m c main_arg5 (by decide)).trans <| (Gen.V7_of m c main_arg5 (by decide)).trans <| (Gen.V6_of m c main_arg5 (by decide)).trans <|
    (Gen.V5_of m c main_arg5 (by decide)).trans <| (Gen.V4_of m c main_arg5 (by decide)).trans <| (Gen.V3_of m c main_arg5 (by decide)).trans <|
    (Gen.V2_of m c main_arg5 (by decide)).trans (Gen.V1_of m c main_arg5 (by decide))

/-! ## The padded arrays at an index: the bridge's four hypotheses -/

theorem srcp_at (c : Dev nD) (e : Fin 800768) :
    (V8 (F := Ideal) m c main_v0 : Cert.Spec.SEp.Idx → BitVec 32) (ix1 e)
      = if h : e.val < 800000 then (m ((c.tc : Thread nD τ).loc main_arg6) : Cert.Spec.SE.Idx → BitVec 32) (ix1 ⟨e.val, h⟩) else 0#32 :=
  (congrFun (V8_v0 m c) (ix1 e)).trans (pad1_apply _ _ _ _ e)

theorem dstp_at (c : Dev nD) (e : Fin 800768) :
    (V8 (F := Ideal) m c main_v2 : Cert.Spec.SEp.Idx → BitVec 32) (ix1 e)
      = if h : e.val < 800000 then (m ((c.tc : Thread nD τ).loc main_arg7) : Cert.Spec.SE.Idx → BitVec 32) (ix1 ⟨e.val, h⟩) else 50176#32 :=
  (congrFun (V8_v2 m c) (ix1 e)).trans (pad1_apply _ _ _ _ e)

/-- The float constant 0.0 is the real 0. -/
theorem zero_cst : constant (F := Ideal) S_ .f32 0x00000000#32 ix0 = (0 : EReal) := Ideal.ofBits_zero_f32

theorem wp_at (c : Dev nD) (e : Fin 800768) :
    (V8 (F := Ideal) m c main_v1 : Cert.Spec.SEp.Idx → EReal) (ix1 e)
      = (if h : e.val < 800000 then (m ((c.tc : Thread nD τ).loc main_arg1) : Cert.Spec.SE.Idx → EReal) (ix1 ⟨e.val, h⟩) else 0 : EReal) := by
  refine ((congrFun (V8_v1 m c) (ix1 e)).trans (pad1_apply _ _ _ _ e)).trans ?_
  rw [zero_cst]

theorem featp_at (c : Dev nD) (n : Fin 50176) (d : Fin 64) :
    (V8 (F := Ideal) m c main_v3 : Cert.Spec.SNpD.Idx → EReal) (ix2 n d)
      = (if h : n.val < 50000 then (m ((c.tc : Thread nD τ).loc main_arg0) : Cert.Spec.SND.Idx → EReal) (ix2 ⟨n.val, h⟩ d) else 0 : EReal) := by
  refine ((congrFun (V8_v3 m c) (ix2 n d)).trans (pad2_apply _ _ _ _ n d)).trans ?_
  rw [zero_cst]

/-! ## The buffers at region 1's entry -/

/-- Region 0 leaves its message array at msgP of its three inputs. -/
theorem V9_v4 (c : Dev nD) :
    (V9 (F := Ideal) m c main_v4 : Cert.Spec.SEpD.Idx → EReal)
      = Cert.Spec.msgP (V8 m c main_v0 : Cert.Spec.SEp.Idx → BitVec 32) (V8 m c main_v1 : Cert.Spec.SEp.Idx → EReal) (V8 m c main_v3 : Cert.Spec.SNpD.Idx → EReal) :=
  (W9_arr m c 3).trans (final0 (V8 m) c)

/-- The padded features are an input array of region 0: never written back. -/
theorem V9_v3 (c : Dev nD) : V9 (F := Ideal) m c main_v3 = V8 m c main_v3 :=
  (W9_arr m c 2).trans (((dat0 (V8 m) c).arrAt_in 2 rfl cfg0.N).trans (A_eq0 (V8 m) c 2))

/-- The padded destination ids and the layers' weights and biases are no arrays of region 0. -/
theorem V9_v2 (c : Dev nD) : V9 (F := Ideal) m c main_v2 = V8 m c main_v2 := W9_of_ne m c main_v2 (by decide)
theorem V9_arg2 (c : Dev nD) : V9 (F := Ideal) m c main_arg2 = V8 m c main_arg2 := W9_of_ne m c main_arg2 (by decide)
theorem V9_arg3 (c : Dev nD) : V9 (F := Ideal) m c main_arg3 = V8 m c main_arg3 := W9_of_ne m c main_arg3 (by decide)
theorem V9_arg4 (c : Dev nD) : V9 (F := Ideal) m c main_arg4 = V8 m c main_arg4 := W9_of_ne m c main_arg4 (by decide)
theorem V9_arg5 (c : Dev nD) : V9 (F := Ideal) m c main_arg5 = V8 m c main_arg5 := W9_of_ne m c main_arg5 (by decide)

/-! ## Region 1's array and the closing slice -/

/-- Region 1 leaves its result array at outP of the message array, the padded inputs and the layers. -/
theorem W10_v5 (c : Dev nD) :
    (W10 (F := Ideal) m c (Proc.devRef .tc main_v5) : Cert.Spec.SNpD.Idx → EReal)
      = Cert.Spec.outP (V8 m c main_v2 : Cert.Spec.SEp.Idx → BitVec 32)
          (Cert.Spec.msgP (V8 m c main_v0 : Cert.Spec.SEp.Idx → BitVec 32) (V8 m c main_v1 : Cert.Spec.SEp.Idx → EReal) (V8 m c main_v3 : Cert.Spec.SNpD.Idx → EReal))
          (V8 m c main_v3 : Cert.Spec.SNpD.Idx → EReal)
          (m ((c.tc : Thread nD τ).loc main_arg2) : Cert.Spec.SDD.Idx → EReal) (m ((c.tc : Thread nD τ).loc main_arg3) : Cert.Spec.SD.Idx → EReal)
          (m ((c.tc : Thread nD τ).loc main_arg4) : Cert.Spec.SDD.Idx → EReal) (m ((c.tc : Thread nD τ).loc main_arg5) : Cert.Spec.SD.Idx → EReal) := by
  refine ((W10_arr m c 7).trans (final1 (V9 m) c)).trans ?_
  rw [V9_v2 m c, V9_v4 m c, V9_v3 m c, V9_arg2 m c, V9_arg3 m c, V9_arg4 m c, V9_arg5 m c,
    V8_arg2 m c, V8_arg3 m c, V8_arg4 m c, V8_arg5 m c]

/-- The result buffer after the run is the first 50000 rows of region 1's array. -/
theorem W11_v6 (c : Dev nD) :
    (W11 (F := Ideal) m c (Proc.devRef .tc main_v6) : Cert.Spec.SND.Idx → EReal)
      = extractStridedSlice S50000x64 ![0, 0] (W10 (F := Ideal) m c (Proc.devRef .tc main_v5) : Cert.Spec.SNpD.Idx → EReal) slices_S50176x64_S50000x64_0_0 :=
  st2_v6 (W10 m c)

/-- With every source id in range, the result buffer after the run is G of the arguments. -/
theorem result_eq (c : Dev nD)
    (hsrc : ∀ e : Fin 800000, ((m ((c.tc : Thread nD τ).loc main_arg6) : Cert.Spec.SE.Idx → BitVec 32) (ix1 e)).toNat < 50000) :
    (W11 (F := Ideal) m c (Proc.devRef .tc main_v6) : Cert.Spec.SND.Idx → EReal)
      = Cert.Spec.G (m ((c.tc : Thread nD τ).loc main_arg0) : Cert.Spec.SND.Idx → EReal) (m ((c.tc : Thread nD τ).loc main_arg1) : Cert.Spec.SE.Idx → EReal)
          (m ((c.tc : Thread nD τ).loc main_arg2) : Cert.Spec.SDD.Idx → EReal) (m ((c.tc : Thread nD τ).loc main_arg3) : Cert.Spec.SD.Idx → EReal)
          (m ((c.tc : Thread nD τ).loc main_arg4) : Cert.Spec.SDD.Idx → EReal) (m ((c.tc : Thread nD τ).loc main_arg5) : Cert.Spec.SD.Idx → EReal)
          (Cert.Spec.rowOf (m ((c.tc : Thread nD τ).loc main_arg6) : Cert.Spec.SE.Idx → BitVec 32))
          (Cert.Spec.hitOf (m ((c.tc : Thread nD τ).loc main_arg7) : Cert.Spec.SE.Idx → BitVec 32)) := by
  funext j
  obtain ⟨n, o, rfl⟩ : ∃ (n : Fin 50000) (o : Fin 64), j = ix2 n o := ⟨j 0, j 1, eq_ix2 j⟩
  refine (congrFun (W11_v6 m c) (ix2 n o)).trans ?_
  refine (slice_apply _ _ n o).trans ?_
  refine (congrFun (W10_v5 m c) (ix2 (⟨n.val, by omega⟩ : Fin 50176) o)).trans ?_
  exact Cert.Spec.bridge _ _ _ _ _ _ _ _ _ _ _ _ hsrc (srcp_at m c) (wp_at m c) (dstp_at m c) (featp_at m c) n o

end Cert.KernelIdeal.H

end
-- ==== Proof.RefValue.lean ====
/-
  The reference read as values, at the ideal instance: its run ends with the result buffer at G of the
  arguments — the gathered feature rows scaled by the edge weights, summed with the ones over the edges that
  land on each node, the mean through the neighbour layer beside the self layer — and the arguments unchanged.
-/
import proofs.«404055_j420906795210_2_alg».proof.Proof.Gen.ReferenceIdeal.Run
import proofs.«404055_j420906795210_2_alg».proof.Proof.Gen.ReferenceIdeal.Read
import proofs.«404055_j420906795210_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run
import Idealize.ShloMosaic.Lib.StableHlo.Predicate

set_option maxRecDepth 16384
set_option Elab.async false

noncomputable section

namespace Cert.ReferenceIdeal.RefValue

open Cert.ReferenceIdeal Cert.ReferenceIdeal.Gen
open Idealize.ShloMosaic Idealize.ShloMosaic.TcCoe Idealize.ShloMosaic.ValueIdx
open Idealize.SL Idealize.SL.Sem
open scoped BigOperators

section Library
variable [Facts₀]

/-! ## Words: a source id below 50000 -/

/-- A source word below 50000 is not negative when read signed: the wrap of a negative id is not taken. -/
theorem src_select (w alt : BitVec 32) (hw : w.toNat < 50000) :
    Scalar.select (IntOp.cmpi .slt w 0#32) alt w = w := by
  have h : IntOp.cmpi .slt w 0#32 = 0#1 := eq_zero_of_ne_one (fun h1 =>
    absurd ((StableHlo.Predicate.slt_iff_toNat (a := w) (b := 0#32) (by omega) (by decide)).mp h1) (Nat.not_lt_zero _))
  rw [h, select_zero]

/-- Read signed and clamped into 0 … 49999 it is its own value. -/
theorem src_clamp (w : BitVec 32) (hw : w.toNat < 50000) : min w.toInt.toNat 49999 = w.toNat := by
  rw [StableHlo.Predicate.toInt_eq_toNat_of_lt (by omega), Int.toNat_natCast]; omega

/-- The word of 1.0 denotes 1. -/
theorem ofBits_one : Ideal.ofBits .f32 0x3F800000#32 = 1 := by
  simp [Ideal.ofBits, Ideal.ieee, -EReal.coe_mul]; norm_num

/-! ## The gather: row (clamped start) of the operand, column kept -/

/-- Result element (e, d) of the row gather is the operand's row at edge e's start index, read signed and
    clamped into 0 … 49999, at column d: axis 0 is collapsed and start-indexed, axis 1 is the one offset axis. -/
theorem gather_row {α : Type} (x : S50000x64.Idx → α) (idx : IVec S800000x1 32) (e : Fin 800000) (d : Fin 64) :
    Host.gather gather_S50000x64_S800000x1_S800000x64_1_0_n_n_0_1_164 x idx (ix2 e d)
      = x (ix2 (⟨min (idx (ix2 e (0 : Fin 1))).toInt.toNat 49999, by omega⟩ : Fin 50000) d) := by
  unfold Host.gather
  congr 1
  funext a
  refine Fin.ext ?_
  match a with
  | ⟨0, _⟩ =>
    show gather_S50000x64_S800000x1_S800000x64_1_0_n_n_0_1_164.start (ix2 e d) idx 0
        + gather_S50000x64_S800000x1_S800000x64_1_0_n_n_0_1_164.batchCoord (ix2 e d) 0
        + gather_S50000x64_S800000x1_S800000x64_1_0_n_n_0_1_164.offCoord (ix2 e d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x64_S800000x1_S800000x64_1_0_n_n_0_1_164.startIndexMap from
      List.mem_singleton.mpr rfl)]
    have hsi : gather_S50000x64_S800000x1_S800000x64_1_0_n_n_0_1_164.siIdx (ix2 e d)
        ⟨List.idxOf (0 : Fin 2) gather_S50000x64_S800000x1_S800000x64_1_0_n_n_0_1_164.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S50000x64_S800000x1_S800000x64_1_0_n_n_0_1_164.start (ix2 e d) idx 1
        + gather_S50000x64_S800000x1_S800000x64_1_0_n_n_0_1_164.batchCoord (ix2 e d) 1
        + gather_S50000x64_S800000x1_S800000x64_1_0_n_n_0_1_164.offCoord (ix2 e d) 1 = d.val
    have h1 : (1 : Fin 2) ∉ gather_S50000x64_S800000x1_S800000x64_1_0_n_n_0_1_164.startIndexMap :=
      fun h => absurd (List.mem_singleton.mp h) (by decide)
    have h1' : (1 : Fin 2) ∉ gather_S50000x64_S800000x1_S800000x64_1_0_n_n_0_1_164.collapsedSliceDims :=
      fun h => absurd (List.mem_singleton.mp h) (by decide)
    rw [GatherDims.batchCoord_eq_zero _ _ _ List.not_mem_nil]
    unfold GatherDims.start
    rw [dif_neg h1]
    unfold GatherDims.offCoord
    rw [dif_pos ((GatherDims.mem_sKept _ _).mpr ⟨h1', List.not_mem_nil⟩)]
    simp only [Nat.add_zero, Nat.zero_add]
    rfl

/-- The same with the clamped start index named. -/
theorem gather_row_of {α : Type} (x : S50000x64.Idx → α) (idx : IVec S800000x1 32) (e : Fin 800000) (d : Fin 64)
    (r : Fin 50000) (hr : min (idx (ix2 e (0 : Fin 1))).toInt.toNat 49999 = r.val) :
    Host.gather gather_S50000x64_S800000x1_S800000x64_1_0_n_n_0_1_164 x idx (ix2 e d) = x (ix2 r d) := by
  rw [gather_row]
  exact congrArg (fun p : Fin 50000 => x (ix2 p d)) (Fin.ext hr)

/-! ## The row scatter: update (e, d') lands on (n, k) iff edge e's index, read signed, is n and d' = k -/

theorem scatter_rows_hit (idx : IVec S800000x1 32) (e : Fin 800000) (d' : Fin 64) (n : Fin 50000) (k : Fin 64) :
    scatter_S50000x64_S800000x1_S800000x64_1_0_0_1.resultIdx? (ix2 e d') idx = some (ix2 n k)
      ↔ (idx (ix2 e (0 : Fin 1))).toInt = (n.val : ℤ) ∧ d' = k := by
  have hsi : scatter_S50000x64_S800000x1_S800000x64_1_0_0_1.siIdx (ix2 e d')
      ⟨List.idxOf (0 : Fin 2) scatter_S50000x64_S800000x1_S800000x64_1_0_0_1.scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  have hs0 : scatter_S50000x64_S800000x1_S800000x64_1_0_0_1.start (ix2 e d') idx 0 = (idx (ix2 e (0 : Fin 1))).toInt := by
    unfold ScatterDims.start
    rw [dif_pos (show (0 : Fin 2) ∈ scatter_S50000x64_S800000x1_S800000x64_1_0_0_1.scatterDimsToOperandDims from List.mem_singleton.mpr rfl), hsi]
  have hs1 : scatter_S50000x64_S800000x1_S800000x64_1_0_0_1.start (ix2 e d') idx 1 = 0 := rfl
  have hw0 : scatter_S50000x64_S800000x1_S800000x64_1_0_0_1.window (ix2 e d') 0 = 0 := rfl
  have hw1 : scatter_S50000x64_S800000x1_S800000x64_1_0_0_1.window (ix2 e d') 1 = d'.val := rfl
  constructor
  · intro hres
    unfold ScatterDims.resultIdx? at hres
    split at hres
    · rename_i h
      have heq := Option.some.inj hres
      have e0 : (scatter_S50000x64_S800000x1_S800000x64_1_0_0_1.start (ix2 e d') idx 0 + (scatter_S50000x64_S800000x1_S800000x64_1_0_0_1.window (ix2 e d') 0 : ℕ)).toNat = n.val :=
        congrArg (fun f : S50000x64.Idx => (f 0).val) heq
      have e1 : (scatter_S50000x64_S800000x1_S800000x64_1_0_0_1.start (ix2 e d') idx 1 + (scatter_S50000x64_S800000x1_S800000x64_1_0_0_1.window (ix2 e d') 1 : ℕ)).toNat = k.val :=
        congrArg (fun f : S50000x64.Idx => (f 1).val) heq
      have p0 := (h 0).1
      rw [hs0, hw0] at e0 p0
      rw [hs1, hw1] at e1
      exact ⟨by omega, Fin.ext (by omega)⟩
    · exact absurd hres (by simp)
  · rintro ⟨h0, rfl⟩
    have hall : ∀ a, 0 ≤ scatter_S50000x64_S800000x1_S800000x64_1_0_0_1.start (ix2 e d') idx a + (scatter_S50000x64_S800000x1_S800000x64_1_0_0_1.window (ix2 e d') a : ℕ)
        ∧ scatter_S50000x64_S800000x1_S800000x64_1_0_0_1.start (ix2 e d') idx a + (scatter_S50000x64_S800000x1_S800000x64_1_0_0_1.window (ix2 e d') a : ℕ) < (S50000x64.size a : ℕ) := by
      intro a
      match a with
      | ⟨0, _⟩ =>
        show 0 ≤ scatter_S50000x64_S800000x1_S800000x64_1_0_0_1.start (ix2 e d') idx 0 + (scatter_S50000x64_S800000x1_S800000x64_1_0_0_1.window (ix2 e d') 0 : ℕ)
          ∧ scatter_S50000x64_S800000x1_S800000x64_1_0_0_1.start (ix2 e d') idx 0 + (scatter_S50000x64_S800000x1_S800000x64_1_0_0_1.window (ix2 e d') 0 : ℕ) < ((50000 : ℕ) : ℤ)
        rw [hs0, hw0, h0]; have := n.isLt; omega
      | ⟨1, _⟩ =>
        show 0 ≤ scatter_S50000x64_S800000x1_S800000x64_1_0_0_1.start (ix2 e d') idx 1 + (scatter_S50000x64_S800000x1_S800000x64_1_0_0_1.window (ix2 e d') 1 : ℕ)
          ∧ scatter_S50000x64_S800000x1_S800000x64_1_0_0_1.start (ix2 e d') idx 1 + (scatter_S50000x64_S800000x1_S800000x64_1_0_0_1.window (ix2 e d') 1 : ℕ) < ((64 : ℕ) : ℤ)
        rw [hs1, hw1]; have := d'.isLt; omega
    unfold ScatterDims.resultIdx?
    rw [dif_pos hall]
    congr 1
    funext a
    refine Fin.ext ?_
    match a with
    | ⟨0, _⟩ =>
      show (scatter_S50000x64_S800000x1_S800000x64_1_0_0_1.start (ix2 e d') idx 0 + (scatter_S50000x64_S800000x1_S800000x64_1_0_0_1.window (ix2 e d') 0 : ℕ)).toNat = n.val
      rw [hs0, hw0, h0]; omega
    | ⟨1, _⟩ =>
      show (scatter_S50000x64_S800000x1_S800000x64_1_0_0_1.start (ix2 e d') idx 1 + (scatter_S50000x64_S800000x1_S800000x64_1_0_0_1.window (ix2 e d') 1 : ℕ)).toNat = d'.val
      rw [hs1, hw1]; omega

/-- The accumulating row scatter at (n, k): the operand there plus the updates' column k over the edges that
    land on node n. The updates that hit (n, k) are the pairs (e, k) with e landing on n, so the sum over pairs
    is re-indexed by the edge. -/
theorem scatter_rows (x : S50000x64.Idx → EReal) (idx : IVec S800000x1 32) (upd : S800000x64.Idx → EReal)
    (n : Fin 50000) (k : Fin 64) (hit : Fin 800000 → Prop) [DecidablePred hit]
    (hhit : ∀ e, hit e ↔ (idx (ix2 e (0 : Fin 1))).toInt = (n.val : ℤ)) :
    Ideal.hostScatterAdd scatter_S50000x64_S800000x1_S800000x64_1_0_0_1 x idx upd (ix2 n k)
      = x (ix2 n k) + ∑ e ∈ Finset.univ.filter hit, upd (ix2 e k) := by
  unfold Ideal.hostScatterAdd
  refine congrArg (x (ix2 n k) + ·) ?_
  refine Finset.sum_nbij' (fun j : S800000x64.Idx => (j 0 : Fin 800000)) (fun e : Fin 800000 => ix2 e k) ?_ ?_ ?_ ?_ ?_
  · intro j hj
    obtain ⟨e, d', rfl⟩ : ∃ (e : Fin 800000) (d' : Fin 64), j = ix2 e d' := ⟨j 0, j 1, eq_ix2 j⟩
    have h := (scatter_rows_hit idx e d' n k).mp (Finset.mem_filter.mp hj).2
    exact Finset.mem_filter.mpr ⟨Finset.mem_univ _, (hhit e).mpr h.1⟩
  · intro e he
    exact Finset.mem_filter.mpr ⟨Finset.mem_univ _,
      (scatter_rows_hit idx e k n k).mpr ⟨(hhit e).mp (Finset.mem_filter.mp he).2, rfl⟩⟩
  · intro j hj
    obtain ⟨e, d', rfl⟩ : ∃ (e : Fin 800000) (d' : Fin 64), j = ix2 e d' := ⟨j 0, j 1, eq_ix2 j⟩
    obtain ⟨_, rfl⟩ := (scatter_rows_hit idx e d' n k).mp (Finset.mem_filter.mp hj).2
    rfl
  · intro e he
    rfl
  · intro j hj
    obtain ⟨e, d', rfl⟩ : ∃ (e : Fin 800000) (d' : Fin 64), j = ix2 e d' := ⟨j 0, j 1, eq_ix2 j⟩
    obtain ⟨_, rfl⟩ := (scatter_rows_hit idx e d' n k).mp (Finset.mem_filter.mp hj).2
    rfl

/-! ## The degree scatter: update e lands on n iff edge e's index, read signed, is n -/

theorem scatter_deg_hit (idx : IVec S800000x1 32) (e : Fin 800000) (n : Fin 50000) :
    scatter_S50000_S800000x1_S800000_n_0_0_1.resultIdx? (ix1 e) idx = some (ix1 n) ↔ (idx (ix2 e (0 : Fin 1))).toInt = (n.val : ℤ) := by
  have hsi : scatter_S50000_S800000x1_S800000_n_0_0_1.siIdx (ix1 e)
      ⟨List.idxOf (0 : Fin 1) scatter_S50000_S800000x1_S800000_n_0_0_1.scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  have hs0 : scatter_S50000_S800000x1_S800000_n_0_0_1.start (ix1 e) idx 0 = (idx (ix2 e (0 : Fin 1))).toInt := by
    unfold ScatterDims.start
    rw [dif_pos (show (0 : Fin 1) ∈ scatter_S50000_S800000x1_S800000_n_0_0_1.scatterDimsToOperandDims from List.mem_singleton.mpr rfl), hsi]
  have hw0 : scatter_S50000_S800000x1_S800000_n_0_0_1.window (ix1 e) 0 = 0 := rfl
  constructor
  · intro hres
    unfold ScatterDims.resultIdx? at hres
    split at hres
    · rename_i h
      have heq := Option.some.inj hres
      have e0 : (scatter_S50000_S800000x1_S800000_n_0_0_1.start (ix1 e) idx 0 + (scatter_S50000_S800000x1_S800000_n_0_0_1.window (ix1 e) 0 : ℕ)).toNat = n.val :=
        congrArg (fun f : S50000.Idx => (f 0).val) heq
      have p0 := (h 0).1
      rw [hs0, hw0] at e0 p0
      omega
    · exact absurd hres (by simp)
  · intro h0
    have hall : ∀ a, 0 ≤ scatter_S50000_S800000x1_S800000_n_0_0_1.start (ix1 e) idx a + (scatter_S50000_S800000x1_S800000_n_0_0_1.window (ix1 e) a : ℕ)
        ∧ scatter_S50000_S800000x1_S800000_n_0_0_1.start (ix1 e) idx a + (scatter_S50000_S800000x1_S800000_n_0_0_1.window (ix1 e) a : ℕ) < (S50000.size a : ℕ) := by
      intro a
      match a with
      | ⟨0, _⟩ =>
        show 0 ≤ scatter_S50000_S800000x1_S800000_n_0_0_1.start (ix1 e) idx 0 + (scatter_S50000_S800000x1_S800000_n_0_0_1.window (ix1 e) 0 : ℕ)
          ∧ scatter_S50000_S800000x1_S800000_n_0_0_1.start (ix1 e) idx 0 + (scatter_S50000_S800000x1_S800000_n_0_0_1.window (ix1 e) 0 : ℕ) < ((50000 : ℕ) : ℤ)
        rw [hs0, hw0, h0]; have := n.isLt; omega
    unfold ScatterDims.resultIdx?
    rw [dif_pos hall]
    congr 1
    funext a
    refine Fin.ext ?_
    match a with
    | ⟨0, _⟩ =>
      show (scatter_S50000_S800000x1_S800000_n_0_0_1.start (ix1 e) idx 0 + (scatter_S50000_S800000x1_S800000_n_0_0_1.window (ix1 e) 0 : ℕ)).toNat = n.val
      rw [hs0, hw0, h0]; omega

/-- The accumulating degree scatter at n: the operand there plus the updates over the edges that land on n. -/
theorem scatter_deg (x : S50000.Idx → EReal) (idx : IVec S800000x1 32) (upd : S800000.Idx → EReal)
    (n : Fin 50000) (hit : Fin 800000 → Prop) [DecidablePred hit]
    (hhit : ∀ e, hit e ↔ (idx (ix2 e (0 : Fin 1))).toInt = (n.val : ℤ)) :
    Ideal.hostScatterAdd scatter_S50000_S800000x1_S800000_n_0_0_1 x idx upd (ix1 n)
      = x (ix1 n) + ∑ e ∈ Finset.univ.filter hit, upd (ix1 e) := by
  unfold Ideal.hostScatterAdd
  refine congrArg (x (ix1 n) + ·) ?_
  refine Finset.sum_nbij' (fun j : S800000.Idx => (j 0 : Fin 800000)) (fun e : Fin 800000 => ix1 e) ?_ ?_ ?_ ?_ ?_
  · intro j hj
    obtain ⟨e, rfl⟩ : ∃ e : Fin 800000, j = ix1 e := ⟨j 0, eq_ix1 j⟩
    exact Finset.mem_filter.mpr ⟨Finset.mem_univ _,
      (hhit e).mpr ((scatter_deg_hit idx e n).mp (Finset.mem_filter.mp hj).2)⟩
  · intro e he
    exact Finset.mem_filter.mpr ⟨Finset.mem_univ _,
      (scatter_deg_hit idx e n).mpr ((hhit e).mp (Finset.mem_filter.mp he).2)⟩
  · intro j hj
    exact (eq_ix1 j).symm
  · intro e he
    rfl
  · intro j hj
    exact congrArg upd (eq_ix1 j)

/-- The two scatters as the program spells them: the host's accumulating scatter is, at the ideal instance, the
    operand plus the exact sum of the updates that land. -/
theorem scatterAdd_rows (x : FVec Ideal S50000x64 .f32) (idx : IVec S800000x1 32) (upd : FVec Ideal S800000x64 .f32)
    (n : Fin 50000) (k : Fin 64) (hit : Fin 800000 → Prop) [DecidablePred hit]
    (hhit : ∀ e, hit e ↔ (idx (ix2 e (0 : Fin 1))).toInt = (n.val : ℤ)) :
    Host.scatterAdd (F := Ideal) scatter_S50000x64_S800000x1_S800000x64_1_0_0_1 x idx upd (ix2 n k)
      = x (ix2 n k) + ∑ e ∈ Finset.univ.filter hit, upd (ix2 e k) := by
  delta Host.scatterAdd
  rw [Ideal.hostScatterAdd_def]
  exact scatter_rows x idx upd n k hit hhit
theorem scatterAdd_deg (x : FVec Ideal S50000 .f32) (idx : IVec S800000x1 32) (upd : FVec Ideal S800000 .f32)
    (n : Fin 50000) (hit : Fin 800000 → Prop) [DecidablePred hit]
    (hhit : ∀ e, hit e ↔ (idx (ix2 e (0 : Fin 1))).toInt = (n.val : ℤ)) :
    Host.scatterAdd (F := Ideal) scatter_S50000_S800000x1_S800000_n_0_0_1 x idx upd (ix1 n)
      = x (ix1 n) + ∑ e ∈ Finset.univ.filter hit, upd (ix1 e) := by
  delta Host.scatterAdd
  rw [Ideal.hostScatterAdd_def]
  exact scatter_deg x idx upd n hit hhit

end Library

/-! ## The index maps of the layout stages, at coordinates -/

theorem idx_col (e : Fin 800000) : Read.idx_main_v5 (ix2 e (0 : Fin 1)) = ix1 e :=
  funext fun a => Fin.ext (by match a with | ⟨0, _⟩ => rfl)
theorem idx_wcol (e : Fin 800000) : Read.idx_main_v7 (ix2 e (0 : Fin 1)) = ix1 e :=
  funext fun a => Fin.ext (by match a with | ⟨0, _⟩ => rfl)
theorem idx_wrow (e : Fin 800000) (d : Fin 64) : Read.idx_main_v8 (ix2 e d) = ix2 e (0 : Fin 1) :=
  funext fun a => Fin.ext (by match a with | ⟨0, _⟩ => rfl | ⟨1, _⟩ => rfl)
theorem idx_dcol (e : Fin 800000) : Read.idx_main_v11 (ix2 e (0 : Fin 1)) = ix1 e :=
  funext fun a => Fin.ext (by match a with | ⟨0, _⟩ => rfl)
theorem idx_dcol' (e : Fin 800000) : Read.idx_main_v15 (ix2 e (0 : Fin 1)) = ix1 e :=
  funext fun a => Fin.ext (by match a with | ⟨0, _⟩ => rfl)
theorem idx_degcol (n : Fin 50000) : Read.idx_main_v19 (ix2 n (0 : Fin 1)) = ix1 n :=
  funext fun a => Fin.ext (by match a with | ⟨0, _⟩ => rfl)
theorem idx_degrow (n : Fin 50000) (k : Fin 64) : Read.idx_main_v20 (ix2 n k) = ix2 n (0 : Fin 1) :=
  funext fun a => Fin.ext (by match a with | ⟨0, _⟩ => rfl | ⟨1, _⟩ => rfl)
theorem idx_selfT (k o : Fin 64) : Read.idx_main_v22 (ix2 k o) = ix2 o k :=
  funext fun a => Fin.ext (by match a with | ⟨0, _⟩ => rfl | ⟨1, _⟩ => rfl)
theorem idx_selfL (n : Fin 50000) (o k : Fin 64) : Read.lidx_main_v23 (ix2 n o) k = ix2 n k :=
  funext fun a => Fin.ext (by match a with | ⟨0, _⟩ => rfl | ⟨1, _⟩ => rfl)
theorem idx_selfR (n : Fin 50000) (o k : Fin 64) : Read.ridx_main_v23 (ix2 n o) k = ix2 k o :=
  funext fun a => Fin.ext (by match a with | ⟨0, _⟩ => rfl | ⟨1, _⟩ => rfl)
theorem idx_selfB (o : Fin 64) : Read.idx_main_v24 (ix2 (0 : Fin 1) o) = ix1 o :=
  funext fun a => Fin.ext (by match a with | ⟨0, _⟩ => rfl)
theorem idx_selfB' (n : Fin 50000) (o : Fin 64) : Read.idx_main_v25 (ix2 n o) = ix2 (0 : Fin 1) o :=
  funext fun a => Fin.ext (by match a with | ⟨0, _⟩ => rfl | ⟨1, _⟩ => rfl)
theorem idx_neighT (k o : Fin 64) : Read.idx_main_v27 (ix2 k o) = ix2 o k :=
  funext fun a => Fin.ext (by match a with | ⟨0, _⟩ => rfl | ⟨1, _⟩ => rfl)
theorem idx_neighL (n : Fin 50000) (o k : Fin 64) : Read.lidx_main_v28 (ix2 n o) k = ix2 n k :=
  funext fun a => Fin.ext (by match a with | ⟨0, _⟩ => rfl | ⟨1, _⟩ => rfl)
theorem idx_neighR (n : Fin 50000) (o k : Fin 64) : Read.ridx_main_v28 (ix2 n o) k = ix2 k o :=
  funext fun a => Fin.ext (by match a with | ⟨0, _⟩ => rfl | ⟨1, _⟩ => rfl)
theorem idx_neighB (o : Fin 64) : Read.idx_main_v29 (ix2 (0 : Fin 1) o) = ix1 o :=
  funext fun a => Fin.ext (by match a with | ⟨0, _⟩ => rfl)
theorem idx_neighB' (n : Fin 50000) (o : Fin 64) : Read.idx_main_v30 (ix2 n o) = ix2 (0 : Fin 1) o :=
  funext fun a => Fin.ext (by match a with | ⟨0, _⟩ => rfl | ⟨1, _⟩ => rfl)

/-! ## The stages, at coordinates -/

/-- The start-index column at edge e is the source id itself: an id below 50000 is not wrapped. -/
theorem start_at (x6 : (⟨S800000, .i32⟩ : BufTy).Contents (Elt Ideal)) (e : Fin 800000) (hw : (x6 (ix1 e)).toNat < 50000) :
    Read.val_main_v5 (F := Ideal) x6 (ix2 e (0 : Fin 1)) = x6 (ix1 e) := by
  rw [Read.val_main_v5_apply, idx_col, Read.val_main_v4_apply, Read.val_main_v1_apply, Read.val_main_v0_apply,
    Read.val_main_c_apply]
  exact src_select _ _ hw

/-- The message of edge e at column d: the feature row the edge reads, scaled by the edge's weight. -/
theorem msg_at (x0 : (⟨S50000x64, .f32⟩ : BufTy).Contents (Elt Ideal)) (x1 : (⟨S800000, .f32⟩ : BufTy).Contents (Elt Ideal)) (x6 : (⟨S800000, .i32⟩ : BufTy).Contents (Elt Ideal)) (e : Fin 800000) (d : Fin 64)
    (hw : (x6 (ix1 e)).toNat < 50000) :
    Read.val_main_v9 (F := Ideal) x0 x1 x6 (ix2 e d) = x0 (ix2 (Cert.Spec.rowOf x6 e) d) * x1 (ix1 e) := by
  rw [Read.val_main_v9_apply, Read.val_main_v8_apply, idx_wrow, Read.val_main_v7_apply, idx_wcol]
  unfold Read.val_main_v6
  rw [gather_row_of x0 _ e d (Cert.Spec.rowOf x6 e) (by
    rw [start_at x6 e hw, src_clamp _ hw]
    exact (Nat.mod_eq_of_lt hw).symm)]
  rfl

/-- An edge lands on node n exactly when its entry of the scatter-index column, read signed, is n. -/
theorem hit_iff (x7 : (⟨S800000, .i32⟩ : BufTy).Contents (Elt Ideal)) (e : Fin 800000) (n : Fin 50000) :
    Cert.Spec.hitOf x7 e n ↔ (Read.val_main_v11 (F := Ideal) x7 (ix2 e (0 : Fin 1))).toInt = (n.val : ℤ) := by
  rw [Read.val_main_v11_apply, idx_dcol]; exact Iff.rfl
theorem hit_iff' (x7 : (⟨S800000, .i32⟩ : BufTy).Contents (Elt Ideal)) (e : Fin 800000) (n : Fin 50000) :
    Cert.Spec.hitOf x7 e n ↔ (Read.val_main_v15 (F := Ideal) x7 (ix2 e (0 : Fin 1))).toInt = (n.val : ℤ) := by
  rw [Read.val_main_v15_apply, idx_dcol']; exact Iff.rfl

/-- The zero-filled operands of the two scatters, and the ones the degree scatter adds and the maximum compares
    with, at coordinates. -/
theorem zero_rows (n : Fin 50000) (k : Fin 64) : Read.val_main_v10 (F := Ideal) (ix2 n k) = 0 := by
  rw [Read.val_main_v10_apply, Read.val_main_cst_apply, Ideal.ofBits_def, Ideal.ofBits_zero_f32]
theorem zero_deg (n : Fin 50000) : Read.val_main_v14 (F := Ideal) (ix1 n) = 0 := by
  rw [Read.val_main_v14_apply, Read.val_main_cst_2_apply, Ideal.ofBits_def, Ideal.ofBits_zero_f32]
theorem one_edge (e : Fin 800000) : Read.val_main_v13 (F := Ideal) (ix1 e) = 1 := by
  rw [Read.val_main_v13_apply, Read.val_main_cst_1_apply, Ideal.ofBits_def, ofBits_one]
theorem one_node (n : Fin 50000) : Read.val_main_v17 (F := Ideal) (ix1 n) = 1 := by
  rw [Read.val_main_v17_apply, Read.val_main_cst_3_apply, Ideal.ofBits_def, ofBits_one]

/-- The message sum of node n at column k: the messages of the edges that land on n. -/
theorem sum_at (x0 : (⟨S50000x64, .f32⟩ : BufTy).Contents (Elt Ideal)) (x1 : (⟨S800000, .f32⟩ : BufTy).Contents (Elt Ideal)) (x6 x7 : (⟨S800000, .i32⟩ : BufTy).Contents (Elt Ideal)) (n : Fin 50000) (k : Fin 64)
    (hsrc : ∀ e : Fin 800000, (x6 (ix1 e)).toNat < 50000) :
    Read.val_main_v12 (F := Ideal) x0 x1 x6 x7 (ix2 n k)
      = ∑ e ∈ Finset.univ.filter (fun e => Cert.Spec.hitOf x7 e n), x0 (ix2 (Cert.Spec.rowOf x6 e) k) * x1 (ix1 e) := by
  delta Read.val_main_v12
  refine (scatterAdd_rows _ _ _ n k (fun e => Cert.Spec.hitOf x7 e n) (fun e => hit_iff x7 e n)).trans ?_
  refine (congrArg₂ (· + ·) (zero_rows n k) (Finset.sum_congr rfl fun e _ => msg_at x0 x1 x6 e k (hsrc e))).trans ?_
  exact zero_add _

/-- The in-degree of node n: one for each edge that lands on n. -/
theorem deg_at (x7 : (⟨S800000, .i32⟩ : BufTy).Contents (Elt Ideal)) (n : Fin 50000) :
    Read.val_main_v16 (F := Ideal) x7 (ix1 n) = ∑ e ∈ Finset.univ.filter (fun e => Cert.Spec.hitOf x7 e n), (1 : EReal) := by
  delta Read.val_main_v16
  refine (scatterAdd_deg _ _ _ n (fun e => Cert.Spec.hitOf x7 e n) (fun e => hit_iff' x7 e n)).trans ?_
  refine (congrArg₂ (· + ·) (zero_deg n) (Finset.sum_congr rfl fun e _ => one_edge e)).trans ?_
  exact zero_add _

/-- The divisor of node n's row: its in-degree, at least one. -/
theorem den_at (x7 : (⟨S800000, .i32⟩ : BufTy).Contents (Elt Ideal)) (n : Fin 50000) (k : Fin 64) :
    Read.val_main_v20 (F := Ideal) x7 (ix2 n k)
      = max (∑ e ∈ Finset.univ.filter (fun e => Cert.Spec.hitOf x7 e n), (1 : EReal)) 1 := by
  refine Eq.trans ?_ (congrArg (max · (1 : EReal)) (deg_at x7 n))
  rw [Read.val_main_v20_apply, idx_degrow, Read.val_main_v19_apply, idx_degcol, Read.val_main_v18_apply,
    Ideal.maximumf_def, one_node]

/-- The mean message of node n at column k: the message sum over the in-degree, at least one. -/
theorem mean_at (x0 : (⟨S50000x64, .f32⟩ : BufTy).Contents (Elt Ideal)) (x1 : (⟨S800000, .f32⟩ : BufTy).Contents (Elt Ideal)) (x6 x7 : (⟨S800000, .i32⟩ : BufTy).Contents (Elt Ideal)) (n : Fin 50000) (k : Fin 64)
    (hsrc : ∀ e : Fin 800000, (x6 (ix1 e)).toNat < 50000) :
    Read.val_main_v21 (F := Ideal) x0 x1 x6 x7 (ix2 n k)
      = Ideal.div (∑ e ∈ Finset.univ.filter (fun e => Cert.Spec.hitOf x7 e n), x0 (ix2 (Cert.Spec.rowOf x6 e) k) * x1 (ix1 e))
          (max (∑ e ∈ Finset.univ.filter (fun e => Cert.Spec.hitOf x7 e n), (1 : EReal)) 1) := by
  refine Eq.trans ?_ (congrArg₂ Ideal.div (sum_at x0 x1 x6 x7 n k hsrc) (den_at x7 n k))
  rw [Read.val_main_v21_apply, Ideal.hostDivf_def]

/-! ## The reference's term is G -/

/-- With every source id in range, the reference's last stage is G of the arguments: the self layer of the node's own
    features beside the neighbour layer of its mean message, the transposed weights read at (k, o) being W (o, k). -/
theorem result_eq (x0 : (⟨S50000x64, .f32⟩ : BufTy).Contents (Elt Ideal)) (x1 : (⟨S800000, .f32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 x7 : (⟨S800000, .i32⟩ : BufTy).Contents (Elt Ideal))
    (hsrc : ∀ e : Fin 800000, (x6 (ix1 e)).toNat < 50000) :
    Read.val_main_v32 (F := Ideal) x0 x1 x2 x3 x4 x5 x6 x7
      = Cert.Spec.G x0 x1 x2 x3 x4 x5 (Cert.Spec.rowOf x6) (Cert.Spec.hitOf x7) := by
  funext i
  obtain ⟨n, o, rfl⟩ : ∃ (n : Fin 50000) (o : Fin 64), i = ix2 n o := ⟨i 0, i 1, eq_ix2 i⟩
  rw [Read.val_main_v32_apply, Read.val_main_v26_apply, Read.val_main_v31_apply, Read.val_main_v23_apply,
    Read.val_main_v28_apply, Read.val_main_v25_apply, idx_selfB', Read.val_main_v24_apply, idx_selfB,
    Read.val_main_v30_apply, idx_neighB', Read.val_main_v29_apply, idx_neighB, Ideal.addf_def, Ideal.addf_def, Ideal.addf_def]
  show _ = Cert.Spec.GAt x0 x1 x2 x3 x4 x5 (Cert.Spec.rowOf x6) (Cert.Spec.hitOf x7) n o
  delta Cert.Spec.GAt
  refine congrArg₂ (· + ·) (congrArg (· + x3 (ix1 o)) ?_) (congrArg (· + x5 (ix1 o)) ?_)
  · refine Finset.sum_congr rfl fun k _ => ?_
    rw [idx_selfL, idx_selfR, Read.val_main_v22_apply, idx_selfT]
  · refine Finset.sum_congr rfl fun k _ => ?_
    refine Eq.trans ?_ (congrArg (· * x4 (ix2 o k)) (mean_at x0 x1 x6 x7 n k hsrc))
    rw [idx_neighL, idx_neighR, Read.val_main_v27_apply, idx_neighT]

/-! ## The runs -/

variable (m : (ℓ : Loc nD τ sig) → Buf (Elt Ideal) ℓ) (ρ : Dev nD → PrngReg)

/-- The reference's frame: every weakly fair execution terminates, nothing faulting, the arguments unchanged. -/
theorem frame_run : θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun _ h c => (h c).2) (Value.run (F := Ideal) m ρ)

/-- With every source id in range the reference's result is G of the arguments. -/
theorem run_G (hsrc : ∀ (c : Dev nD) (e : Fin 800000),
      ((m ((c.tc : Thread nD τ).loc main_arg6) : Cert.Spec.SE.Idx → BitVec 32) (ix1 e)).toNat < 50000) :
    θ_run (defs (F := Ideal)) (onTc (τ := τ) (main (F := Ideal))) ⟨m, fun _ => 0, ρ⟩ (fun r => ∀ c : Dev nD,
      r.2.mem ((c.tc : Thread nD τ).loc main_v32)
        = Cert.Spec.G (m ((c.tc : Thread nD τ).loc main_arg0) : Cert.Spec.SND.Idx → EReal) (m ((c.tc : Thread nD τ).loc main_arg1) : Cert.Spec.SE.Idx → EReal)
            (m ((c.tc : Thread nD τ).loc main_arg2) : Cert.Spec.SDD.Idx → EReal) (m ((c.tc : Thread nD τ).loc main_arg3) : Cert.Spec.SD.Idx → EReal)
            (m ((c.tc : Thread nD τ).loc main_arg4) : Cert.Spec.SDD.Idx → EReal) (m ((c.tc : Thread nD τ).loc main_arg5) : Cert.Spec.SD.Idx → EReal)
            (Cert.Spec.rowOf (m ((c.tc : Thread nD τ).loc main_arg6) : Cert.Spec.SE.Idx → BitVec 32))
            (Cert.Spec.hitOf (m ((c.tc : Thread nD τ).loc main_arg7) : Cert.Spec.SE.Idx → BitVec 32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run (defs (F := Ideal)) _ _).mono (fun _ h c => ⟨(h c).1.trans ?_, (h c).2⟩) (Value.run (F := Ideal) m ρ)
  exact (Read.val_main_v32_eq _ _ _ _ _ _ _ _).trans (result_eq _ _ _ _ _ _ _ _ (hsrc c))

end Cert.ReferenceIdeal.RefValue

end
-- ==== Proof.PreRead.lean ====
/-
  The precondition read back: when the printed predicate is all ones, every source id, read as a signed word,
  is at least 0 and below 50000 — so as a natural number it is below 50000.
-/
import proofs.«404055_j420906795210_2_alg».proof.Pre_finite_inputs
import Idealize.ShloMosaic.Lib.ReduceAll
import Idealize.ShloMosaic.Lib.Affine
import Idealize.ShloMosaic.Lib.ValueIdx

noncomputable section

namespace Cert.PreRead

open Idealize.ShloMosaic Idealize.ShloMosaic.ValueIdx Cert.Pre_finite_inputs

instance : Subsingleton S_.Idx := ⟨fun a b => funext fun d => d.elim0⟩

/-- A signed word between 0 and 50000 is that natural number. -/
theorem toNat_lt_of_toInt {x : BitVec 32} (h0 : (0#32 : BitVec 32).toInt ≤ x.toInt) (h1 : x.toInt < (50000#32 : BitVec 32).toInt) :
    x.toNat < 50000 := by
  have e0 : (0#32 : BitVec 32).toInt = 0 := by decide
  have e1 : (50000#32 : BitVec 32).toInt = 50000 := by decide
  rw [e0] at h0; rw [e1] at h1
  rw [BitVec.toInt_eq_toNat_cond] at h0 h1
  have := x.isLt
  split at h0 <;> omega

variable {F : FTy → Type} [FloatOps F] [Facts]

/-- Where the precondition holds every source id is in range. -/
theorem src_lt (a0 : FVec F S50000x64 .f32) (a1 : FVec F S800000 .f32) (a2 : FVec F S64x64 .f32) (a3 : FVec F S64 .f32)
    (a4 : FVec F S64x64 .f32) (a5 : FVec F S64 .f32) (a6 a7 : IVec S800000 32)
    (h : fn (F := F) a0 a1 a2 a3 a4 a5 a6 a7 = fun _ => 1#1) (e : S800000.Idx) : (a6 e).toNat < 50000 := by
  have h0 := congrFun h ix0
  dsimp only [fn, fn_part1, fn_part2] at h0
  obtain ⟨h32, h35⟩ := IntOp.andi_eq_one.mp h0
  obtain ⟨-, h31⟩ := IntOp.andi_eq_one.mp h32
  have lt := Host.reduce_andi_all _ _ _ _ ix0 h35 e
  have ge := Host.reduce_andi_all _ _ _ _ ix0 h31 e
  exact toNat_lt_of_toInt (IntOp.cmpi_sge.mp ge) (IntOp.cmpi_slt.mp lt)

end Cert.PreRead

end
-- ==== Proof.lean ====
/-
  The certificate of a graph layer computed by one-hot contraction against its gather / segment-sum reference.

  Both printings of the kernel run the same way: eight host stretches pad the edge and node arrays, the gather
  region accumulates, node block by node block, the product of the selected edge weights with the node features
  and stores it as the messages; the scatter region accumulates, edge block by edge block, the one-hot products
  with the messages and with ones, and at the last edge block applies the two linear layers to the mean; a slice
  drops the padding rows. Each region's body is run at every grid point against an invariant that names what its
  scratch accumulators hold; no item writes an argument, which is the frame. Read as values over the extended
  reals, the regions compute sums over all padded node ids and all padded edges of one-hot terms; with every
  source id in range (the precondition) those collapse to the reference's gathered, scaled and segment-summed
  messages and in-degrees, and the two programs apply the same mean and the same two linear layers.
-/
import proofs.«404055_j420906795210_2_alg».proof.Defs
import proofs.«404055_j420906795210_2_alg».proof.Proof.Gen.Kernel
import proofs.«404055_j420906795210_2_alg».proof.Proof.Gen.KernelIdeal
import proofs.«404055_j420906795210_2_alg».proof.Proof.Gen.ReferenceIdeal
import proofs.«404055_j420906795210_2_alg».proof.Proof.Gen.Pre_finite_inputs
import proofs.«404055_j420906795210_2_alg».proof.Proof.K.Args
import proofs.«404055_j420906795210_2_alg».proof.Proof.KI.Args
import proofs.«404055_j420906795210_2_alg».proof.Proof.KI.Result
import proofs.«404055_j420906795210_2_alg».proof.Proof.RefValue
import proofs.«404055_j420906795210_2_alg».proof.Proof.PreRead
import Idealize.ShloMosaic.Adequacy
import Idealize.ShloMosaic.Init

noncomputable section

namespace Cert.Proof

open Idealize.ShloMosaic Idealize.ShloMosaic.TcCoe Idealize.ShloMosaic.ValueIdx Idealize.SL.Sem

attribute [local instance] Cert.Kernel.Gen.facts Cert.KernelIdeal.Gen.facts Cert.ReferenceIdeal.Gen.facts Cert.Pre_finite_inputs.Gen.facts

/-- The word-level kernel runs to the end, faults nowhere, and leaves its arguments as launched. -/
theorem frame_k : Cert.frame_Kernel := fun m ρ _ => Cert.Kernel.H.frame m ρ

/-- So does its idealization. -/
theorem frame_ki : Cert.frame_KernelIdeal := fun m ρ _ => Cert.KernelIdeal.H.frame m ρ

/-- So does the reference. -/
theorem frame_ri : Cert.frame_ReferenceIdeal := fun m ρ _ => Cert.ReferenceIdeal.RefValue.frame_run m ρ

/-- At the ideal instance both programs end with the result at G of the arguments: the kernel's one-hot sums
    collapse to it where every source id is in range, which the precondition says. -/
theorem algebraic : Cert.algebraic_KernelIdeal_ReferenceIdeal := by
  intro m ρ m' ρ' hpre hagree
  have hsrc : ∀ (c : Dev Cert.KernelIdeal.nD) (e : Fin 800000),
      ((m ((c.tc : Thread Cert.KernelIdeal.nD Cert.KernelIdeal.τ).loc Cert.KernelIdeal.main_arg6) : Cert.Spec.SE.Idx → BitVec 32) (ix1 e)).toNat < 50000 :=
    fun c e => Cert.PreRead.src_lt _ _ _ _ _ _ _ _ (hpre c) (ix1 e)
  refine ⟨fun c => Cert.Spec.G
      (m ((c.tc : Thread Cert.KernelIdeal.nD Cert.KernelIdeal.τ).loc Cert.KernelIdeal.main_arg0) : Cert.Spec.SND.Idx → EReal)
      (m ((c.tc : Thread Cert.KernelIdeal.nD Cert.KernelIdeal.τ).loc Cert.KernelIdeal.main_arg1) : Cert.Spec.SE.Idx → EReal)
      (m ((c.tc : Thread Cert.KernelIdeal.nD Cert.KernelIdeal.τ).loc Cert.KernelIdeal.main_arg2) : Cert.Spec.SDD.Idx → EReal)
      (m ((c.tc : Thread Cert.KernelIdeal.nD Cert.KernelIdeal.τ).loc Cert.KernelIdeal.main_arg3) : Cert.Spec.SD.Idx → EReal)
      (m ((c.tc : Thread Cert.KernelIdeal.nD Cert.KernelIdeal.τ).loc Cert.KernelIdeal.main_arg4) : Cert.Spec.SDD.Idx → EReal)
      (m ((c.tc : Thread Cert.KernelIdeal.nD Cert.KernelIdeal.τ).loc Cert.KernelIdeal.main_arg5) : Cert.Spec.SD.Idx → EReal)
      (Cert.Spec.rowOf (m ((c.tc : Thread Cert.KernelIdeal.nD Cert.KernelIdeal.τ).loc Cert.KernelIdeal.main_arg6) : Cert.Spec.SE.Idx → BitVec 32))
      (Cert.Spec.hitOf (m ((c.tc : Thread Cert.KernelIdeal.nD Cert.KernelIdeal.τ).loc Cert.KernelIdeal.main_arg7) : Cert.Spec.SE.Idx → BitVec 32)), ?_, ?_⟩
  · refine (θ_run (Cert.KernelIdeal.defs (F := Ideal)) _ _).mono (fun r h c => ?_) (Cert.KernelIdeal.H.run_all m ρ)
    exact ⟨(h c _ (Cert.KernelIdeal.H.mem_uc Cert.KernelIdeal.main_v6 (by decide))).trans (Cert.KernelIdeal.H.result_eq m c (hsrc c)),
      (h c _ (Cert.KernelIdeal.H.mem_uc Cert.KernelIdeal.main_arg0 (by decide))).trans (Cert.KernelIdeal.H.W11_main_arg0 m c),
      (h c _ (Cert.KernelIdeal.H.mem_uc Cert.KernelIdeal.main_arg1 (by decide))).trans (Cert.KernelIdeal.H.W11_main_arg1 m c),
      (h c _ (Cert.KernelIdeal.H.mem_uc Cert.KernelIdeal.main_arg2 (by decide))).trans (Cert.KernelIdeal.H.W11_main_arg2 m c),
      (h c _ (Cert.KernelIdeal.H.mem_uc Cert.KernelIdeal.main_arg3 (by decide))).trans (Cert.KernelIdeal.H.W11_main_arg3 m c),
      (h c _ (Cert.KernelIdeal.H.mem_uc Cert.KernelIdeal.main_arg4 (by decide))).trans (Cert.KernelIdeal.H.W11_main_arg4 m c),
      (h c _ (Cert.KernelIdeal.H.mem_uc Cert.KernelIdeal.main_arg5 (by decide))).trans (Cert.KernelIdeal.H.W11_main_arg5 m c),
      (h c _ (Cert.KernelIdeal.H.mem_uc Cert.KernelIdeal.main_arg6 (by decide))).trans (Cert.KernelIdeal.H.W11_main_arg6 m c),
      (h c _ (Cert.KernelIdeal.H.mem_uc Cert.KernelIdeal.main_arg7 (by decide))).trans (Cert.KernelIdeal.H.W11_main_arg7 m c)⟩
  · have hsrc' : ∀ (c : Dev Cert.ReferenceIdeal.nD) (e : Fin 800000),
        ((m' ((c.tc : Thread Cert.ReferenceIdeal.nD Cert.ReferenceIdeal.τ).loc Cert.ReferenceIdeal.main_arg6) : Cert.Spec.SE.Idx → BitVec 32) (ix1 e)).toNat < 50000 := by
      intro c e; rw [(hagree c).2.2.2.2.2.2.1]; exact hsrc c e
    refine (θ_run (Cert.ReferenceIdeal.defs (F := Ideal)) _ _).mono (fun r h c => ⟨(h c).1.trans ?_, (h c).2⟩)
      (Cert.ReferenceIdeal.RefValue.run_G m' ρ' hsrc')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
